-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S3072x1024 : Shape := ⟨2, ![3072, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S8x1024x1024 .f32) (main_arg1 : IVec S8x1024 32) (main_arg2 : FVec F S3072x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S8x1024x1024 : Shape := ⟨3, ![8, 1024, 1024]⟩
abbrev S8x1024 : Shape := ⟨2, ![8, 1024]⟩
abbrev S3072x1024 : Shape := ⟨2, ![3072, 1024]⟩
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S8x1024x3x16x64 : Shape := ⟨5, ![8, 1024, 3, 16, 64]⟩
abbrev S8x1024x1 : Shape := ⟨3, ![8, 1024, 1]⟩
abbrev S8x1x1024 : Shape := ⟨3, ![8, 1, 1024]⟩
abbrev S1x1024x1x16x64 : Shape := ⟨5, ![1, 1024, 1, 16, 64]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S1024x16x64 : Shape := ⟨3, ![1024, 16, 64]⟩
abbrev S1024x1 : Shape := ⟨2, ![1024, 1]⟩
abbrev S1x1024 : Shape := ⟨2, ![1, 1024]⟩
abbrev S1024x1x64 : Shape := ⟨3, ![1024, 1, 64]⟩
abbrev S1024x64 : Shape := ⟨2, ![1024, 64]⟩
abbrev S1024 : Shape := ⟨1, ![1024]⟩
abbrev S1x1024x64 : Shape := ⟨3, ![1, 1024, 64]⟩

abbrev nBuf : Space → Nat
  | .hbm => 13
  | .vmem => 18
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i32⟩
  | .hbm, ⟨2, _⟩ => ⟨S3072x1024, .f32⟩
  | .hbm, ⟨3, _⟩ => ⟨S8192x1024, .f32⟩
  | .hbm, ⟨4, _⟩ => ⟨S1024x3072, .f32⟩
  | .hbm, ⟨5, _⟩ => ⟨S8192x1024, .bf16⟩
  | .hbm, ⟨6, _⟩ => ⟨S1024x3072, .bf16⟩
  | .hbm, ⟨7, _⟩ => ⟨S8192x3072, .bf16⟩
  | .hbm, ⟨8, _⟩ => ⟨S8x1024x3x16x64, .bf16⟩
  | .hbm, ⟨9, _⟩ => ⟨S8x1024, .f32⟩
  | .hbm, ⟨10, _⟩ => ⟨S8x1024x1, .f32⟩
  | .hbm, ⟨11, _⟩ => ⟨S8x1x1024, .f32⟩
  | .hbm, ⟨12, _⟩ => ⟨S8x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1x16x64, .bf16⟩
  | .local _ .vmem, ⟨7, _⟩ => ⟨S1x1024x1x16x64, .bf16⟩
  | .local _ .vmem, ⟨8, _⟩ => ⟨S1x1024x1x16x64, .bf16⟩
  | .local _ .vmem, ⟨9, _⟩ => ⟨S1x1024x1x16x64, .bf16⟩
  | .local _ .vmem, ⟨10, _⟩ => ⟨S1x1024x1x16x64, .bf16⟩
  | .local _ .vmem, ⟨11, _⟩ => ⟨S1x1024x1x16x64, .bf16⟩
  | .local _ .vmem, ⟨12, _⟩ => ⟨S1x1024x1, .f32⟩
  | .local _ .vmem, ⟨13, _⟩ => ⟨S1x1024x1, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x1024, .f32⟩
  | .local _ .vmem, ⟨17, _⟩ => ⟨S1x1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc1_transform_2 (i : grid1.Coords) : Fin 5 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![arg0.toNat, c0_i32.toNat, c2_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x1024x1024_S8192x1024 : S8x1024x1024.ShapeCasts S8192x1024
  transposes_S3072x1024_S1024x3072_1_0 : S3072x1024.Transposes [1, 0] S1024x3072
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x3072_S8x1024x3x16x64 : S8192x3072.ShapeCasts S8x1024x3x16x64
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  inb_S1x1024x1x16x64_S1x1024x1x16x64_0_0_0_0_0 : ∀ a, (![0, 0, 0, 0, 0] : Fin 5 → Nat) a + S1x1024x1x16x64.size a ≤ S1x1024x1x16x64.size a
  h_S1x1024x1x16x64 : 0 < S1x1024x1x16x64.numel
  shapeCasts_S1x1024x1x16x64_S1024x16x64 : S1x1024x1x16x64.ShapeCasts S1024x16x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  slices_S1024x16x64_o0_0_0_S1024x1x64 : S1024x16x64.Slices ![0, 0, 0] S1024x1x64
  shapeCasts_S1024x1x64_S1024x64 : S1024x1x64.ShapeCasts S1024x64
  reduces_S1024x1024_S1024 : S1024x1024.Reduces [1] S1024
  shapeCasts_S1024_S1024x1 : S1024.ShapeCasts S1024x1
  inb_S1x1024x1024_S1x1024x64_0_0_0 : ∀ a, (![0, 0, 0] : Fin 3 → Nat) a + S1x1024x64.size a ≤ S1x1024x1024.size a
  h_S1x1024x64 : 0 < S1x1024x64.numel
  shapeCasts_S1x1024x64_S1024x64 : S1x1024x64.ShapeCasts S1024x64
  shapeCasts_S1024x64_S1x1024x64 : S1024x64.ShapeCasts S1x1024x64
  slices_S1024x16x64_o0_1_0_S1024x1x64 : S1024x16x64.Slices ![0, 1, 0] S1024x1x64
  inb_S1x1024x1024_S1x1024x64_0_0_64 : ∀ a, (![0, 0, 64] : Fin 3 → Nat) a + S1x1024x64.size a ≤ S1x1024x1024.size a
  slices_S1024x16x64_o0_2_0_S1024x1x64 : S1024x16x64.Slices ![0, 2, 0] S1024x1x64
  inb_S1x1024x1024_S1x1024x64_0_0_128 : ∀ a, (![0, 0, 128] : Fin 3 → Nat) a + S1x1024x64.size a ≤ S1x1024x1024.size a
  slices_S1024x16x64_o0_3_0_S1024x1x64 : S1024x16x64.Slices ![0, 3, 0] S1024x1x64
  inb_S1x1024x1024_S1x1024x64_0_0_192 : ∀ a, (![0, 0, 192] : Fin 3 → Nat) a + S1x1024x64.size a ≤ S1x1024x1024.size a
  slices_S1024x16x64_o0_4_0_S1024x1x64 : S1024x16x64.Slices ![0, 4, 0] S1024x1x64
  inb_S1x1024x1024_S1x1024x64_0_0_256 : ∀ a, (![0, 0, 256] : Fin 3 → Nat) a + S1x1024x64.size a ≤ S1x1024x1024.size a
  slices_S1024x16x64_o0_5_0_S1024x1x64 : S1024x16x64.Slices ![0, 5, 0] S1024x1x64
  inb_S1x1024x1024_S1x1024x64_0_0_320 : ∀ a, (![0, 0, 320] : Fin 3 → Nat) a + S1x1024x64.size a ≤ S1x1024x1024.size a
  slices_S1024x16x64_o0_6_0_S1024x1x64 : S1024x16x64.Slices ![0, 6, 0] S1024x1x64
  inb_S1x1024x1024_S1x1024x64_0_0_384 : ∀ a, (![0, 0, 384] : Fin 3 → Nat) a + S1x1024x64.size a ≤ S1x1024x1024.size a
  slices_S1024x16x64_o0_7_0_S1024x1x64 : S1024x16x64.Slices ![0, 7, 0] S1024x1x64
  inb_S1x1024x1024_S1x1024x64_0_0_448 : ∀ a, (![0, 0, 448] : Fin 3 → Nat) a + S1x1024x64.size a ≤ S1x1024x1024.size a
  slices_S1024x16x64_o0_8_0_S1024x1x64 : S1024x16x64.Slices ![0, 8, 0] S1024x1x64
  inb_S1x1024x1024_S1x1024x64_0_0_512 : ∀ a, (![0, 0, 512] : Fin 3 → Nat) a + S1x1024x64.size a ≤ S1x1024x1024.size a
  slices_S1024x16x64_o0_9_0_S1024x1x64 : S1024x16x64.Slices ![0, 9, 0] S1024x1x64
  inb_S1x1024x1024_S1x1024x64_0_0_576 : ∀ a, (![0, 0, 576] : Fin 3 → Nat) a + S1x1024x64.size a ≤ S1x1024x1024.size a
  slices_S1024x16x64_o0_10_0_S1024x1x64 : S1024x16x64.Slices ![0, 10, 0] S1024x1x64
  inb_S1x1024x1024_S1x1024x64_0_0_640 : ∀ a, (![0, 0, 640] : Fin 3 → Nat) a + S1x1024x64.size a ≤ S1x1024x1024.size a
  slices_S1024x16x64_o0_11_0_S1024x1x64 : S1024x16x64.Slices ![0, 11, 0] S1024x1x64
  inb_S1x1024x1024_S1x1024x64_0_0_704 : ∀ a, (![0, 0, 704] : Fin 3 → Nat) a + S1x1024x64.size a ≤ S1x1024x1024.size a
  slices_S1024x16x64_o0_12_0_S1024x1x64 : S1024x16x64.Slices ![0, 12, 0] S1024x1x64
  inb_S1x1024x1024_S1x1024x64_0_0_768 : ∀ a, (![0, 0, 768] : Fin 3 → Nat) a + S1x1024x64.size a ≤ S1x1024x1024.size a
  slices_S1024x16x64_o0_13_0_S1024x1x64 : S1024x16x64.Slices ![0, 13, 0] S1024x1x64
  inb_S1x1024x1024_S1x1024x64_0_0_832 : ∀ a, (![0, 0, 832] : Fin 3 → Nat) a + S1x1024x64.size a ≤ S1x1024x1024.size a
  slices_S1024x16x64_o0_14_0_S1024x1x64 : S1024x16x64.Slices ![0, 14, 0] S1024x1x64
  inb_S1x1024x1024_S1x1024x64_0_0_896 : ∀ a, (![0, 0, 896] : Fin 3 → Nat) a + S1x1024x64.size a ≤ S1x1024x1024.size a
  slices_S1024x16x64_o0_15_0_S1024x1x64 : S1024x16x64.Slices ![0, 15, 0] S1024x1x64
  inb_S1x1024x1024_S1x1024x64_0_0_960 : ∀ a, (![0, 0, 960] : Fin 3 → Nat) a + S1x1024x64.size a ≤ S1x1024x1024.size a
  dot_S1024x1024_S1024x1024_S1024x1024_1_0_0_1_n_n_wf : DotDims.WF S1024x1024 S1024x1024 S1024x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x3072.size a
  hwx0_2 : ∀ i : grid0.Coords, EltTy.bits .bf16 = 32 ∨ (Rect.block (s := S8192x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1x16x64.size a ≤ S8x1024x3x16x64.size a
  hwx1_0 : ∀ i : grid1.Coords, EltTy.bits .bf16 = 32 ∨ (Rect.block (s := S8x1024x3x16x64) S1x1024x1x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1x16x64.size a ≤ S8x1024x3x16x64.size a
  hwx1_1 : ∀ i : grid1.Coords, EltTy.bits .bf16 = 32 ∨ (Rect.block (s := S8x1024x3x16x64) S1x1024x1x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1x16x64.size a ≤ S8x1024x3x16x64.size a
  hwx1_2 : ∀ i : grid1.Coords, EltTy.bits .bf16 = 32 ∨ (Rect.block (s := S8x1024x3x16x64) S1x1024x1x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S8x1024x1.size a
  hwx1_3 : ∀ i : grid1.Coords, EltTy.bits .f32 = 32 ∨ (Rect.block (s := S8x1024x1) S1x1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S8x1x1024.size a
  hwx1_4 : ∀ i : grid1.Coords, EltTy.bits .f32 = 32 ∨ (Rect.block (s := S8x1x1024) S1x1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S8x1024x1024.size a
  hwx1_5 : ∀ i : grid1.Coords, EltTy.bits .f32 = 32 ∨ (Rect.block (s := S8x1024x1024) S1x1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x1024x1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x1x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S3072x1024 : Shape := ⟨2, ![3072, 1024]⟩
abbrev S8x1024x3072 : Shape := ⟨3, ![8, 1024, 3072]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S8x1x1024x1 : Shape := ⟨4, ![8, 1, 1024, 1]⟩
abbrev S8x1x1x1024 : Shape := ⟨4, ![8, 1, 1, 1024]⟩
abbrev S8x1x1024x1024 : Shape := ⟨4, ![8, 1, 1024, 1024]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i32⟩
  | .hbm, ⟨2, _⟩ => ⟨S3072x1024, .f32⟩
  | .hbm, ⟨3, _⟩ => ⟨S8x1024x3072, .f32⟩
  | .hbm, ⟨4, _⟩ => ⟨S8x1024x3x16x64, .f32⟩
  | .hbm, ⟨5, _⟩ => ⟨S3x8x16x1024x64, .f32⟩
  | .hbm, ⟨6, _⟩ => ⟨S1x8x16x1024x64, .f32⟩
  | .hbm, ⟨7, _⟩ => ⟨S8x16x1024x64, .f32⟩
  | .hbm, ⟨8, _⟩ => ⟨S1x8x16x1024x64, .f32⟩
  | .hbm, ⟨9, _⟩ => ⟨S8x16x1024x64, .f32⟩
  | .hbm, ⟨10, _⟩ => ⟨S1x8x16x1024x64, .f32⟩
  | .hbm, ⟨11, _⟩ => ⟨S8x16x1024x64, .f32⟩
  | .hbm, ⟨12, _⟩ => ⟨S8x1024, .f32⟩
  | .hbm, ⟨13, _⟩ => ⟨S8x1x1024x1, .f32⟩
  | .hbm, ⟨14, _⟩ => ⟨S8x1x1x1024, .f32⟩
  | .hbm, ⟨15, _⟩ => ⟨S8x1x1024x1024, .f32⟩
  | .hbm, ⟨16, _⟩ => ⟨S8x1x1024x1024, .f32⟩
  | .hbm, ⟨17, _⟩ => ⟨S8x1x1024x1024, .f32⟩
  | .hbm, ⟨18, _⟩ => ⟨S8x16x1024x1024, .f32⟩
  | .hbm, ⟨19, _⟩ => ⟨S_, .f32⟩
  | .hbm, ⟨20, _⟩ => ⟨S8x16x1024x1024, .f32⟩
  | .hbm, ⟨21, _⟩ => ⟨S8x16x1024x1024, .f32⟩
  | .hbm, ⟨22, _⟩ => ⟨S_, .f32⟩
  | .hbm, ⟨23, _⟩ => ⟨S8x1x1024x1024, .f32⟩
  | .hbm, ⟨24, _⟩ => ⟨S8x1x1024x1024, .i1⟩
  | .hbm, ⟨25, _⟩ => ⟨S_, .f32⟩
  | .hbm, ⟨26, _⟩ => ⟨S_, .f32⟩
  | .hbm, ⟨27, _⟩ => ⟨S8x16x1024x1024, .i1⟩
  | .hbm, ⟨28, _⟩ => ⟨S8x16x1024x1024, .f32⟩
  | .hbm, ⟨29, _⟩ => ⟨S8x16x1024x1024, .f32⟩
  | .hbm, ⟨30, _⟩ => ⟨S_, .f32⟩
  | .hbm, ⟨31, _⟩ => ⟨S8x16x1024, .f32⟩
  | .hbm, ⟨32, _⟩ => ⟨S8x16x1024x1, .f32⟩
  | .hbm, ⟨33, _⟩ => ⟨S8x16x1024x1024, .f32⟩
  | .hbm, ⟨34, _⟩ => ⟨S8x16x1024x1024, .f32⟩
  | .hbm, ⟨35, _⟩ => ⟨S8x16x1024x1024, .f32⟩
  | .hbm, ⟨36, _⟩ => ⟨S_, .f32⟩
  | .hbm, ⟨37, _⟩ => ⟨S8x16x1024, .f32⟩
  | .hbm, ⟨38, _⟩ => ⟨S8x16x1024x1, .f32⟩
  | .hbm, ⟨39, _⟩ => ⟨S_, .f32⟩
  | .hbm, ⟨40, _⟩ => ⟨S8x16x1024x1, .f32⟩
  | .hbm, ⟨41, _⟩ => ⟨S8x16x1024x1, .f32⟩
  | .hbm, ⟨42, _⟩ => ⟨S8x16x1024x1024, .f32⟩
  | .hbm, ⟨43, _⟩ => ⟨S8x16x1024x1024, .f32⟩
  | .hbm, ⟨44, _⟩ => ⟨S8x16x1024x64, .f32⟩
  | .hbm, ⟨45, _⟩ => ⟨S8x1024x16x64, .f32⟩
  | .hbm, ⟨46, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  shapeCasts_S8x1024x3072_S8x1024x3x16x64 : S8x1024x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  bcast_S8x1024_S8x1x1024x1_0_2 : S8x1024.BroadcastsInDim S8x1x1024x1 (![0, 2] : Fin 2 → Fin S8x1x1024x1.rank)
  bcast_S8x1024_S8x1x1x1024_0_3 : S8x1024.BroadcastsInDim S8x1x1x1024 (![0, 3] : Fin 2 → Fin S8x1x1x1024.rank)
  bcast_S8x1x1024x1_S8x1x1024x1024_0_1_2_3 : S8x1x1024x1.BroadcastsInDim S8x1x1024x1024 (![0, 1, 2, 3] : Fin 4 → Fin S8x1x1024x1024.rank)
  bcast_S8x1x1x1024_S8x1x1024x1024_0_1_2_3 : S8x1x1x1024.BroadcastsInDim S8x1x1024x1024 (![0, 1, 2, 3] : Fin 4 → Fin S8x1x1024x1024.rank)
  bcast_S_S8x16x1024x1024 : S_.BroadcastsInDim S8x16x1024x1024 (![] : Fin 0 → Fin S8x16x1024x1024.rank)
  bcast_S_S8x1x1024x1024 : S_.BroadcastsInDim S8x1x1024x1024 (![] : Fin 0 → Fin S8x1x1024x1024.rank)
  bcast_S8x1x1024x1024_S8x16x1024x1024_0_1_2_3 : S8x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  bcast_S_S8x16x1024x1 : S_.BroadcastsInDim S8x16x1024x1 (![] : Fin 0 → Fin S8x16x1024x1.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.KBody0.lean ====
/-
  Region 0 of the kernel's program: the projection. At every grid point (i, j) of the 8 × 3 grid the body loads a
  1024 × 1024 block of the flattened input (rows i·1024 …, all 1024 columns) and a 1024 × 1024 block of the transposed
  weight (all rows, columns j·1024 …), multiplies them on the matrix unit into a zero accumulator, narrows the
  product to bf16 and stores it whole into the output block (i, j). Stated at any float instance and at any
  contents `V` of the core's buffers on entry: what each window's staging buffer holds after the body, the body's
  triple, and the pipeline's obligation at a generic point.
-/
import proofs.«405502_j55061480734844_3_alg».proof.Proof.Gen.Kernel.Launch
import proofs.«405502_j55061480734844_3_alg».proof.Proof.Gen.Kernel.Skeleton
import proofs.«405502_j55061480734844_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it at that
    point or kept it from the point before (the index map did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 1024 × 1024 block. -/
abbrev rWhole0 : Rect S1024x1024 := Rect.unit (s := S1024x1024) ![0, 0] S1024x1024.size inb_S1024x1024_S1024x1024_0_0

/-- The output block after the body: the narrowed product of the two input blocks, stored whole. -/
def out0_2 (x0 x1 : Vec F S1024x1024 .bf16) : Vec F S1024x1024 .bf16 :=
  View.canon [⟨rWhole0, k0_pay1 (View.ld x0 rWhole0) (View.ld x1 rWhole0)⟩]

/-- The one store covers the block. -/
theorem cover0_2 (p0 : Vec F S1024x1024 .bf16) (y : S1024x1024.Idx) :
    ∃ pc ∈ ([⟨rWhole0, p0⟩] : List (View.Piece (Elt F) S1024x1024 .bf16)), y ∈ pc.1.set :=
  View.cover_of_tiled [⟨rWhole0, p0⟩] S1024x1024.size (by rfl) y

set_option maxHeartbeats 1000000 in
/-- The body on whole staging buffers: the inputs' at contents `x0`, `x1` are left as they were and the output's,
    whatever it held, ends at `out0_2 x0 x1`. -/
theorem sound_kernel0 (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data for region 0 on core `c`: the arrays as the region finds them; after the body each input's
    buffer still at its block, the output's at `out0_2` of the two input blocks; the invariant is the untouched scoped
    rest with the generator register; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 of the kernel's program: the masked softmax attention. At grid point b (one batch) the body loads the batch's
  query, key and value blocks [1, 1024, 1, 16, 64] (three windows on the one projection array, at thirds 0, 1, 2), the
  row mask [1, 1024, 1] and the column mask [1, 1, 1024]; for each of the sixteen heads it forms the 1024 × 1024 scores on
  the matrix unit, masks, subtracts the row maximum, exponentiates, divides by the row sum plus ε, multiplies by the
  head's values and stores the 1024 × 64 result into columns h·64 … h·64+63 of the output block [1, 1024, 1024]. Stated at
  any float instance and any entry contents `V`: the sixteen stored pieces as the program composes them, the output
  block as the canon of the sixteen stores, the body's triple, the proof data (the projection array's full share dealt
  among the three windows that read it) and the pipeline's obligation at a generic point.
-/
import proofs.«405502_j55061480734844_3_alg».proof.Proof.Gen.Kernel.Launch
import proofs.«405502_j55061480734844_3_alg».proof.Proof.Gen.Kernel.Skeleton
import proofs.«405502_j55061480734844_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen stored pieces, as the program composes them from the five loaded blocks -/

section Pieces
variable (v0 v2 v4 : Vec F S1x1024x1x16x64 .bf16) (v6 : Vec F S1x1024x1 .f32) (v8 : Vec F S1x1x1024 .f32)
/-- Head 0's result, stored at columns 0 … 63. -/
def piece0 : FVec F S1x1024x64 .f32 := k1_pay10 (k1_pay7 v4) (k1_pay8 v0 v2 v6 v8) (k1_pay9 v0 v2 v6 v8)
/-- Head 1's result, stored at columns 64 … 127. -/
def piece1 : FVec F S1x1024x64 .f32 := k1_pay11 (k1_pay3 v0) (k1_pay4 v2) (k1_pay5 v4) (k1_pay6 v6 v8)
/-- Head 2's result, stored at columns 128 … 191. -/
def piece2 : FVec F S1x1024x64 .f32 := k1_pay15 (k1_pay6 v6 v8) (k1_pay12 (k1_pay3 v0)) (k1_pay13 (k1_pay4 v2)) (k1_pay14 (k1_pay5 v4))
/-- Head 3's result, stored at columns 192 … 255. -/
def piece3 : FVec F S1x1024x64 .f32 := k1_pay18 (k1_pay16 (k1_pay5 v4)) (k1_pay17 (k1_pay3 v0) (k1_pay4 v2) (k1_pay6 v6 v8))
/-- Head 4's result, stored at columns 256 … 319. -/
def piece4 : FVec F S1x1024x64 .f32 := k1_pay19 (k1_pay3 v0) (k1_pay4 v2) (k1_pay5 v4) (k1_pay6 v6 v8)
/-- Head 5's result, stored at columns 320 … 383. -/
def piece5 : FVec F S1x1024x64 .f32 := k1_pay22 (k1_pay6 v6 v8) (k1_pay20 (k1_pay5 v4)) (k1_pay21 (k1_pay3 v0) (k1_pay4 v2)) (Scalar.ofBits .f32 0xD8635FA9#32)
/-- Head 6's result, stored at columns 384 … 447. -/
def piece6 : FVec F S1x1024x64 .f32 := k1_pay24 (k1_pay23 (k1_pay3 v0) (k1_pay4 v2) (k1_pay5 v4) (k1_pay6 v6 v8))
/-- Head 7's result, stored at columns 448 … 511. -/
def piece7 : FVec F S1x1024x64 .f32 := k1_pay25 (k1_pay3 v0) (k1_pay4 v2) (k1_pay5 v4) (k1_pay6 v6 v8)
/-- Head 8's result, stored at columns 512 … 575. -/
def piece8 : FVec F S1x1024x64 .f32 := k1_pay29 (k1_pay26 (k1_pay5 v4)) (k1_pay27 (k1_pay3 v0) (k1_pay4 v2) (k1_pay6 v6 v8)) (k1_pay28 (k1_pay3 v0) (k1_pay4 v2) (k1_pay6 v6 v8))
/-- Head 9's result, stored at columns 576 … 639. -/
def piece9 : FVec F S1x1024x64 .f32 := k1_pay30 (k1_pay3 v0) (k1_pay4 v2) (k1_pay5 v4) (k1_pay6 v6 v8)
/-- Head 10's result, stored at columns 640 … 703. -/
def piece10 : FVec F S1x1024x64 .f32 := k1_pay32 (k1_pay4 v2) (k1_pay5 v4) (k1_pay6 v6 v8) (k1_pay31 (k1_pay3 v0))
/-- Head 11's result, stored at columns 704 … 767. -/
def piece11 : FVec F S1x1024x64 .f32 := k1_pay36 (k1_pay33 (k1_pay5 v4)) (k1_pay34 (k1_pay3 v0) (k1_pay4 v2) (k1_pay6 v6 v8)) (k1_pay35 (k1_pay3 v0) (k1_pay4 v2) (k1_pay6 v6 v8)) (Scalar.ofBits .f32 0x3C23D70A#32)
/-- Head 12's result, stored at columns 768 … 831. -/
def piece12 : FVec F S1x1024x64 .f32 := k1_pay37 (k1_pay3 v0) (k1_pay4 v2) (k1_pay5 v4) (k1_pay6 v6 v8)
/-- Head 13's result, stored at columns 832 … 895. -/
def piece13 : FVec F S1x1024x64 .f32 := k1_pay40 (k1_pay6 v6 v8) (k1_pay38 (k1_pay5 v4)) (k1_pay39 (k1_pay3 v0) (k1_pay4 v2))
/-- Head 14's result, stored at columns 896 … 959. -/
def piece14 : FVec F S1x1024x64 .f32 := k1_pay1 (k1_pay41 (k1_pay5 v4)) (k1_pay42 (k1_pay3 v0) (k1_pay4 v2) (k1_pay6 v6 v8)) (constant S1024x64 .f32 0x00000000#32)
/-- Head 15's result, stored at columns 960 … 1023. -/
def piece15 : FVec F S1x1024x64 .f32 := k1_pay2 (k1_pay3 v0) (k1_pay4 v2) (k1_pay5 v4) (k1_pay6 v6 v8)
end Pieces

/-! ## The body's rectangles -/

abbrev rQ : Rect S1x1024x1x16x64 := Rect.unit (s := S1x1024x1x16x64) ![0, 0, 0, 0, 0] S1x1024x1x16x64.size inb_S1x1024x1x16x64_S1x1024x1x16x64_0_0_0_0_0
abbrev rMr : Rect S1x1024x1 := Rect.unit (s := S1x1024x1) ![0, 0, 0] S1x1024x1.size inb_S1x1024x1_S1x1024x1_0_0_0
abbrev rMc : Rect S1x1x1024 := Rect.unit (s := S1x1x1024) ![0, 0, 0] S1x1x1024.size inb_S1x1x1024_S1x1x1024_0_0_0
abbrev rO0 : Rect S1x1024x1024 := Rect.unit (s := S1x1024x1024) ![0, 0, 0] S1x1024x64.size inb_S1x1024x1024_S1x1024x64_0_0_0
abbrev rO1 : Rect S1x1024x1024 := Rect.unit (s := S1x1024x1024) ![0, 0, 64] S1x1024x64.size inb_S1x1024x1024_S1x1024x64_0_0_64
abbrev rO2 : Rect S1x1024x1024 := Rect.unit (s := S1x1024x1024) ![0, 0, 128] S1x1024x64.size inb_S1x1024x1024_S1x1024x64_0_0_128
abbrev rO3 : Rect S1x1024x1024 := Rect.unit (s := S1x1024x1024) ![0, 0, 192] S1x1024x64.size inb_S1x1024x1024_S1x1024x64_0_0_192
abbrev rO4 : Rect S1x1024x1024 := Rect.unit (s := S1x1024x1024) ![0, 0, 256] S1x1024x64.size inb_S1x1024x1024_S1x1024x64_0_0_256
abbrev rO5 : Rect S1x1024x1024 := Rect.unit (s := S1x1024x1024) ![0, 0, 320] S1x1024x64.size inb_S1x1024x1024_S1x1024x64_0_0_320
abbrev rO6 : Rect S1x1024x1024 := Rect.unit (s := S1x1024x1024) ![0, 0, 384] S1x1024x64.size inb_S1x1024x1024_S1x1024x64_0_0_384
abbrev rO7 : Rect S1x1024x1024 := Rect.unit (s := S1x1024x1024) ![0, 0, 448] S1x1024x64.size inb_S1x1024x1024_S1x1024x64_0_0_448
abbrev rO8 : Rect S1x1024x1024 := Rect.unit (s := S1x1024x1024) ![0, 0, 512] S1x1024x64.size inb_S1x1024x1024_S1x1024x64_0_0_512
abbrev rO9 : Rect S1x1024x1024 := Rect.unit (s := S1x1024x1024) ![0, 0, 576] S1x1024x64.size inb_S1x1024x1024_S1x1024x64_0_0_576
abbrev rO10 : Rect S1x1024x1024 := Rect.unit (s := S1x1024x1024) ![0, 0, 640] S1x1024x64.size inb_S1x1024x1024_S1x1024x64_0_0_640
abbrev rO11 : Rect S1x1024x1024 := Rect.unit (s := S1x1024x1024) ![0, 0, 704] S1x1024x64.size inb_S1x1024x1024_S1x1024x64_0_0_704
abbrev rO12 : Rect S1x1024x1024 := Rect.unit (s := S1x1024x1024) ![0, 0, 768] S1x1024x64.size inb_S1x1024x1024_S1x1024x64_0_0_768
abbrev rO13 : Rect S1x1024x1024 := Rect.unit (s := S1x1024x1024) ![0, 0, 832] S1x1024x64.size inb_S1x1024x1024_S1x1024x64_0_0_832
abbrev rO14 : Rect S1x1024x1024 := Rect.unit (s := S1x1024x1024) ![0, 0, 896] S1x1024x64.size inb_S1x1024x1024_S1x1024x64_0_0_896
abbrev rO15 : Rect S1x1024x1024 := Rect.unit (s := S1x1024x1024) ![0, 0, 960] S1x1024x64.size inb_S1x1024x1024_S1x1024x64_0_0_960

/-- The output block after the body: the sixteen stores as pieces, LAST FIRST, over the five loaded blocks. -/
def out1_5 (x0 x1 x2 : Vec F S1x1024x1x16x64 .bf16) (x3 : Vec F S1x1024x1 .f32) (x4 : Vec F S1x1x1024 .f32) : Vec F S1x1024x1024 .f32 :=
  View.canon [⟨rO15, piece15 (View.ld x0 rQ) (View.ld x1 rQ) (View.ld x2 rQ) (View.ld x3 rMr) (View.ld x4 rMc)⟩,
    ⟨rO14, piece14 (View.ld x0 rQ) (View.ld x1 rQ) (View.ld x2 rQ) (View.ld x3 rMr) (View.ld x4 rMc)⟩,
    ⟨rO13, piece13 (View.ld x0 rQ) (View.ld x1 rQ) (View.ld x2 rQ) (View.ld x3 rMr) (View.ld x4 rMc)⟩,
    ⟨rO12, piece12 (View.ld x0 rQ) (View.ld x1 rQ) (View.ld x2 rQ) (View.ld x3 rMr) (View.ld x4 rMc)⟩,
    ⟨rO11, piece11 (View.ld x0 rQ) (View.ld x1 rQ) (View.ld x2 rQ) (View.ld x3 rMr) (View.ld x4 rMc)⟩,
    ⟨rO10, piece10 (View.ld x0 rQ) (View.ld x1 rQ) (View.ld x2 rQ) (View.ld x3 rMr) (View.ld x4 rMc)⟩,
    ⟨rO9, piece9 (View.ld x0 rQ) (View.ld x1 rQ) (View.ld x2 rQ) (View.ld x3 rMr) (View.ld x4 rMc)⟩,
    ⟨rO8, piece8 (View.ld x0 rQ) (View.ld x1 rQ) (View.ld x2 rQ) (View.ld x3 rMr) (View.ld x4 rMc)⟩,
    ⟨rO7, piece7 (View.ld x0 rQ) (View.ld x1 rQ) (View.ld x2 rQ) (View.ld x3 rMr) (View.ld x4 rMc)⟩,
    ⟨rO6, piece6 (View.ld x0 rQ) (View.ld x1 rQ) (View.ld x2 rQ) (View.ld x3 rMr) (View.ld x4 rMc)⟩,
    ⟨rO5, piece5 (View.ld x0 rQ) (View.ld x1 rQ) (View.ld x2 rQ) (View.ld x3 rMr) (View.ld x4 rMc)⟩,
    ⟨rO4, piece4 (View.ld x0 rQ) (View.ld x1 rQ) (View.ld x2 rQ) (View.ld x3 rMr) (View.ld x4 rMc)⟩,
    ⟨rO3, piece3 (View.ld x0 rQ) (View.ld x1 rQ) (View.ld x2 rQ) (View.ld x3 rMr) (View.ld x4 rMc)⟩,
    ⟨rO2, piece2 (View.ld x0 rQ) (View.ld x1 rQ) (View.ld x2 rQ) (View.ld x3 rMr) (View.ld x4 rMc)⟩,
    ⟨rO1, piece1 (View.ld x0 rQ) (View.ld x1 rQ) (View.ld x2 rQ) (View.ld x3 rMr) (View.ld x4 rMc)⟩,
    ⟨rO0, piece0 (View.ld x0 rQ) (View.ld x1 rQ) (View.ld x2 rQ) (View.ld x3 rMr) (View.ld x4 rMc)⟩]

/-- The sixteen column bands tile the block, so they cover it. -/
theorem cover1_5 (p0 p1 p2 p3 p4 p5 p6 p7 p8 p9 p10 p11 p12 p13 p14 p15 : Vec F S1x1024x64 .f32) (y : S1x1024x1024.Idx) :
    ∃ pc ∈ ([⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x1024x1024 .f32)), y ∈ pc.1.set :=
  View.cover_of_tiled ([⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x1024x1024 .f32)) S1x1024x64.size (by rfl) y

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three shares the projection array's full share is dealt into, one per window that reads it. -/
abbrev shQ : PosShare TreeShare := (fullShare : PosShare TreeShare).left
abbrev shK : PosShare TreeShare := (fullShare : PosShare TreeShare).right.left
abbrev shV : PosShare TreeShare := (fullShare : PosShare TreeShare).right.right

/-- The pipeline's proof data for region 1 on core `c`: the arrays as the region finds them; after the body each input's
    buffer still at its block and the output's at `out1_5` of the five input blocks; the invariant is the untouched
    scoped rest with the generator register; nothing owed; the projection array held by its three windows at the three
    shares above, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => shQ
    | ⟨1, _⟩ => shK
    | ⟨2, _⟩ => shV
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem share1_0 (c : Dev nD) : (dat1 V c).share 0 = shQ := by unfold Dat.share; dsimp only [dat1]; rfl
theorem share1_1 (c : Dev nD) : (dat1 V c).share 1 = shK := by unfold Dat.share; dsimp only [dat1]; rfl
theorem share1_2 (c : Dev nD) : (dat1 V c).share 2 = shV := by unfold Dat.share; dsimp only [dat1]; rfl
theorem share1_3 (c : Dev nD) : (dat1 V c).share 3 = fullShare := by unfold Dat.share; dsimp only [dat1]; rfl
theorem share1_4 (c : Dev nD) : (dat1 V c).share 4 = fullShare := by unfold Dat.share; dsimp only [dat1]; rfl
theorem share1_5 (c : Dev nD) : (dat1 V c).share 5 = fullShare := by unfold Dat.share; dsimp only [dat1]; rfl

/-- An input window's current staging buffer holds its block at every point, whether the pipeline fetched it at that
    point or kept it from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

set_option maxHeartbeats 1000000 in
/-- The body on whole staging buffers: the five inputs' at contents `x0` … `x4` are left as they were and the
    output's, whatever it held, ends at `out1_5 x0 x1 x2 x3 x4`: sixteen stores, each to its own column band. -/
theorem sound_kernel1 (c : Dev nD) (E : Set ℕ) (i : grid1.Coords)
    (arg1 : Memref sig .tc .vmem S1x1024x1x16x64 .bf16) (harg1 : arg1.IsWhole) (arg2 : Memref sig .tc .vmem S1x1024x1x16x64 .bf16) (harg2 : arg2.IsWhole)
    (arg3 : Memref sig .tc .vmem S1x1024x1x16x64 .bf16) (harg3 : arg3.IsWhole) (arg4 : Memref sig .tc .vmem S1x1024x1 .f32) (harg4 : arg4.IsWhole)
    (arg5 : Memref sig .tc .vmem S1x1x1024 .f32) (harg5 : arg5.IsWhole) (arg6 : Memref sig .tc .vmem S1x1024x1024 .f32) (harg6 : arg6.IsWhole)
    (x0 x1 x2 : Vec F S1x1024x1x16x64 .bf16) (x3 : Vec F S1x1024x1 .f32) (x4 : Vec F S1x1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _ _ _ _ _ _ _ _ _ _ _ _ _ _ _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the kernel's program: @main is a stretch of host operations (flatten x, transpose W, narrow both to bf16),
  the projection region, a second stretch (view the projection as [8, 1024, 3, 16, 64]; the mask as floats, as a column
  and as a row), and the attention region. The buffers' contents at each boundary are a fold from the launch memory:
  a host stretch applies its operations, a region replaces its output array by what its write-backs leave and keeps
  every other buffer. Each region is entered from the unscoped buffers at the boundary's contents and left at the next
  boundary's; the attention region reads ONE array, the projection, through three windows, so at its entry that array's
  full share is dealt into three and at its exit joined again. The launch over the four segments gives the run: every
  weakly fair execution terminates, nothing faults, and every unscoped buffer ends at the last boundary's contents — in
  particular the three arguments as launched and the result array at what the attention region's write-backs leave.
-/
import proofs.«405502_j55061480734844_3_alg».proof.Proof.KBody0
import proofs.«405502_j55061480734844_3_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit: the result array at what the pipeline's write-backs leave, every other buffer as
    entered (the region's other arrays are inputs). -/
def W4 (c : Dev nD) : Valuation τ sig (Elt F) :=
  Function.update (W3 m c) main_v9 ((dat1 (V3 m) c).arrAt 5 cfg1.N)
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- The result array after the run. -/
theorem W4_v9 (c : Dev nD) : W4 m c (Proc.devRef .tc main_v9) = (dat1 (V3 m) c).arrAt 5 cfg1.N := by
  unfold W4; exact Function.update_self ..

/-- The arguments end as launched: no host operation writes one and no region's output is one. -/
theorem W4_arg0 (c : Dev nD) : W4 m c (Proc.devRef .tc main_arg0) = m ((c : Thread nD τ).loc main_arg0) :=
  calc W4 m c (Proc.devRef .tc main_arg0)
    _ = W3 m c (Proc.devRef .tc main_arg0) := by
          unfold W4; exact Function.update_of_ne (StableHlo.devRef_ne_of_ne (by decide)) _ _
    _ = W2 m c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl
theorem W4_arg1 (c : Dev nD) : W4 m c (Proc.devRef .tc main_arg1) = m ((c : Thread nD τ).loc main_arg1) :=
  calc W4 m c (Proc.devRef .tc main_arg1)
    _ = W3 m c (Proc.devRef .tc main_arg1) := by
          unfold W4; exact Function.update_of_ne (StableHlo.devRef_ne_of_ne (by decide)) _ _
    _ = W2 m c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl
theorem W4_arg2 (c : Dev nD) : W4 m c (Proc.devRef .tc main_arg2) = m ((c : Thread nD τ).loc main_arg2) :=
  calc W4 m c (Proc.devRef .tc main_arg2)
    _ = W3 m c (Proc.devRef .tc main_arg2) := by
          unfold W4; exact Function.update_of_ne (StableHlo.devRef_ne_of_ne (by decide)) _ _
    _ = W2 m c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The attention region's arrays among the unscoped buffers

Its six windows stand on four buffers: the projection (windows 0, 1, 2), the row mask, the column mask and the result.
The proof data hold the projection three times, at the left half of the full share and at the two quarters of the right
half; the masks and the result whole. -/

section Shared
variable (V : (c : Dev nD) → (b : Ref sig .tc) → Buf (Elt F) ((c : Thread nD τ).loc b))

/-- Window `w`'s array as the proof data hold it: the whole buffer behind it, at the window's share. -/
theorem arr1 (c : Dev nD) (w : Fin cfg1.W) (G : Buf (Elt F) ((cfg1.win w).arr.view.loc (c : Thread nD τ))) :
    (((cfg1.win w).arr.view.loc (c : Thread nD τ)) ↦[(cfg1.win w).arr.view.set]{(dat1 V c).share w} G : sProp 𝕄)
      = (((c : Thread nD τ).loc (Pipeline.arrRef spec1 w)) ↦{(dat1 V c).share w} G) := by
  rw [(arr_whole1 w).set_eq_univ]

/-- The six windows' arrays, one by one: the projection at its three shares, the masks and the result whole. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v5) ↦{shQ} G 0) ∗ (((c : Thread nD τ).loc main_v5) ↦{shK} G 1)
      ∗ (((c : Thread nD τ).loc main_v5) ↦{shV} G 2) ∗ (((c : Thread nD τ).loc main_v7) ↦{fullShare} G 3)
      ∗ (((c : Thread nD τ).loc main_v8) ↦{fullShare} G 4) ∗ (((c : Thread nD τ).loc main_v9) ↦{fullShare} G 5)) := by
  unfold Dat.arrays
  rw [bigSep_W1, arr1 V c 0, arr1 V c 1, arr1 V c 2, arr1 V c 3, arr1 V c 4, arr1 V c 5,
    share1_0, share1_1, share1_2, share1_3, share1_4, share1_5]

/-- The four buffers behind the windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v5) ↦{fullShare} V' main_v5) ∗ (((c : Thread nD τ).loc main_v7) ↦{fullShare} V' main_v7)
          ∗ (((c : Thread nD τ).loc main_v8) ↦{fullShare} V' main_v8) ∗ (((c : Thread nD τ).loc main_v9) ↦{fullShare} V' main_v9)) := by
  unfold Pipeline.arrBufs
  exact bigSep_eq_bigSepL_of_eq [main_v5, main_v7, main_v8, main_v9] (by decide) (by decide) _

/-- The core's unscoped buffers are the four buffers behind the windows and the rest. -/
theorem split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
  Pipeline.unscopedBufs_split₀ cfgs 1 winFacts₀1.arr_unscoped c V'

/-- A buffer whole at the full share is the same buffer at the left half and at the two quarters of the right half. -/
theorem deal3 (ℓ : Loc nD τ sig) (f : Buf (Elt F) ℓ) :
    (ℓ ↦{fullShare} f : sProp 𝕄) ⊣⊢ iprop((ℓ ↦{shQ} f) ∗ (ℓ ↦{shK} f) ∗ (ℓ ↦{shV} f)) :=
  ⟨(pointsTo_share (PosShare.mem_left_op_right fullShare)).1.trans
      (sep_mono .rfl (pointsTo_share (PosShare.mem_left_op_right (fullShare : PosShare TreeShare).right)).1),
   (sep_mono .rfl (pointsTo_share (PosShare.mem_left_op_right (fullShare : PosShare TreeShare).right)).2).trans
      (pointsTo_share (PosShare.mem_left_op_right fullShare)).2⟩

/-- ENTRY: the core's unscoped buffers at `V` are the region's arrays at the proof data's entry contents — the
    projection's full share dealt among its three windows — and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [split1 c (V c), arrBufs1_eq, arrays1_eq]
  refine sep_mono ?_ .rfl
  iintro ⟨H5, H7, H8, H9⟩
  ihave H := (deal3 _ _).1 $$ H5
  icases H with ⟨Hq, Hk, Hv⟩
  isplitl [Hq]; · iexact Hq
  isplitl [Hk]; · iexact Hk
  isplitl [Hv]; · iexact Hv
  isplitl [H7]; · iexact H7
  isplitl [H8]; · iexact H8
  iexact H9

/-- EXIT: the region's arrays at their final contents — the three shares of the projection joined again — and the
    unscoped rest are the core's unscoped buffers at any contents that have the result array at what the write-backs
    leave and agree with `V` elsewhere. -/
theorem exit1 (c : Dev nD) (V' : (b : Ref sig .tc) → Buf (Elt F) ((c : Thread nD τ).loc b))
    (h9 : V' main_v9 = (dat1 V c).arrAt 5 cfg1.N) (hrest : ∀ b, b ≠ main_v9 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [split1 c V', arrBufs1_eq, arrays1_eq,
    (dat1 V c).arrAt_in 0 rfl, (dat1 V c).arrAt_in 1 rfl, (dat1 V c).arrAt_in 2 rfl, (dat1 V c).arrAt_in 3 rfl,
    (dat1 V c).arrAt_in 4 rfl, A_eq1, A_eq1, A_eq1, A_eq1, A_eq1,
    h9, hrest main_v5 (by decide), hrest main_v7 (by decide), hrest main_v8 (by decide)]
  refine sep_mono ?_ (Entails.of_eq ?_)
  · iintro ⟨Hq, Hk, Hv, H7, H8, H9⟩
    isplitl [Hq Hk Hv]
    · iapply (deal3 _ _).2
      isplitl [Hq]; · iexact Hq
      isplitl [Hk]; · iexact Hk
      iexact Hv
    isplitl [H7]; · iexact H7
    isplitl [H8]; · iexact H8
    iexact H9
  · unfold Pipeline.unscopedRest
    exact bigSep_congr fun b hb => by
      rw [hrest b fun e => (Finset.mem_sdiff.mp hb).2 (Finset.mem_image.mpr ⟨5, Finset.mem_univ _, e ▸ rfl⟩)]

end Shared

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The last thread state without the `owes`: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-! ## The regions as segments -/

set_option backward.isDefEq.respectTransparency.types false in
/-- The projection region over the thread state: entered from every unscoped buffer at `W1`, left at `W2`. Its three
    arrays are distinct buffers, split out of the unscoped buffers and put back at the exit contents; the generator
    register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The result array's contents at the last boundary, and every other buffer's. -/
theorem V4_v9 (c : Dev nD) : V4 m c main_v9 = (dat1 (V3 m) c).arrAt 5 cfg1.N := W4_v9 m c
theorem V4_of_ne (c : Dev nD) (b : Ref sig .tc) (hb : b ≠ main_v9) : V4 m c b = V3 m c b := by
  show W4 m c (Proc.devRef .tc b) = W3 m c (Proc.devRef .tc b)
  unfold W4; exact Function.update_of_ne (StableHlo.devRef_ne_of_ne hb) _ _

set_option backward.isDefEq.respectTransparency.types false in
/-- The attention region over the thread state: entered from every unscoped buffer at `W3`, left at `W4`. Its six
    windows stand on four buffers: at the entry the projection's full share is dealt among the three windows that read it
    (`entry1`), at the exit joined again (`exit1`); the generator register goes into the invariant and comes out; nothing
    is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) :=
      exit1 (V3 m) c (V4 m c) (V4_v9 m c) (V4_of_ne m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer ends at the last boundary's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c b hb)

/-- The frame: the three arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_arg0 m c),
     (h c _ (mem_uc main_arg1 (by decide))).trans (W4_arg1 m c),
     (h c _ (mem_uc main_arg2 (by decide))).trans (W4_arg2 m c)⟩) (run_main m ρ)

/-- The run with the result array named. -/
theorem run_val (ρ : Dev nD → PrngReg) :
    θ_run defs (onTc (τ := τ) (main (F := F))) ⟨m, fun _ => 0, ρ⟩ (fun r => ∀ c : Dev nD,
      r.2.mem ((c.tc : Thread nD τ).loc main_v9) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v9 (by decide))).trans (W4_v9 m c),
     (h c _ (mem_uc main_arg0 (by decide))).trans (W4_arg0 m c),
     (h c _ (mem_uc main_arg1 (by decide))).trans (W4_arg1 m c),
     (h c _ (mem_uc main_arg2 (by decide))).trans (W4_arg2 m c)⟩) (run_main m ρ)

end Cert.Kernel.Hand

end
-- ==== Proof.KIBody0.lean ====
/-
  Region 0 of the kernel's program: the projection. At every grid point (i, j) of the 8 × 3 grid the body loads a
  1024 × 1024 block of the flattened input (rows i·1024 …, all 1024 columns) and a 1024 × 1024 block of the transposed
  weight (all rows, columns j·1024 …), multiplies them on the matrix unit into a zero accumulator, narrows the
  product to bf16 and stores it whole into the output block (i, j). Stated at any float instance and at any
  contents `V` of the core's buffers on entry: what each window's staging buffer holds after the body, the body's
  triple, and the pipeline's obligation at a generic point.
-/
import proofs.«405502_j55061480734844_3_alg».proof.Proof.Gen.KernelIdeal.Launch
import proofs.«405502_j55061480734844_3_alg».proof.Proof.Gen.KernelIdeal.Skeleton
import proofs.«405502_j55061480734844_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it at that
    point or kept it from the point before (the index map did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole 1024 × 1024 block. -/
abbrev rWhole0 : Rect S1024x1024 := Rect.unit (s := S1024x1024) ![0, 0] S1024x1024.size inb_S1024x1024_S1024x1024_0_0

/-- The output block after the body: the narrowed product of the two input blocks, stored whole. -/
def out0_2 (x0 x1 : Vec F S1024x1024 .bf16) : Vec F S1024x1024 .bf16 :=
  View.canon [⟨rWhole0, k0_pay1 (View.ld x0 rWhole0) (View.ld x1 rWhole0)⟩]

/-- The one store covers the block. -/
theorem cover0_2 (p0 : Vec F S1024x1024 .bf16) (y : S1024x1024.Idx) :
    ∃ pc ∈ ([⟨rWhole0, p0⟩] : List (View.Piece (Elt F) S1024x1024 .bf16)), y ∈ pc.1.set :=
  View.cover_of_tiled [⟨rWhole0, p0⟩] S1024x1024.size (by rfl) y

set_option maxHeartbeats 1000000 in
/-- The body on whole staging buffers: the inputs' at contents `x0`, `x1` are left as they were and the output's,
    whatever it held, ends at `out0_2 x0 x1`. -/
theorem sound_kernel0 (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data for region 0 on core `c`: the arrays as the region finds them; after the body each input's
    buffer still at its block, the output's at `out0_2` of the two input blocks; the invariant is the untouched scoped
    rest with the generator register; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Region 1 of the kernel's program: the masked softmax attention. At grid point b (one batch) the body loads the batch's
  query, key and value blocks [1, 1024, 1, 16, 64] (three windows on the one projection array, at thirds 0, 1, 2), the
  row mask [1, 1024, 1] and the column mask [1, 1, 1024]; for each of the sixteen heads it forms the 1024 × 1024 scores on
  the matrix unit, masks, subtracts the row maximum, exponentiates, divides by the row sum plus ε, multiplies by the
  head's values and stores the 1024 × 64 result into columns h·64 … h·64+63 of the output block [1, 1024, 1024]. Stated at
  any float instance and any entry contents `V`: the sixteen stored pieces as the program composes them, the output
  block as the canon of the sixteen stores, the body's triple, the proof data (the projection array's full share dealt
  among the three windows that read it) and the pipeline's obligation at a generic point.
-/
import proofs.«405502_j55061480734844_3_alg».proof.Proof.Gen.KernelIdeal.Launch
import proofs.«405502_j55061480734844_3_alg».proof.Proof.Gen.KernelIdeal.Skeleton
import proofs.«405502_j55061480734844_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen stored pieces, as the program composes them from the five loaded blocks -/

section Pieces
variable (v0 v2 v4 : Vec F S1x1024x1x16x64 .bf16) (v6 : Vec F S1x1024x1 .f32) (v8 : Vec F S1x1x1024 .f32)
/-- Head 0's result, stored at columns 0 … 63. -/
def piece0 : FVec F S1x1024x64 .f32 := k1_pay10 (k1_pay7 v4) (k1_pay8 v0 v2 v6 v8) (k1_pay9 v0 v2 v6 v8)
/-- Head 1's result, stored at columns 64 … 127. -/
def piece1 : FVec F S1x1024x64 .f32 := k1_pay11 (k1_pay3 v0) (k1_pay4 v2) (k1_pay5 v4) (k1_pay6 v6 v8)
/-- Head 2's result, stored at columns 128 … 191. -/
def piece2 : FVec F S1x1024x64 .f32 := k1_pay15 (k1_pay6 v6 v8) (k1_pay12 (k1_pay3 v0)) (k1_pay13 (k1_pay4 v2)) (k1_pay14 (k1_pay5 v4))
/-- Head 3's result, stored at columns 192 … 255. -/
def piece3 : FVec F S1x1024x64 .f32 := k1_pay18 (k1_pay16 (k1_pay5 v4)) (k1_pay17 (k1_pay3 v0) (k1_pay4 v2) (k1_pay6 v6 v8))
/-- Head 4's result, stored at columns 256 … 319. -/
def piece4 : FVec F S1x1024x64 .f32 := k1_pay19 (k1_pay3 v0) (k1_pay4 v2) (k1_pay5 v4) (k1_pay6 v6 v8)
/-- Head 5's result, stored at columns 320 … 383. -/
def piece5 : FVec F S1x1024x64 .f32 := k1_pay22 (k1_pay6 v6 v8) (k1_pay20 (k1_pay5 v4)) (k1_pay21 (k1_pay3 v0) (k1_pay4 v2)) (Scalar.ofBits .f32 0xD8635FA9#32)
/-- Head 6's result, stored at columns 384 … 447. -/
def piece6 : FVec F S1x1024x64 .f32 := k1_pay24 (k1_pay23 (k1_pay3 v0) (k1_pay4 v2) (k1_pay5 v4) (k1_pay6 v6 v8))
/-- Head 7's result, stored at columns 448 … 511. -/
def piece7 : FVec F S1x1024x64 .f32 := k1_pay25 (k1_pay3 v0) (k1_pay4 v2) (k1_pay5 v4) (k1_pay6 v6 v8)
/-- Head 8's result, stored at columns 512 … 575. -/
def piece8 : FVec F S1x1024x64 .f32 := k1_pay29 (k1_pay26 (k1_pay5 v4)) (k1_pay27 (k1_pay3 v0) (k1_pay4 v2) (k1_pay6 v6 v8)) (k1_pay28 (k1_pay3 v0) (k1_pay4 v2) (k1_pay6 v6 v8))
/-- Head 9's result, stored at columns 576 … 639. -/
def piece9 : FVec F S1x1024x64 .f32 := k1_pay30 (k1_pay3 v0) (k1_pay4 v2) (k1_pay5 v4) (k1_pay6 v6 v8)
/-- Head 10's result, stored at columns 640 … 703. -/
def piece10 : FVec F S1x1024x64 .f32 := k1_pay32 (k1_pay4 v2) (k1_pay5 v4) (k1_pay6 v6 v8) (k1_pay31 (k1_pay3 v0))
/-- Head 11's result, stored at columns 704 … 767. -/
def piece11 : FVec F S1x1024x64 .f32 := k1_pay36 (k1_pay33 (k1_pay5 v4)) (k1_pay34 (k1_pay3 v0) (k1_pay4 v2) (k1_pay6 v6 v8)) (k1_pay35 (k1_pay3 v0) (k1_pay4 v2) (k1_pay6 v6 v8)) (Scalar.ofBits .f32 0x3C23D70A#32)
/-- Head 12's result, stored at columns 768 … 831. -/
def piece12 : FVec F S1x1024x64 .f32 := k1_pay37 (k1_pay3 v0) (k1_pay4 v2) (k1_pay5 v4) (k1_pay6 v6 v8)
/-- Head 13's result, stored at columns 832 … 895. -/
def piece13 : FVec F S1x1024x64 .f32 := k1_pay40 (k1_pay6 v6 v8) (k1_pay38 (k1_pay5 v4)) (k1_pay39 (k1_pay3 v0) (k1_pay4 v2))
/-- Head 14's result, stored at columns 896 … 959. -/
def piece14 : FVec F S1x1024x64 .f32 := k1_pay1 (k1_pay41 (k1_pay5 v4)) (k1_pay42 (k1_pay3 v0) (k1_pay4 v2) (k1_pay6 v6 v8)) (constant S1024x64 .f32 0x00000000#32)
/-- Head 15's result, stored at columns 960 … 1023. -/
def piece15 : FVec F S1x1024x64 .f32 := k1_pay2 (k1_pay3 v0) (k1_pay4 v2) (k1_pay5 v4) (k1_pay6 v6 v8)
end Pieces

/-! ## The body's rectangles -/

abbrev rQ : Rect S1x1024x1x16x64 := Rect.unit (s := S1x1024x1x16x64) ![0, 0, 0, 0, 0] S1x1024x1x16x64.size inb_S1x1024x1x16x64_S1x1024x1x16x64_0_0_0_0_0
abbrev rMr : Rect S1x1024x1 := Rect.unit (s := S1x1024x1) ![0, 0, 0] S1x1024x1.size inb_S1x1024x1_S1x1024x1_0_0_0
abbrev rMc : Rect S1x1x1024 := Rect.unit (s := S1x1x1024) ![0, 0, 0] S1x1x1024.size inb_S1x1x1024_S1x1x1024_0_0_0
abbrev rO0 : Rect S1x1024x1024 := Rect.unit (s := S1x1024x1024) ![0, 0, 0] S1x1024x64.size inb_S1x1024x1024_S1x1024x64_0_0_0
abbrev rO1 : Rect S1x1024x1024 := Rect.unit (s := S1x1024x1024) ![0, 0, 64] S1x1024x64.size inb_S1x1024x1024_S1x1024x64_0_0_64
abbrev rO2 : Rect S1x1024x1024 := Rect.unit (s := S1x1024x1024) ![0, 0, 128] S1x1024x64.size inb_S1x1024x1024_S1x1024x64_0_0_128
abbrev rO3 : Rect S1x1024x1024 := Rect.unit (s := S1x1024x1024) ![0, 0, 192] S1x1024x64.size inb_S1x1024x1024_S1x1024x64_0_0_192
abbrev rO4 : Rect S1x1024x1024 := Rect.unit (s := S1x1024x1024) ![0, 0, 256] S1x1024x64.size inb_S1x1024x1024_S1x1024x64_0_0_256
abbrev rO5 : Rect S1x1024x1024 := Rect.unit (s := S1x1024x1024) ![0, 0, 320] S1x1024x64.size inb_S1x1024x1024_S1x1024x64_0_0_320
abbrev rO6 : Rect S1x1024x1024 := Rect.unit (s := S1x1024x1024) ![0, 0, 384] S1x1024x64.size inb_S1x1024x1024_S1x1024x64_0_0_384
abbrev rO7 : Rect S1x1024x1024 := Rect.unit (s := S1x1024x1024) ![0, 0, 448] S1x1024x64.size inb_S1x1024x1024_S1x1024x64_0_0_448
abbrev rO8 : Rect S1x1024x1024 := Rect.unit (s := S1x1024x1024) ![0, 0, 512] S1x1024x64.size inb_S1x1024x1024_S1x1024x64_0_0_512
abbrev rO9 : Rect S1x1024x1024 := Rect.unit (s := S1x1024x1024) ![0, 0, 576] S1x1024x64.size inb_S1x1024x1024_S1x1024x64_0_0_576
abbrev rO10 : Rect S1x1024x1024 := Rect.unit (s := S1x1024x1024) ![0, 0, 640] S1x1024x64.size inb_S1x1024x1024_S1x1024x64_0_0_640
abbrev rO11 : Rect S1x1024x1024 := Rect.unit (s := S1x1024x1024) ![0, 0, 704] S1x1024x64.size inb_S1x1024x1024_S1x1024x64_0_0_704
abbrev rO12 : Rect S1x1024x1024 := Rect.unit (s := S1x1024x1024) ![0, 0, 768] S1x1024x64.size inb_S1x1024x1024_S1x1024x64_0_0_768
abbrev rO13 : Rect S1x1024x1024 := Rect.unit (s := S1x1024x1024) ![0, 0, 832] S1x1024x64.size inb_S1x1024x1024_S1x1024x64_0_0_832
abbrev rO14 : Rect S1x1024x1024 := Rect.unit (s := S1x1024x1024) ![0, 0, 896] S1x1024x64.size inb_S1x1024x1024_S1x1024x64_0_0_896
abbrev rO15 : Rect S1x1024x1024 := Rect.unit (s := S1x1024x1024) ![0, 0, 960] S1x1024x64.size inb_S1x1024x1024_S1x1024x64_0_0_960

/-- The output block after the body: the sixteen stores as pieces, LAST FIRST, over the five loaded blocks. -/
def out1_5 (x0 x1 x2 : Vec F S1x1024x1x16x64 .bf16) (x3 : Vec F S1x1024x1 .f32) (x4 : Vec F S1x1x1024 .f32) : Vec F S1x1024x1024 .f32 :=
  View.canon [⟨rO15, piece15 (View.ld x0 rQ) (View.ld x1 rQ) (View.ld x2 rQ) (View.ld x3 rMr) (View.ld x4 rMc)⟩,
    ⟨rO14, piece14 (View.ld x0 rQ) (View.ld x1 rQ) (View.ld x2 rQ) (View.ld x3 rMr) (View.ld x4 rMc)⟩,
    ⟨rO13, piece13 (View.ld x0 rQ) (View.ld x1 rQ) (View.ld x2 rQ) (View.ld x3 rMr) (View.ld x4 rMc)⟩,
    ⟨rO12, piece12 (View.ld x0 rQ) (View.ld x1 rQ) (View.ld x2 rQ) (View.ld x3 rMr) (View.ld x4 rMc)⟩,
    ⟨rO11, piece11 (View.ld x0 rQ) (View.ld x1 rQ) (View.ld x2 rQ) (View.ld x3 rMr) (View.ld x4 rMc)⟩,
    ⟨rO10, piece10 (View.ld x0 rQ) (View.ld x1 rQ) (View.ld x2 rQ) (View.ld x3 rMr) (View.ld x4 rMc)⟩,
    ⟨rO9, piece9 (View.ld x0 rQ) (View.ld x1 rQ) (View.ld x2 rQ) (View.ld x3 rMr) (View.ld x4 rMc)⟩,
    ⟨rO8, piece8 (View.ld x0 rQ) (View.ld x1 rQ) (View.ld x2 rQ) (View.ld x3 rMr) (View.ld x4 rMc)⟩,
    ⟨rO7, piece7 (View.ld x0 rQ) (View.ld x1 rQ) (View.ld x2 rQ) (View.ld x3 rMr) (View.ld x4 rMc)⟩,
    ⟨rO6, piece6 (View.ld x0 rQ) (View.ld x1 rQ) (View.ld x2 rQ) (View.ld x3 rMr) (View.ld x4 rMc)⟩,
    ⟨rO5, piece5 (View.ld x0 rQ) (View.ld x1 rQ) (View.ld x2 rQ) (View.ld x3 rMr) (View.ld x4 rMc)⟩,
    ⟨rO4, piece4 (View.ld x0 rQ) (View.ld x1 rQ) (View.ld x2 rQ) (View.ld x3 rMr) (View.ld x4 rMc)⟩,
    ⟨rO3, piece3 (View.ld x0 rQ) (View.ld x1 rQ) (View.ld x2 rQ) (View.ld x3 rMr) (View.ld x4 rMc)⟩,
    ⟨rO2, piece2 (View.ld x0 rQ) (View.ld x1 rQ) (View.ld x2 rQ) (View.ld x3 rMr) (View.ld x4 rMc)⟩,
    ⟨rO1, piece1 (View.ld x0 rQ) (View.ld x1 rQ) (View.ld x2 rQ) (View.ld x3 rMr) (View.ld x4 rMc)⟩,
    ⟨rO0, piece0 (View.ld x0 rQ) (View.ld x1 rQ) (View.ld x2 rQ) (View.ld x3 rMr) (View.ld x4 rMc)⟩]

/-- The sixteen column bands tile the block, so they cover it. -/
theorem cover1_5 (p0 p1 p2 p3 p4 p5 p6 p7 p8 p9 p10 p11 p12 p13 p14 p15 : Vec F S1x1024x64 .f32) (y : S1x1024x1024.Idx) :
    ∃ pc ∈ ([⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x1024x1024 .f32)), y ∈ pc.1.set :=
  View.cover_of_tiled ([⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x1024x1024 .f32)) S1x1024x64.size (by rfl) y

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three shares the projection array's full share is dealt into, one per window that reads it. -/
abbrev shQ : PosShare TreeShare := (fullShare : PosShare TreeShare).left
abbrev shK : PosShare TreeShare := (fullShare : PosShare TreeShare).right.left
abbrev shV : PosShare TreeShare := (fullShare : PosShare TreeShare).right.right

/-- The pipeline's proof data for region 1 on core `c`: the arrays as the region finds them; after the body each input's
    buffer still at its block and the output's at `out1_5` of the five input blocks; the invariant is the untouched
    scoped rest with the generator register; nothing owed; the projection array held by its three windows at the three
    shares above, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => shQ
    | ⟨1, _⟩ => shK
    | ⟨2, _⟩ => shV
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem share1_0 (c : Dev nD) : (dat1 V c).share 0 = shQ := by unfold Dat.share; dsimp only [dat1]; rfl
theorem share1_1 (c : Dev nD) : (dat1 V c).share 1 = shK := by unfold Dat.share; dsimp only [dat1]; rfl
theorem share1_2 (c : Dev nD) : (dat1 V c).share 2 = shV := by unfold Dat.share; dsimp only [dat1]; rfl
theorem share1_3 (c : Dev nD) : (dat1 V c).share 3 = fullShare := by unfold Dat.share; dsimp only [dat1]; rfl
theorem share1_4 (c : Dev nD) : (dat1 V c).share 4 = fullShare := by unfold Dat.share; dsimp only [dat1]; rfl
theorem share1_5 (c : Dev nD) : (dat1 V c).share 5 = fullShare := by unfold Dat.share; dsimp only [dat1]; rfl

/-- An input window's current staging buffer holds its block at every point, whether the pipeline fetched it at that
    point or kept it from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

set_option maxHeartbeats 1000000 in
/-- The body on whole staging buffers: the five inputs' at contents `x0` … `x4` are left as they were and the
    output's, whatever it held, ends at `out1_5 x0 x1 x2 x3 x4`: sixteen stores, each to its own column band. -/
theorem sound_kernel1 (c : Dev nD) (E : Set ℕ) (i : grid1.Coords)
    (arg1 : Memref sig .tc .vmem S1x1024x1x16x64 .bf16) (harg1 : arg1.IsWhole) (arg2 : Memref sig .tc .vmem S1x1024x1x16x64 .bf16) (harg2 : arg2.IsWhole)
    (arg3 : Memref sig .tc .vmem S1x1024x1x16x64 .bf16) (harg3 : arg3.IsWhole) (arg4 : Memref sig .tc .vmem S1x1024x1 .f32) (harg4 : arg4.IsWhole)
    (arg5 : Memref sig .tc .vmem S1x1x1024 .f32) (harg5 : arg5.IsWhole) (arg6 : Memref sig .tc .vmem S1x1024x1024 .f32) (harg6 : arg6.IsWhole)
    (x0 x1 x2 : Vec F S1x1024x1x16x64 .bf16) (x3 : Vec F S1x1024x1 .f32) (x4 : Vec F S1x1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _ _ _ _ _ _ _ _ _ _ _ _ _ _ _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of the kernel's program: @main is a stretch of host operations (flatten x, transpose W, narrow both to bf16),
  the projection region, a second stretch (view the projection as [8, 1024, 3, 16, 64]; the mask as floats, as a column
  and as a row), and the attention region. The buffers' contents at each boundary are a fold from the launch memory:
  a host stretch applies its operations, a region replaces its output array by what its write-backs leave and keeps
  every other buffer. Each region is entered from the unscoped buffers at the boundary's contents and left at the next
  boundary's; the attention region reads ONE array, the projection, through three windows, so at its entry that array's
  full share is dealt into three and at its exit joined again. The launch over the four segments gives the run: every
  weakly fair execution terminates, nothing faults, and every unscoped buffer ends at the last boundary's contents — in
  particular the three arguments as launched and the result array at what the attention region's write-backs leave.
-/
import proofs.«405502_j55061480734844_3_alg».proof.Proof.KIBody0
import proofs.«405502_j55061480734844_3_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit: the result array at what the pipeline's write-backs leave, every other buffer as
    entered (the region's other arrays are inputs). -/
def W4 (c : Dev nD) : Valuation τ sig (Elt F) :=
  Function.update (W3 m c) main_v9 ((dat1 (V3 m) c).arrAt 5 cfg1.N)
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- The result array after the run. -/
theorem W4_v9 (c : Dev nD) : W4 m c (Proc.devRef .tc main_v9) = (dat1 (V3 m) c).arrAt 5 cfg1.N := by
  unfold W4; exact Function.update_self ..

/-- The arguments end as launched: no host operation writes one and no region's output is one. -/
theorem W4_arg0 (c : Dev nD) : W4 m c (Proc.devRef .tc main_arg0) = m ((c : Thread nD τ).loc main_arg0) :=
  calc W4 m c (Proc.devRef .tc main_arg0)
    _ = W3 m c (Proc.devRef .tc main_arg0) := by
          unfold W4; exact Function.update_of_ne (StableHlo.devRef_ne_of_ne (by decide)) _ _
    _ = W2 m c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl
theorem W4_arg1 (c : Dev nD) : W4 m c (Proc.devRef .tc main_arg1) = m ((c : Thread nD τ).loc main_arg1) :=
  calc W4 m c (Proc.devRef .tc main_arg1)
    _ = W3 m c (Proc.devRef .tc main_arg1) := by
          unfold W4; exact Function.update_of_ne (StableHlo.devRef_ne_of_ne (by decide)) _ _
    _ = W2 m c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl
theorem W4_arg2 (c : Dev nD) : W4 m c (Proc.devRef .tc main_arg2) = m ((c : Thread nD τ).loc main_arg2) :=
  calc W4 m c (Proc.devRef .tc main_arg2)
    _ = W3 m c (Proc.devRef .tc main_arg2) := by
          unfold W4; exact Function.update_of_ne (StableHlo.devRef_ne_of_ne (by decide)) _ _
    _ = W2 m c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The attention region's arrays among the unscoped buffers

Its six windows stand on four buffers: the projection (windows 0, 1, 2), the row mask, the column mask and the result.
The proof data hold the projection three times, at the left half of the full share and at the two quarters of the right
half; the masks and the result whole. -/

section Shared
variable (V : (c : Dev nD) → (b : Ref sig .tc) → Buf (Elt F) ((c : Thread nD τ).loc b))

/-- Window `w`'s array as the proof data hold it: the whole buffer behind it, at the window's share. -/
theorem arr1 (c : Dev nD) (w : Fin cfg1.W) (G : Buf (Elt F) ((cfg1.win w).arr.view.loc (c : Thread nD τ))) :
    (((cfg1.win w).arr.view.loc (c : Thread nD τ)) ↦[(cfg1.win w).arr.view.set]{(dat1 V c).share w} G : sProp 𝕄)
      = (((c : Thread nD τ).loc (Pipeline.arrRef spec1 w)) ↦{(dat1 V c).share w} G) := by
  rw [(arr_whole1 w).set_eq_univ]

/-- The six windows' arrays, one by one: the projection at its three shares, the masks and the result whole. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v5) ↦{shQ} G 0) ∗ (((c : Thread nD τ).loc main_v5) ↦{shK} G 1)
      ∗ (((c : Thread nD τ).loc main_v5) ↦{shV} G 2) ∗ (((c : Thread nD τ).loc main_v7) ↦{fullShare} G 3)
      ∗ (((c : Thread nD τ).loc main_v8) ↦{fullShare} G 4) ∗ (((c : Thread nD τ).loc main_v9) ↦{fullShare} G 5)) := by
  unfold Dat.arrays
  rw [bigSep_W1, arr1 V c 0, arr1 V c 1, arr1 V c 2, arr1 V c 3, arr1 V c 4, arr1 V c 5,
    share1_0, share1_1, share1_2, share1_3, share1_4, share1_5]

/-- The four buffers behind the windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v5) ↦{fullShare} V' main_v5) ∗ (((c : Thread nD τ).loc main_v7) ↦{fullShare} V' main_v7)
          ∗ (((c : Thread nD τ).loc main_v8) ↦{fullShare} V' main_v8) ∗ (((c : Thread nD τ).loc main_v9) ↦{fullShare} V' main_v9)) := by
  unfold Pipeline.arrBufs
  exact bigSep_eq_bigSepL_of_eq [main_v5, main_v7, main_v8, main_v9] (by decide) (by decide) _

/-- The core's unscoped buffers are the four buffers behind the windows and the rest. -/
theorem split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs (Ix := Unit) (Name := ℕ) (U := UR sig nD τ) (Lvl := ℕ) spec1 c V'
          ∗ Pipeline.unscopedRest (Ix := Unit) (Name := ℕ) (U := UR sig nD τ) (Lvl := ℕ) spec1 c V') :=
  Pipeline.unscopedBufs_split₀ cfgs 1 winFacts₀1.arr_unscoped c V'

/-- A buffer whole at the full share is the same buffer at the left half and at the two quarters of the right half. -/
theorem deal3 (ℓ : Loc nD τ sig) (f : Buf (Elt F) ℓ) :
    (ℓ ↦{fullShare} f : sProp 𝕄) ⊣⊢ iprop((ℓ ↦{shQ} f) ∗ (ℓ ↦{shK} f) ∗ (ℓ ↦{shV} f)) :=
  ⟨(pointsTo_share (PosShare.mem_left_op_right fullShare)).1.trans
      (sep_mono .rfl (pointsTo_share (PosShare.mem_left_op_right (fullShare : PosShare TreeShare).right)).1),
   (sep_mono .rfl (pointsTo_share (PosShare.mem_left_op_right (fullShare : PosShare TreeShare).right)).2).trans
      (pointsTo_share (PosShare.mem_left_op_right fullShare)).2⟩

/-- ENTRY: the core's unscoped buffers at `V` are the region's arrays at the proof data's entry contents — the
    projection's full share dealt among its three windows — and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [split1 c (V c), arrBufs1_eq, arrays1_eq]
  refine sep_mono ?_ .rfl
  iintro ⟨H5, H7, H8, H9⟩
  ihave H := (deal3 _ _).1 $$ H5
  icases H with ⟨Hq, Hk, Hv⟩
  isplitl [Hq]; · iexact Hq
  isplitl [Hk]; · iexact Hk
  isplitl [Hv]; · iexact Hv
  isplitl [H7]; · iexact H7
  isplitl [H8]; · iexact H8
  iexact H9

/-- EXIT: the region's arrays at their final contents — the three shares of the projection joined again — and the
    unscoped rest are the core's unscoped buffers at any contents that have the result array at what the write-backs
    leave and agree with `V` elsewhere. -/
theorem exit1 (c : Dev nD) (V' : (b : Ref sig .tc) → Buf (Elt F) ((c : Thread nD τ).loc b))
    (h9 : V' main_v9 = (dat1 V c).arrAt 5 cfg1.N) (hrest : ∀ b, b ≠ main_v9 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [split1 c V', arrBufs1_eq, arrays1_eq,
    (dat1 V c).arrAt_in 0 rfl, (dat1 V c).arrAt_in 1 rfl, (dat1 V c).arrAt_in 2 rfl, (dat1 V c).arrAt_in 3 rfl,
    (dat1 V c).arrAt_in 4 rfl, A_eq1, A_eq1, A_eq1, A_eq1, A_eq1,
    h9, hrest main_v5 (by decide), hrest main_v7 (by decide), hrest main_v8 (by decide)]
  refine sep_mono ?_ (Entails.of_eq ?_)
  · iintro ⟨Hq, Hk, Hv, H7, H8, H9⟩
    isplitl [Hq Hk Hv]
    · iapply (deal3 _ _).2
      isplitl [Hq]; · iexact Hq
      isplitl [Hk]; · iexact Hk
      iexact Hv
    isplitl [H7]; · iexact H7
    isplitl [H8]; · iexact H8
    iexact H9
  · unfold Pipeline.unscopedRest
    exact bigSep_congr fun b hb => by
      rw [hrest b fun e => (Finset.mem_sdiff.mp hb).2 (Finset.mem_image.mpr ⟨5, Finset.mem_univ _, e ▸ rfl⟩)]

end Shared

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The last thread state without the `owes`: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-! ## The regions as segments -/

set_option backward.isDefEq.respectTransparency.types false in
/-- The projection region over the thread state: entered from every unscoped buffer at `W1`, left at `W2`. Its three
    arrays are distinct buffers, split out of the unscoped buffers and put back at the exit contents; the generator
    register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The result array's contents at the last boundary, and every other buffer's. -/
theorem V4_v9 (c : Dev nD) : V4 m c main_v9 = (dat1 (V3 m) c).arrAt 5 cfg1.N := W4_v9 m c
theorem V4_of_ne (c : Dev nD) (b : Ref sig .tc) (hb : b ≠ main_v9) : V4 m c b = V3 m c b := by
  show W4 m c (Proc.devRef .tc b) = W3 m c (Proc.devRef .tc b)
  unfold W4; exact Function.update_of_ne (StableHlo.devRef_ne_of_ne hb) _ _

set_option backward.isDefEq.respectTransparency.types false in
/-- The attention region over the thread state: entered from every unscoped buffer at `W3`, left at `W4`. Its six
    windows stand on four buffers: at the entry the projection's full share is dealt among the three windows that read it
    (`entry1`), at the exit joined again (`exit1`); the generator register goes into the invariant and comes out; nothing
    is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0)
          ∗ Pipeline.unscopedRest (Ix := Unit) (Name := ℕ) (U := UR sig nD τ) (Lvl := ℕ) spec1 c (V3 m c)) := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (V4 m c) : sProp 𝕄) :=
      exit1 (V3 m) c (V4 m c) (V4_v9 m c) (V4_of_ne m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's four segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer ends at the last boundary's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c b hb)

/-- The frame: the three arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_arg0 m c),
     (h c _ (mem_uc main_arg1 (by decide))).trans (W4_arg1 m c),
     (h c _ (mem_uc main_arg2 (by decide))).trans (W4_arg2 m c)⟩) (run_main m ρ)

/-- The run with the result array named. -/
theorem run_val (ρ : Dev nD → PrngReg) :
    θ_run defs (onTc (τ := τ) (main (F := F))) ⟨m, fun _ => 0, ρ⟩ (fun r => ∀ c : Dev nD,
      r.2.mem ((c.tc : Thread nD τ).loc main_v9) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v9 (by decide))).trans (W4_v9 m c),
     (h c _ (mem_uc main_arg0 (by decide))).trans (W4_arg0 m c),
     (h c _ (mem_uc main_arg1 (by decide))).trans (W4_arg1 m c),
     (h c _ (mem_uc main_arg2 (by decide))).trans (W4_arg2 m c)⟩) (run_main m ρ)

end Cert.KernelIdeal.Hand

end
-- ==== Proof.Spec.lean ====
/-
  The mathematics both programs compute, as ONE function of the three argument arrays, index by index, on the extended
  reals. With x : [8, 1024, 1024], mask : [8, 1024] (32-bit integers) and W : [3072, 1024]:

    qkv b l f        = Σ_c x[b, l, c] · W[f, c]                                  (the projection; f = s·1024 + h·64 + d)
    q, k, v          = the three thirds s = 0, 1, 2 of the 3072 columns, head h owning 64 consecutive columns
    score l j        = fill            if float(mask[b, l]) · float(mask[b, j]) = 0
                     = (Σ_d q[l, d] · k[j, d]) · 2⁻³   otherwise                (fill = the word 0xD8635FA9, about −10¹⁵)
    e l j            = exp (score l j − max_j score l j)
    weight l j       = e l j / (Σ_j e l j + ε)                                   (ε = the word 0x3C23D70A, about 0.01)
    out[b, l, h·64+d] = Σ_j weight l j · v[j, d]

  Each program performs exactly these operations in this order, so the float literals stay the words they are printed as
  and the only law of arithmetic used to join the two is 0 + x = x (a sum's zero initial value, a product's zero
  accumulator), which holds at the infinities too: the inputs' finiteness is not used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! The per-(batch, head) softmax-attention chain on abstract queries, keys and values (1024 rows of 64) and the row
    and column mask values of that batch. -/
section Head

variable (q k v : Fin 1024 → Fin 64 → EReal) (mr mc : Fin 1024 → EReal)

/-- The masked, scaled score of query row `l` against key row `j`. -/
def score (l j : Fin 1024) : EReal :=
  Scalar.select (Ideal.cmp .oeq (mr l * mc j) (Ideal.ofBits .f32 0x00000000#32)) (Ideal.ofBits .f32 0xD8635FA9#32)
    ((∑ d : Fin 64, q l d * k j d) * Ideal.ofBits .f32 0x3E000000#32)

/-- The largest score of row `l` (the fold of `max` from −∞ over the keys). -/
def rowMax (l : Fin 1024) : EReal :=
  (Finset.univ : Finset (Fin 1024)).fold max (Ideal.ofBits .f32 0xFF800000#32) (fun j => score q k mr mc l j)

/-- The exponential of the score less the row's largest. -/
def ex (l j : Fin 1024) : EReal := Ideal.exp (score q k mr mc l j - rowMax q k mr mc l)

/-- The row's partition sum with the constant ε added. -/
def den (l : Fin 1024) : EReal := (∑ j : Fin 1024, ex q k mr mc l j) + Ideal.ofBits .f32 0x3C23D70A#32

/-- Row `l`, column `d` of the head's output: the weights of row `l` against the values' column `d`. -/
def head (l : Fin 1024) (d : Fin 64) : EReal :=
  ∑ j : Fin 1024, Ideal.div (ex q k mr mc l j) (den q k mr mc l) * v j d

end Head

/-- Column `s·1024 + h·64 + d` of the projection: third `s` (query, key, value), head `h`, feature `d`. -/
def col (s : Fin 3) (h : Fin 16) (d : Fin 64) : Fin 3072 := ⟨s.val * 1024 + h.val * 64 + d.val, by omega⟩

/-- The projection's entry for batch `b`, row `l`, column `f`. -/
def qkv (x : (⟨3, ![8, 1024, 1024]⟩ : Shape).Idx → EReal) (W : (⟨2, ![3072, 1024]⟩ : Shape).Idx → EReal)
    (b : Fin 8) (l : Fin 1024) (f : Fin 3072) : EReal :=
  ∑ c : Fin 1024, x (ix3 b l c) * W (ix2 f c)

/-- The mask entry as a float. -/
def mf (mask : (⟨2, ![8, 1024]⟩ : Shape).Idx → BitVec 32) (b : Fin 8) (l : Fin 1024) : EReal :=
  FloatOps.sitofp (F := Ideal) .f32 (mask (ix2 b l))

/-- The whole result: entry (b, l, h·64 + d) is head `h`'s output for batch `b` at row `l`, feature `d`. -/
def G (x : (⟨3, ![8, 1024, 1024]⟩ : Shape).Idx → EReal) (mask : (⟨2, ![8, 1024]⟩ : Shape).Idx → BitVec 32)
    (W : (⟨2, ![3072, 1024]⟩ : Shape).Idx → EReal) : (⟨3, ![8, 1024, 1024]⟩ : Shape).Idx → EReal := fun i =>
  let b : Fin 8 := i 0
  let l : Fin 1024 := i 1
  let h : Fin 16 := ⟨(i 2).val / 64, by have h2 : (i 2).val < 1024 := (i 2).isLt; omega⟩
  let d : Fin 64 := ⟨(i 2).val % 64, Nat.mod_lt _ (by decide)⟩
  head (fun l' d' => qkv x W b l' (col 0 h d')) (fun l' d' => qkv x W b l' (col 1 h d')) (fun l' d' => qkv x W b l' (col 2 h d'))
    (mf mask b) (mf mask b) l d

end Cert.Spec

end
-- ==== Proof.KIHead.lean ====
/-
  One head of the attention body as ONE term: from the head's query, key and value slices (1024 rows of 64) and the
  mask's "is zero" bits it is the program's own chain — the scores on the matrix unit, the scale 2⁻³, the fill where the
  mask product is zero, the row maximum, the exponential of the difference, the row sum plus ε, the quotient, the product
  with the values — and, read at an index on the extended reals, the specification's `Spec.head`. Also the sixteen head
  slices of a [1024, 16, 64] block and the mask bits, each read at an index.
-/
import proofs.«405502_j55061480734844_3_alg».proof.Proof.Gen.KernelIdeal.Skeleton
import proofs.«405502_j55061480734844_3_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.ValueIdx

section Generic
variable {F : FTy → Type} [FloatOps F]

/-- One head's chain on its three slices and the mask bits, as the program spells it. -/
def headChain (qh kh vh : FVec F S1024x64 .bf16) (neg : IVec S1024x1024 1) : FVec F S1x1024x64 .f32 :=
  have cst_156 : FVec F S1024x1024 .f32 := constant S1024x1024 .f32 0x00000000#32
  have v426 : FVec F S1024x1024 .f32 := matmul dot_S1024x64_S1024x64_S1024x1024_1_1_0_0_n_n none qh kh cst_156
  have cst_157 : F .f32 := Scalar.ofBits .f32 0x3E000000#32
  have v427 : FVec F S1024x1024 .f32 := broadcast S1024x1024 cst_157
  have v428 : FVec F S1024x1024 .f32 := mulf v426 v427
  have cst_158 : F .f32 := Scalar.ofBits .f32 0xD8635FA9#32
  have v429 : FVec F S1024x1024 .f32 := broadcast S1024x1024 cst_158
  have v430 : FVec F S1024x1024 .f32 := select neg v429 v428
  have v431 : FVec F S1024 .f32 := multiReduction .maximumf [1] S1024 v430 0xFF800000#32 reduces_S1024x1024_S1024 (.inl rfl) rfl
  have v432 : FVec F S1024x1 .f32 := shapeCast S1024x1 v431 shapeCasts_S1024_S1024x1
  have v433 : FVec F S1024x1024 .f32 := broadcastTo S1024x1024 v432 broadcasts_S1024x1_S1024x1024
  have v434 : FVec F S1024x1024 .f32 := subf v430 v433
  have v435 : FVec F S1024x1024 .f32 := exp v434
  have v436 : FVec F S1024 .f32 := multiReduction .add [1] S1024 v435 0x00000000#32 reduces_S1024x1024_S1024 (.inl rfl) rfl
  have v437 : FVec F S1024x1 .f32 := shapeCast S1024x1 v436 shapeCasts_S1024_S1024x1
  have cst_161 : F .f32 := Scalar.ofBits .f32 0x3C23D70A#32
  have v438 : FVec F S1024x1 .f32 := broadcast S1024x1 cst_161
  have v439 : FVec F S1024x1 .f32 := addf v437 v438
  have v440 : FVec F S1024x1024 .f32 := broadcastTo S1024x1024 v439 broadcasts_S1024x1_S1024x1024
  have v441 : FVec F S1024x1024 .f32 := divf v435 v440
  have v442 : FVec F S1024x1024 .bf16 := truncf .bf16 v441 bitsLt_bf16_f32
  have cst_162 : FVec F S1024x64 .f32 := constant S1024x64 .f32 0x00000000#32
  have v443 : FVec F S1024x64 .f32 := matmul dot_S1024x1024_S1024x64_S1024x64_1_0_0_1_n_n none v442 vh cst_162
  have v446 : FVec F S1x1024x64 .f32 := shapeCast S1x1024x64 v443 shapeCasts_S1024x64_S1x1024x64
  v446

/-- Head 0's slice of a [1024, 16, 64] block: rows × 64 features. -/
def slice0 (x : FVec F S1024x16x64 .bf16) : FVec F S1024x64 .bf16 :=
  shapeCast S1024x64 (extractStridedSlice S1024x1x64 ![0, 0, 0] x slices_S1024x16x64_o0_0_0_S1024x1x64) shapeCasts_S1024x1x64_S1024x64
/-- Head 1's slice of a [1024, 16, 64] block: rows × 64 features. -/
def slice1 (x : FVec F S1024x16x64 .bf16) : FVec F S1024x64 .bf16 :=
  shapeCast S1024x64 (extractStridedSlice S1024x1x64 ![0, 1, 0] x slices_S1024x16x64_o0_1_0_S1024x1x64) shapeCasts_S1024x1x64_S1024x64
/-- Head 2's slice of a [1024, 16, 64] block: rows × 64 features. -/
def slice2 (x : FVec F S1024x16x64 .bf16) : FVec F S1024x64 .bf16 :=
  shapeCast S1024x64 (extractStridedSlice S1024x1x64 ![0, 2, 0] x slices_S1024x16x64_o0_2_0_S1024x1x64) shapeCasts_S1024x1x64_S1024x64
/-- Head 3's slice of a [1024, 16, 64] block: rows × 64 features. -/
def slice3 (x : FVec F S1024x16x64 .bf16) : FVec F S1024x64 .bf16 :=
  shapeCast S1024x64 (extractStridedSlice S1024x1x64 ![0, 3, 0] x slices_S1024x16x64_o0_3_0_S1024x1x64) shapeCasts_S1024x1x64_S1024x64
/-- Head 4's slice of a [1024, 16, 64] block: rows × 64 features. -/
def slice4 (x : FVec F S1024x16x64 .bf16) : FVec F S1024x64 .bf16 :=
  shapeCast S1024x64 (extractStridedSlice S1024x1x64 ![0, 4, 0] x slices_S1024x16x64_o0_4_0_S1024x1x64) shapeCasts_S1024x1x64_S1024x64
/-- Head 5's slice of a [1024, 16, 64] block: rows × 64 features. -/
def slice5 (x : FVec F S1024x16x64 .bf16) : FVec F S1024x64 .bf16 :=
  shapeCast S1024x64 (extractStridedSlice S1024x1x64 ![0, 5, 0] x slices_S1024x16x64_o0_5_0_S1024x1x64) shapeCasts_S1024x1x64_S1024x64
/-- Head 6's slice of a [1024, 16, 64] block: rows × 64 features. -/
def slice6 (x : FVec F S1024x16x64 .bf16) : FVec F S1024x64 .bf16 :=
  shapeCast S1024x64 (extractStridedSlice S1024x1x64 ![0, 6, 0] x slices_S1024x16x64_o0_6_0_S1024x1x64) shapeCasts_S1024x1x64_S1024x64
/-- Head 7's slice of a [1024, 16, 64] block: rows × 64 features. -/
def slice7 (x : FVec F S1024x16x64 .bf16) : FVec F S1024x64 .bf16 :=
  shapeCast S1024x64 (extractStridedSlice S1024x1x64 ![0, 7, 0] x slices_S1024x16x64_o0_7_0_S1024x1x64) shapeCasts_S1024x1x64_S1024x64
/-- Head 8's slice of a [1024, 16, 64] block: rows × 64 features. -/
def slice8 (x : FVec F S1024x16x64 .bf16) : FVec F S1024x64 .bf16 :=
  shapeCast S1024x64 (extractStridedSlice S1024x1x64 ![0, 8, 0] x slices_S1024x16x64_o0_8_0_S1024x1x64) shapeCasts_S1024x1x64_S1024x64
/-- Head 9's slice of a [1024, 16, 64] block: rows × 64 features. -/
def slice9 (x : FVec F S1024x16x64 .bf16) : FVec F S1024x64 .bf16 :=
  shapeCast S1024x64 (extractStridedSlice S1024x1x64 ![0, 9, 0] x slices_S1024x16x64_o0_9_0_S1024x1x64) shapeCasts_S1024x1x64_S1024x64
/-- Head 10's slice of a [1024, 16, 64] block: rows × 64 features. -/
def slice10 (x : FVec F S1024x16x64 .bf16) : FVec F S1024x64 .bf16 :=
  shapeCast S1024x64 (extractStridedSlice S1024x1x64 ![0, 10, 0] x slices_S1024x16x64_o0_10_0_S1024x1x64) shapeCasts_S1024x1x64_S1024x64
/-- Head 11's slice of a [1024, 16, 64] block: rows × 64 features. -/
def slice11 (x : FVec F S1024x16x64 .bf16) : FVec F S1024x64 .bf16 :=
  shapeCast S1024x64 (extractStridedSlice S1024x1x64 ![0, 11, 0] x slices_S1024x16x64_o0_11_0_S1024x1x64) shapeCasts_S1024x1x64_S1024x64
/-- Head 12's slice of a [1024, 16, 64] block: rows × 64 features. -/
def slice12 (x : FVec F S1024x16x64 .bf16) : FVec F S1024x64 .bf16 :=
  shapeCast S1024x64 (extractStridedSlice S1024x1x64 ![0, 12, 0] x slices_S1024x16x64_o0_12_0_S1024x1x64) shapeCasts_S1024x1x64_S1024x64
/-- Head 13's slice of a [1024, 16, 64] block: rows × 64 features. -/
def slice13 (x : FVec F S1024x16x64 .bf16) : FVec F S1024x64 .bf16 :=
  shapeCast S1024x64 (extractStridedSlice S1024x1x64 ![0, 13, 0] x slices_S1024x16x64_o0_13_0_S1024x1x64) shapeCasts_S1024x1x64_S1024x64
/-- Head 14's slice of a [1024, 16, 64] block: rows × 64 features. -/
def slice14 (x : FVec F S1024x16x64 .bf16) : FVec F S1024x64 .bf16 :=
  shapeCast S1024x64 (extractStridedSlice S1024x1x64 ![0, 14, 0] x slices_S1024x16x64_o0_14_0_S1024x1x64) shapeCasts_S1024x1x64_S1024x64
/-- Head 15's slice of a [1024, 16, 64] block: rows × 64 features. -/
def slice15 (x : FVec F S1024x16x64 .bf16) : FVec F S1024x64 .bf16 :=
  shapeCast S1024x64 (extractStridedSlice S1024x1x64 ![0, 15, 0] x slices_S1024x16x64_o0_15_0_S1024x1x64) shapeCasts_S1024x1x64_S1024x64

end Generic

/-- A rank-3 block cut along its middle axis at offset `o` to one column, then flattened to rank 2, reads at
    (row, feature) the block at (row, o, feature): the row-major positions agree because the cut axis has extent one. -/
theorem sliceCast_apply (o : Nat) (ho : o < 16) (x : FVec Ideal S1024x16x64 .bf16)
    (h : S1024x16x64.Slices ![0, o, 0] S1024x1x64) (l : Fin 1024) (d : Fin 64) :
    shapeCast S1024x64 (extractStridedSlice S1024x1x64 ![0, o, 0] x h) shapeCasts_S1024x1x64_S1024x64 (ix2 l d)
      = x (ix3 l (⟨o, ho⟩ : Fin 16) d) := by
  refine (shapeCast_apply _ _ (ix2 l d) (ix3 l (0 : Fin 1) d) ?_).trans ?_
  · rw [Shape.rowMajor_val_three, Shape.rowMajor_val_two]
    show (l.val * 1 + 0) * 64 + d.val = l.val * 64 + d.val
    omega
  · exact slice3_axis1_apply o x h l (0 : Fin 1) d ⟨o, ho⟩ rfl

/-- A [1, 1024, 1, 16, 64] block viewed as [1024, 16, 64] reads at (l, h, d) the block at (0, l, 0, h, d): the two unit
    axes contribute nothing to the row-major position. -/
theorem cast5_apply {α : Type} (v : S1x1024x1x16x64.Idx → α) (l : Fin 1024) (h : Fin 16) (d : Fin 64) :
    shapeCast S1024x16x64 v shapeCasts_S1x1024x1x16x64_S1024x16x64 (ix3 l h d)
      = v (ix5 (0 : Fin 1) l (0 : Fin 1) h d) :=
  shapeCast_apply v _ _ _ (by
    rw [Shape.rowMajor_val_five, Shape.rowMajor_val_three]
    show (((0 * 1024 + l.val) * 1 + 0) * 16 + h.val) * 64 + d.val = (l.val * 16 + h.val) * 64 + d.val
    omega)

/-- A column [a, 1] broadcast along the lanes to [a, b] reads at (p, c) the column's entry p. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as the column [a, 1] reads at (i, u) the vector's entry i. -/
theorem castCol_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A [1, a, 1] block viewed as the column [a, 1] reads at (i, u) the block at (0, i, 0). -/
theorem cast1a1_apply {α : Type} {a : ℕ} (x : (⟨3, ![1, a, 1]⟩ : Shape).Idx → α)
    (h : (⟨3, ![1, a, 1]⟩ : Shape).ShapeCasts ⟨2, ![a, 1]⟩) (i : Fin a) (u : Fin 1) :
    shapeCast ⟨2, ![a, 1]⟩ x h (ix2 i u) = x (ix3 (0 : Fin 1) i (0 : Fin 1)) :=
  shapeCast_apply x h _ _ (by
    have hu : u.val = 0 := by omega
    rw [Shape.rowMajor_val_two, Shape.rowMajor_val_three]
    show (0 * a + i.val) * 1 + 0 = i.val * 1 + u.val
    omega)

/-- Head `k`'s slice read at (row, feature): the block at (row, k, feature). -/
theorem slice0_apply (x : FVec Ideal S1024x16x64 .bf16) (l : Fin 1024) (d : Fin 64) :
    slice0 x (ix2 l d) = x (ix3 l (0 : Fin 16) d) :=
  sliceCast_apply 0 (by omega) x _ l d
theorem slice1_apply (x : FVec Ideal S1024x16x64 .bf16) (l : Fin 1024) (d : Fin 64) :
    slice1 x (ix2 l d) = x (ix3 l (1 : Fin 16) d) :=
  sliceCast_apply 1 (by omega) x _ l d
theorem slice2_apply (x : FVec Ideal S1024x16x64 .bf16) (l : Fin 1024) (d : Fin 64) :
    slice2 x (ix2 l d) = x (ix3 l (2 : Fin 16) d) :=
  sliceCast_apply 2 (by omega) x _ l d
theorem slice3_apply (x : FVec Ideal S1024x16x64 .bf16) (l : Fin 1024) (d : Fin 64) :
    slice3 x (ix2 l d) = x (ix3 l (3 : Fin 16) d) :=
  sliceCast_apply 3 (by omega) x _ l d
theorem slice4_apply (x : FVec Ideal S1024x16x64 .bf16) (l : Fin 1024) (d : Fin 64) :
    slice4 x (ix2 l d) = x (ix3 l (4 : Fin 16) d) :=
  sliceCast_apply 4 (by omega) x _ l d
theorem slice5_apply (x : FVec Ideal S1024x16x64 .bf16) (l : Fin 1024) (d : Fin 64) :
    slice5 x (ix2 l d) = x (ix3 l (5 : Fin 16) d) :=
  sliceCast_apply 5 (by omega) x _ l d
theorem slice6_apply (x : FVec Ideal S1024x16x64 .bf16) (l : Fin 1024) (d : Fin 64) :
    slice6 x (ix2 l d) = x (ix3 l (6 : Fin 16) d) :=
  sliceCast_apply 6 (by omega) x _ l d
theorem slice7_apply (x : FVec Ideal S1024x16x64 .bf16) (l : Fin 1024) (d : Fin 64) :
    slice7 x (ix2 l d) = x (ix3 l (7 : Fin 16) d) :=
  sliceCast_apply 7 (by omega) x _ l d
theorem slice8_apply (x : FVec Ideal S1024x16x64 .bf16) (l : Fin 1024) (d : Fin 64) :
    slice8 x (ix2 l d) = x (ix3 l (8 : Fin 16) d) :=
  sliceCast_apply 8 (by omega) x _ l d
theorem slice9_apply (x : FVec Ideal S1024x16x64 .bf16) (l : Fin 1024) (d : Fin 64) :
    slice9 x (ix2 l d) = x (ix3 l (9 : Fin 16) d) :=
  sliceCast_apply 9 (by omega) x _ l d
theorem slice10_apply (x : FVec Ideal S1024x16x64 .bf16) (l : Fin 1024) (d : Fin 64) :
    slice10 x (ix2 l d) = x (ix3 l (10 : Fin 16) d) :=
  sliceCast_apply 10 (by omega) x _ l d
theorem slice11_apply (x : FVec Ideal S1024x16x64 .bf16) (l : Fin 1024) (d : Fin 64) :
    slice11 x (ix2 l d) = x (ix3 l (11 : Fin 16) d) :=
  sliceCast_apply 11 (by omega) x _ l d
theorem slice12_apply (x : FVec Ideal S1024x16x64 .bf16) (l : Fin 1024) (d : Fin 64) :
    slice12 x (ix2 l d) = x (ix3 l (12 : Fin 16) d) :=
  sliceCast_apply 12 (by omega) x _ l d
theorem slice13_apply (x : FVec Ideal S1024x16x64 .bf16) (l : Fin 1024) (d : Fin 64) :
    slice13 x (ix2 l d) = x (ix3 l (13 : Fin 16) d) :=
  sliceCast_apply 13 (by omega) x _ l d
theorem slice14_apply (x : FVec Ideal S1024x16x64 .bf16) (l : Fin 1024) (d : Fin 64) :
    slice14 x (ix2 l d) = x (ix3 l (14 : Fin 16) d) :=
  sliceCast_apply 14 (by omega) x _ l d
theorem slice15_apply (x : FVec Ideal S1024x16x64 .bf16) (l : Fin 1024) (d : Fin 64) :
    slice15 x (ix2 l d) = x (ix3 l (15 : Fin 16) d) :=
  sliceCast_apply 15 (by omega) x _ l d

/-- The query / key / value block [1, 1024, 1, 16, 64] viewed as [1024, 16, 64], read at an index. -/
theorem pay3_apply (v0 : Vec Ideal S1x1024x1x16x64 .bf16) (l : Fin 1024) (h : Fin 16) (d : Fin 64) :
    k1_pay3 v0 (ix3 l h d) = v0 (ix5 (0 : Fin 1) l (0 : Fin 1) h d) :=
  cast5_apply v0 l h d
theorem pay4_apply (v2 : Vec Ideal S1x1024x1x16x64 .bf16) (l : Fin 1024) (h : Fin 16) (d : Fin 64) :
    k1_pay4 v2 (ix3 l h d) = v2 (ix5 (0 : Fin 1) l (0 : Fin 1) h d) :=
  cast5_apply v2 l h d
theorem pay5_apply (v4 : Vec Ideal S1x1024x1x16x64 .bf16) (l : Fin 1024) (h : Fin 16) (d : Fin 64) :
    k1_pay5 v4 (ix3 l h d) = v4 (ix5 (0 : Fin 1) l (0 : Fin 1) h d) :=
  cast5_apply v4 l h d

/-- The mask bits: entry (l, j) says whether the row mask at l times the column mask at j is zero. -/
theorem pay6_apply (v6 : Vec Ideal S1x1024x1 .f32) (v8 : Vec Ideal S1x1x1024 .f32) (l j : Fin 1024) :
    k1_pay6 v6 v8 (ix2 l j)
      = Ideal.cmp .oeq (v6 (ix3 (0 : Fin 1) l (0 : Fin 1)) * v8 (ix3 (0 : Fin 1) (0 : Fin 1) j)) (Ideal.ofBits .f32 0x00000000#32) := by
  have hr : broadcastTo S1024x1024 (shapeCast S1024x1 v6 shapeCasts_S1x1024x1_S1024x1) broadcasts_S1024x1_S1024x1024 (ix2 l j)
      = v6 (ix3 (0 : Fin 1) l (0 : Fin 1)) :=
    (bcastCol_apply _ _ l j).trans (cast1a1_apply v6 _ l 0)
  have hc : broadcastTo S1024x1024 (shapeCast S1x1024 v8 shapeCasts_S1x1x1024_S1x1024) broadcasts_S1x1024_S1024x1024 (ix2 l j)
      = v8 (ix3 (0 : Fin 1) (0 : Fin 1) j) :=
    (broadcastTo_1b_ab_apply _ _ l j).trans (shapeCast_1ab_ab_apply v8 _ 0 j)
  show Ideal.cmp .oeq (broadcastTo S1024x1024 (shapeCast S1024x1 v6 shapeCasts_S1x1024x1_S1024x1) broadcasts_S1024x1_S1024x1024 (ix2 l j)
      * broadcastTo S1024x1024 (shapeCast S1x1024 v8 shapeCasts_S1x1x1024_S1x1024) broadcasts_S1x1024_S1024x1024 (ix2 l j))
      (Ideal.ofBits .f32 0x00000000#32) = _
  rw [hr, hc]

/-! ## The two products on the matrix unit, read at an index

Each operand index of a product with one contracting axis has the output's coordinate on its free axis and the
contraction's one coordinate on its contracting axis; through that bijection the product's sum over the contraction
index is the sum over `Fin 64` (scores: queries against keys, both contracted along the features) or `Fin 1024`
(output: weights against values, contracted along the keys). -/

theorem lhs_qk_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem lhs_qk_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_qk_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem rhs_qk_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The score product at (l, j): the sum over the 64 features of query row l against key row j. -/
theorem qk_apply (qh kh : FVec Ideal S1024x64 .bf16) (l j : Fin 1024) :
    matmul dot_S1024x64_S1024x64_S1024x1024_1_1_0_0_n_n none qh kh (constant S1024x1024 .f32 0x00000000#32) (ix2 l j)
      = ∑ d : Fin 64, qh (ix2 l d) * kh (ix2 j d) := by
  refine (Ideal.matmul_constant_zero_apply dot_S1024x64_S1024x64_S1024x1024_1_1_0_0_n_n none qh kh (ix2 l j)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 l j) ((contrEquiv1 dot_S1024x64_S1024x64_S1024x1024_1_1_0_0_n_n 64 rfl rfl).symm k) = ix2 l k :=
    funext fun a => Fin.ext (by
      match a with
      | ⟨0, _⟩ => exact lhs_qk_0 _ _
      | ⟨1, _⟩ => exact (lhs_qk_1 _ _).trans hk)
  have er : dot_S1024x64_S1024x64_S1024x1024_1_1_0_0_n_n.rhsIdx (ix2 l j) ((contrEquiv1 dot_S1024x64_S1024x64_S1024x1024_1_1_0_0_n_n 64 rfl rfl).symm k) = ix2 j k :=
    funext fun a => Fin.ext (by
      match a with
      | ⟨0, _⟩ => exact rhs_qk_0 _ _
      | ⟨1, _⟩ => exact (rhs_qk_1 _ _).trans hk)
  rw [el, er]

theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The output product at (l, d): the sum over the 1024 keys of weight (l, j) against value row j's feature d. -/
theorem pv_apply (p : FVec Ideal S1024x1024 .bf16) (vh : FVec Ideal S1024x64 .bf16) (l : Fin 1024) (d : Fin 64) :
    matmul dot_S1024x1024_S1024x64_S1024x64_1_0_0_1_n_n none p vh (constant S1024x64 .f32 0x00000000#32) (ix2 l d)
      = ∑ j : Fin 1024, p (ix2 l j) * vh (ix2 j d) := by
  refine (Ideal.matmul_constant_zero_apply dot_S1024x1024_S1024x64_S1024x64_1_0_0_1_n_n none p vh (ix2 l d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 l d) ((contrEquiv1 dot_S1024x1024_S1024x64_S1024x64_1_0_0_1_n_n 1024 rfl rfl).symm k) = ix2 l k :=
    funext fun a => Fin.ext (by
      match a with
      | ⟨0, _⟩ => exact lhs_pv_0 _ _
      | ⟨1, _⟩ => exact (lhs_pv_1 _ _).trans hk)
  have er : dot_S1024x1024_S1024x64_S1024x64_1_0_0_1_n_n.rhsIdx (ix2 l d) ((contrEquiv1 dot_S1024x1024_S1024x64_S1024x64_1_0_0_1_n_n 1024 rfl rfl).symm k) = ix2 k d :=
    funext fun a => Fin.ext (by
      match a with
      | ⟨0, _⟩ => exact (rhs_pv_0 _ _).trans hk
      | ⟨1, _⟩ => exact rhs_pv_1 _ _)
  rw [el, er]

/-! ## The two lane reductions, read at a row -/

/-- Row l of a [1024, 1024] array with lane coordinate k put back is the index (l, k). -/
theorem lift_row (l k : Fin 1024) : reduces_S1024x1024_S1024.lift (ix1 l) k = ix2 l k := by
  funext c
  refine Fin.ext ?_
  match c with
  | ⟨0, _⟩ => rfl
  | ⟨1, _⟩ => rfl

/-- The lane maximum at row l: the fold of `max` from −∞ over the row's 1024 entries. -/
theorem rowMax_apply (s : FVec Ideal S1024x1024 .f32) (l : Fin 1024) :
    multiReduction .maximumf [1] S1024 s 0xFF800000#32 reduces_S1024x1024_S1024 (.inl rfl) rfl (ix1 l)
      = (Finset.univ : Finset (Fin 1024)).fold max (Ideal.ofBits .f32 0xFF800000#32) (fun j => s (ix2 l j)) := by
  refine (Ideal.multiReduction_maximumf_single s _ reduces_S1024x1024_S1024 _ _ (ix1 l)).trans ?_
  exact congrArg (fun f : Fin 1024 → EReal => (Finset.univ : Finset (Fin 1024)).fold max (Ideal.ofBits .f32 0xFF800000#32) f)
    (funext fun k => congrArg s (lift_row l k))

/-- The lane sum at row l: the sum of the row's 1024 entries. -/
theorem rowSum_apply (s : FVec Ideal S1024x1024 .f32) (l : Fin 1024) :
    multiReduction .add [1] S1024 s 0x00000000#32 reduces_S1024x1024_S1024 (.inl rfl) rfl (ix1 l)
      = ∑ j : Fin 1024, s (ix2 l j) := by
  refine (Ideal.multiReduction_add_single s _ reduces_S1024x1024_S1024 _ _ (ix1 l)).trans ?_
  exact Finset.sum_congr rfl fun k _ => congrArg s (lift_row l k)

/-- A row statistic [1024] spread back over the lanes (viewed as a column, then broadcast) reads at (l, j) the statistic
    of row l. -/
theorem spread_apply (r : FVec Ideal S1024 .f32) (l j : Fin 1024) :
    broadcastTo S1024x1024 (shapeCast S1024x1 r shapeCasts_S1024_S1024x1) broadcasts_S1024x1_S1024x1024 (ix2 l j)
      = r (ix1 l) :=
  (bcastCol_apply _ _ l j).trans (castCol_apply r _ l 0)

/-! ## The chain in four named pieces -/

/-- The masked, scaled scores. -/
def scoreV (qh kh : FVec Ideal S1024x64 .bf16) (neg : IVec S1024x1024 1) : FVec Ideal S1024x1024 .f32 :=
  select neg (broadcast S1024x1024 (Scalar.ofBits (F := Ideal) .f32 0xD8635FA9#32))
    (mulf (matmul dot_S1024x64_S1024x64_S1024x1024_1_1_0_0_n_n none qh kh (constant S1024x1024 .f32 0x00000000#32))
      (broadcast S1024x1024 (Scalar.ofBits (F := Ideal) .f32 0x3E000000#32)))

/-- The exponential of the scores less their row maximum. -/
def exV (s : FVec Ideal S1024x1024 .f32) : FVec Ideal S1024x1024 .f32 :=
  exp (subf s (broadcastTo S1024x1024
    (shapeCast S1024x1 (multiReduction .maximumf [1] S1024 s 0xFF800000#32 reduces_S1024x1024_S1024 (.inl rfl) rfl)
      shapeCasts_S1024_S1024x1) broadcasts_S1024x1_S1024x1024))

/-- The row sums plus ε, spread over the lanes. -/
def denV (e : FVec Ideal S1024x1024 .f32) : FVec Ideal S1024x1024 .f32 :=
  broadcastTo S1024x1024
    (addf (shapeCast S1024x1 (multiReduction .add [1] S1024 e 0x00000000#32 reduces_S1024x1024_S1024 (.inl rfl) rfl)
        shapeCasts_S1024_S1024x1)
      (broadcast S1024x1 (Scalar.ofBits (F := Ideal) .f32 0x3C23D70A#32)))
    broadcasts_S1024x1_S1024x1024

/-- The chain is the output product of the weights (the exponentials over their row sums plus ε) with the values. -/
theorem headChain_eq (qh kh vh : FVec Ideal S1024x64 .bf16) (neg : IVec S1024x1024 1) :
    headChain qh kh vh neg
      = shapeCast S1x1024x64
          (matmul dot_S1024x1024_S1024x64_S1024x64_1_0_0_1_n_n none
            (truncf .bf16 (divf (exV (scoreV qh kh neg)) (denV (exV (scoreV qh kh neg)))) bitsLt_bf16_f32) vh
            (constant S1024x64 .f32 0x00000000#32))
          shapeCasts_S1024x64_S1x1024x64 := rfl

section Pieces
variable (qh kh vh : FVec Ideal S1024x64 .bf16) (neg : IVec S1024x1024 1) (mr mc : Fin 1024 → EReal)
  (hneg : ∀ l j : Fin 1024, neg (ix2 l j) = Ideal.cmp .oeq (mr l * mc j) (Ideal.ofBits .f32 0x00000000#32))
include hneg

/-- The scores at (l, j) are the specification's. -/
theorem scoreV_apply (l j : Fin 1024) :
    scoreV qh kh neg (ix2 l j)
      = Cert.Spec.score (fun l' d' => qh (ix2 l' d')) (fun l' d' => kh (ix2 l' d')) mr mc l j := by
  unfold Cert.Spec.score
  show Scalar.select (neg (ix2 l j)) (Ideal.ofBits .f32 0xD8635FA9#32)
      (matmul dot_S1024x64_S1024x64_S1024x1024_1_1_0_0_n_n none qh kh (constant S1024x1024 .f32 0x00000000#32) (ix2 l j)
        * Ideal.ofBits .f32 0x3E000000#32) = _
  rw [hneg l j, qk_apply]

/-- The exponentials at (l, j) are the specification's. -/
theorem exV_apply (l j : Fin 1024) :
    exV (scoreV qh kh neg) (ix2 l j)
      = Cert.Spec.ex (fun l' d' => qh (ix2 l' d')) (fun l' d' => kh (ix2 l' d')) mr mc l j := by
  unfold Cert.Spec.ex Cert.Spec.rowMax
  show Ideal.exp (scoreV qh kh neg (ix2 l j)
      - broadcastTo S1024x1024 (shapeCast S1024x1
          (multiReduction .maximumf [1] S1024 (scoreV qh kh neg) 0xFF800000#32 reduces_S1024x1024_S1024 (.inl rfl) rfl)
          shapeCasts_S1024_S1024x1) broadcasts_S1024x1_S1024x1024 (ix2 l j)) = _
  rw [spread_apply, rowMax_apply, scoreV_apply qh kh neg mr mc hneg l j,
    funext fun j' => scoreV_apply qh kh neg mr mc hneg l j']

/-- The row sums plus ε at (l, j) are the specification's. -/
theorem denV_apply (l j : Fin 1024) :
    denV (exV (scoreV qh kh neg)) (ix2 l j)
      = Cert.Spec.den (fun l' d' => qh (ix2 l' d')) (fun l' d' => kh (ix2 l' d')) mr mc l := by
  unfold Cert.Spec.den
  refine (bcastCol_apply _ _ l j).trans ?_
  show shapeCast S1024x1 (multiReduction .add [1] S1024 (exV (scoreV qh kh neg)) 0x00000000#32 reduces_S1024x1024_S1024 (.inl rfl) rfl)
        shapeCasts_S1024_S1024x1 (ix2 l (0 : Fin 1)) + Ideal.ofBits .f32 0x3C23D70A#32 = _
  rw [castCol_apply, rowSum_apply]
  exact congrArg (· + Ideal.ofBits .f32 0x3C23D70A#32)
    (Finset.sum_congr rfl fun j' _ => exV_apply qh kh neg mr mc hneg l j')

end Pieces

/-- The chain read at (row l, feature d): the specification's head on the slices' entries, given what the mask bits say. -/
theorem headChain_apply (qh kh vh : FVec Ideal S1024x64 .bf16) (neg : IVec S1024x1024 1) (mr mc : Fin 1024 → EReal)
    (hneg : ∀ l j : Fin 1024, neg (ix2 l j) = Ideal.cmp .oeq (mr l * mc j) (Ideal.ofBits .f32 0x00000000#32))
    (l : Fin 1024) (d : Fin 64) :
    headChain qh kh vh neg (ix3 (0 : Fin 1) l d)
      = Cert.Spec.head (fun l' d' => qh (ix2 l' d')) (fun l' d' => kh (ix2 l' d')) (fun l' d' => vh (ix2 l' d')) mr mc l d := by
  rw [headChain_eq]
  refine (shapeCast_ab_1ab_apply _ _ 0 l d).trans ?_
  refine (pv_apply _ vh l d).trans ?_
  unfold Cert.Spec.head
  refine Finset.sum_congr rfl fun j _ => ?_
  show Ideal.div (exV (scoreV qh kh neg) (ix2 l j)) (denV (exV (scoreV qh kh neg)) (ix2 l j)) * vh (ix2 j d) = _
  rw [exV_apply qh kh neg mr mc hneg l j, denV_apply qh kh neg mr mc hneg l j]

end Cert.KernelIdeal.Val

end
-- ==== Proof.KIBlock.lean ====
/-
  The attention region's output block as ONE function of the five loaded blocks: the sixteen column bands the body stores
  are the sixteen heads' chains on the heads' slices, so entry (0, l, h·64 + d) of the block is the specification's head h
  at row l, feature d, on the query / key / value blocks' entries (·, h, ·) and the two mask blocks.
-/
import proofs.«405502_j55061480734844_3_alg».proof.Proof.KIBody1
import proofs.«405502_j55061480734844_3_alg».proof.Proof.KIHead

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## Each stored piece is its head's chain on the head's three slices and the mask bits

The program's text for one head is the same chain of operations sixteen times over; only the places where the text is
cut into named values differ from head to head, so each equation holds by unfolding the names. -/

section Chains
variable {F : FTy → Type} [FloatOps F]
variable (v0 v2 v4 : Vec F S1x1024x1x16x64 .bf16) (v6 : Vec F S1x1024x1 .f32) (v8 : Vec F S1x1x1024 .f32)

theorem piece0_eq_chain :
    piece0 v0 v2 v4 v6 v8
      = headChain (slice0 (k1_pay3 v0)) (slice0 (k1_pay4 v2)) (slice0 (k1_pay5 v4)) (k1_pay6 v6 v8) := rfl

theorem piece1_eq_chain :
    piece1 v0 v2 v4 v6 v8
      = headChain (slice1 (k1_pay3 v0)) (slice1 (k1_pay4 v2)) (slice1 (k1_pay5 v4)) (k1_pay6 v6 v8) := rfl

theorem piece2_eq_chain :
    piece2 v0 v2 v4 v6 v8
      = headChain (slice2 (k1_pay3 v0)) (slice2 (k1_pay4 v2)) (slice2 (k1_pay5 v4)) (k1_pay6 v6 v8) := rfl

theorem piece3_eq_chain :
    piece3 v0 v2 v4 v6 v8
      = headChain (slice3 (k1_pay3 v0)) (slice3 (k1_pay4 v2)) (slice3 (k1_pay5 v4)) (k1_pay6 v6 v8) := rfl

theorem piece4_eq_chain :
    piece4 v0 v2 v4 v6 v8
      = headChain (slice4 (k1_pay3 v0)) (slice4 (k1_pay4 v2)) (slice4 (k1_pay5 v4)) (k1_pay6 v6 v8) := rfl

theorem piece5_eq_chain :
    piece5 v0 v2 v4 v6 v8
      = headChain (slice5 (k1_pay3 v0)) (slice5 (k1_pay4 v2)) (slice5 (k1_pay5 v4)) (k1_pay6 v6 v8) := rfl

theorem piece6_eq_chain :
    piece6 v0 v2 v4 v6 v8
      = headChain (slice6 (k1_pay3 v0)) (slice6 (k1_pay4 v2)) (slice6 (k1_pay5 v4)) (k1_pay6 v6 v8) := rfl

theorem piece7_eq_chain :
    piece7 v0 v2 v4 v6 v8
      = headChain (slice7 (k1_pay3 v0)) (slice7 (k1_pay4 v2)) (slice7 (k1_pay5 v4)) (k1_pay6 v6 v8) := rfl

theorem piece8_eq_chain :
    piece8 v0 v2 v4 v6 v8
      = headChain (slice8 (k1_pay3 v0)) (slice8 (k1_pay4 v2)) (slice8 (k1_pay5 v4)) (k1_pay6 v6 v8) := rfl

theorem piece9_eq_chain :
    piece9 v0 v2 v4 v6 v8
      = headChain (slice9 (k1_pay3 v0)) (slice9 (k1_pay4 v2)) (slice9 (k1_pay5 v4)) (k1_pay6 v6 v8) := rfl

theorem piece10_eq_chain :
    piece10 v0 v2 v4 v6 v8
      = headChain (slice10 (k1_pay3 v0)) (slice10 (k1_pay4 v2)) (slice10 (k1_pay5 v4)) (k1_pay6 v6 v8) := rfl

theorem piece11_eq_chain :
    piece11 v0 v2 v4 v6 v8
      = headChain (slice11 (k1_pay3 v0)) (slice11 (k1_pay4 v2)) (slice11 (k1_pay5 v4)) (k1_pay6 v6 v8) := rfl

theorem piece12_eq_chain :
    piece12 v0 v2 v4 v6 v8
      = headChain (slice12 (k1_pay3 v0)) (slice12 (k1_pay4 v2)) (slice12 (k1_pay5 v4)) (k1_pay6 v6 v8) := rfl

theorem piece13_eq_chain :
    piece13 v0 v2 v4 v6 v8
      = headChain (slice13 (k1_pay3 v0)) (slice13 (k1_pay4 v2)) (slice13 (k1_pay5 v4)) (k1_pay6 v6 v8) := rfl

theorem piece14_eq_chain :
    piece14 v0 v2 v4 v6 v8
      = headChain (slice14 (k1_pay3 v0)) (slice14 (k1_pay4 v2)) (slice14 (k1_pay5 v4)) (k1_pay6 v6 v8) := rfl

theorem piece15_eq_chain :
    piece15 v0 v2 v4 v6 v8
      = headChain (slice15 (k1_pay3 v0)) (slice15 (k1_pay4 v2)) (slice15 (k1_pay5 v4)) (k1_pay6 v6 v8) := rfl

end Chains

/-! ## One head's chain on the loaded blocks, read at an index -/

section Block
variable (x0 x1 x2 : Vec Ideal S1x1024x1x16x64 .bf16) (x3 : Vec Ideal S1x1024x1 .f32) (x4 : Vec Ideal S1x1x1024 .f32)

/-- Head `h` at row `l`, feature `d`: the specification's head on the query / key / value blocks' entries (·, h, ·) and
    the row and column mask blocks. -/
def headAt (h : Fin 16) (l : Fin 1024) (d : Fin 64) : EReal :=
  Cert.Spec.head (fun l' d' => x0 (ix5 (0 : Fin 1) l' (0 : Fin 1) h d')) (fun l' d' => x1 (ix5 (0 : Fin 1) l' (0 : Fin 1) h d'))
    (fun l' d' => x2 (ix5 (0 : Fin 1) l' (0 : Fin 1) h d')) (fun l' => x3 (ix3 (0 : Fin 1) l' (0 : Fin 1)))
    (fun j => x4 (ix3 (0 : Fin 1) (0 : Fin 1) j)) l d

/-- Equal head and feature numbers give the same entry. -/
theorem headAt_congr {h h' : Fin 16} (l : Fin 1024) {d d' : Fin 64} (eh : h.val = h'.val) (ed : d.val = d'.val) :
    headAt x0 x1 x2 x3 x4 h l d = headAt x0 x1 x2 x3 x4 h' l d' := by
  obtain rfl := Fin.ext eh
  obtain rfl := Fin.ext ed
  rfl

/-- The chain on head `h`'s slices of the three blocks, with the blocks' mask bits, read at (row l, feature d), for any
    slicing `sl` that reads a [1024, 16, 64] block at (·, h, ·). -/
theorem chain_apply (sl : FVec Ideal S1024x16x64 .bf16 → FVec Ideal S1024x64 .bf16) (h : Fin 16)
    (hsl : ∀ (x : FVec Ideal S1024x16x64 .bf16) (l : Fin 1024) (d : Fin 64), sl x (ix2 l d) = x (ix3 l h d))
    (l : Fin 1024) (d : Fin 64) :
    headChain (sl (k1_pay3 x0)) (sl (k1_pay4 x1)) (sl (k1_pay5 x2)) (k1_pay6 x3 x4) (ix3 (0 : Fin 1) l d)
      = headAt x0 x1 x2 x3 x4 h l d := by
  refine (headChain_apply (sl (k1_pay3 x0)) (sl (k1_pay4 x1)) (sl (k1_pay5 x2)) (k1_pay6 x3 x4)
    (fun l' => x3 (ix3 (0 : Fin 1) l' (0 : Fin 1))) (fun j => x4 (ix3 (0 : Fin 1) (0 : Fin 1) j))
    (fun l' j => pay6_apply x3 x4 l' j) l d).trans ?_
  have e0 : (fun (l' : Fin 1024) (d' : Fin 64) => sl (k1_pay3 x0) (ix2 l' d'))
      = fun l' d' => x0 (ix5 (0 : Fin 1) l' (0 : Fin 1) h d') := by
    funext l' d'; exact (hsl _ l' d').trans (pay3_apply x0 l' h d')
  have e1 : (fun (l' : Fin 1024) (d' : Fin 64) => sl (k1_pay4 x1) (ix2 l' d'))
      = fun l' d' => x1 (ix5 (0 : Fin 1) l' (0 : Fin 1) h d') := by
    funext l' d'; exact (hsl _ l' d').trans (pay4_apply x1 l' h d')
  have e2 : (fun (l' : Fin 1024) (d' : Fin 64) => sl (k1_pay5 x2) (ix2 l' d'))
      = fun l' d' => x2 (ix5 (0 : Fin 1) l' (0 : Fin 1) h d') := by
    funext l' d'; exact (hsl _ l' d').trans (pay5_apply x2 l' h d')
  unfold headAt
  rw [e0, e1, e2]

/-- The piece stored at columns 0 … 63 is head 0. -/
theorem piece0_apply (l : Fin 1024) (d : Fin 64) :
    piece0 x0 x1 x2 x3 x4 (ix3 (0 : Fin 1) l d) = headAt x0 x1 x2 x3 x4 (0 : Fin 16) l d :=
  (congrFun (piece0_eq_chain x0 x1 x2 x3 x4) (ix3 (0 : Fin 1) l d)).trans
    (chain_apply x0 x1 x2 x3 x4 slice0 (0 : Fin 16) slice0_apply l d)

/-- The piece stored at columns 64 … 127 is head 1. -/
theorem piece1_apply (l : Fin 1024) (d : Fin 64) :
    piece1 x0 x1 x2 x3 x4 (ix3 (0 : Fin 1) l d) = headAt x0 x1 x2 x3 x4 (1 : Fin 16) l d :=
  (congrFun (piece1_eq_chain x0 x1 x2 x3 x4) (ix3 (0 : Fin 1) l d)).trans
    (chain_apply x0 x1 x2 x3 x4 slice1 (1 : Fin 16) slice1_apply l d)

/-- The piece stored at columns 128 … 191 is head 2. -/
theorem piece2_apply (l : Fin 1024) (d : Fin 64) :
    piece2 x0 x1 x2 x3 x4 (ix3 (0 : Fin 1) l d) = headAt x0 x1 x2 x3 x4 (2 : Fin 16) l d :=
  (congrFun (piece2_eq_chain x0 x1 x2 x3 x4) (ix3 (0 : Fin 1) l d)).trans
    (chain_apply x0 x1 x2 x3 x4 slice2 (2 : Fin 16) slice2_apply l d)

/-- The piece stored at columns 192 … 255 is head 3. -/
theorem piece3_apply (l : Fin 1024) (d : Fin 64) :
    piece3 x0 x1 x2 x3 x4 (ix3 (0 : Fin 1) l d) = headAt x0 x1 x2 x3 x4 (3 : Fin 16) l d :=
  (congrFun (piece3_eq_chain x0 x1 x2 x3 x4) (ix3 (0 : Fin 1) l d)).trans
    (chain_apply x0 x1 x2 x3 x4 slice3 (3 : Fin 16) slice3_apply l d)

/-- The piece stored at columns 256 … 319 is head 4. -/
theorem piece4_apply (l : Fin 1024) (d : Fin 64) :
    piece4 x0 x1 x2 x3 x4 (ix3 (0 : Fin 1) l d) = headAt x0 x1 x2 x3 x4 (4 : Fin 16) l d :=
  (congrFun (piece4_eq_chain x0 x1 x2 x3 x4) (ix3 (0 : Fin 1) l d)).trans
    (chain_apply x0 x1 x2 x3 x4 slice4 (4 : Fin 16) slice4_apply l d)

/-- The piece stored at columns 320 … 383 is head 5. -/
theorem piece5_apply (l : Fin 1024) (d : Fin 64) :
    piece5 x0 x1 x2 x3 x4 (ix3 (0 : Fin 1) l d) = headAt x0 x1 x2 x3 x4 (5 : Fin 16) l d :=
  (congrFun (piece5_eq_chain x0 x1 x2 x3 x4) (ix3 (0 : Fin 1) l d)).trans
    (chain_apply x0 x1 x2 x3 x4 slice5 (5 : Fin 16) slice5_apply l d)

/-- The piece stored at columns 384 … 447 is head 6. -/
theorem piece6_apply (l : Fin 1024) (d : Fin 64) :
    piece6 x0 x1 x2 x3 x4 (ix3 (0 : Fin 1) l d) = headAt x0 x1 x2 x3 x4 (6 : Fin 16) l d :=
  (congrFun (piece6_eq_chain x0 x1 x2 x3 x4) (ix3 (0 : Fin 1) l d)).trans
    (chain_apply x0 x1 x2 x3 x4 slice6 (6 : Fin 16) slice6_apply l d)

/-- The piece stored at columns 448 … 511 is head 7. -/
theorem piece7_apply (l : Fin 1024) (d : Fin 64) :
    piece7 x0 x1 x2 x3 x4 (ix3 (0 : Fin 1) l d) = headAt x0 x1 x2 x3 x4 (7 : Fin 16) l d :=
  (congrFun (piece7_eq_chain x0 x1 x2 x3 x4) (ix3 (0 : Fin 1) l d)).trans
    (chain_apply x0 x1 x2 x3 x4 slice7 (7 : Fin 16) slice7_apply l d)

/-- The piece stored at columns 512 … 575 is head 8. -/
theorem piece8_apply (l : Fin 1024) (d : Fin 64) :
    piece8 x0 x1 x2 x3 x4 (ix3 (0 : Fin 1) l d) = headAt x0 x1 x2 x3 x4 (8 : Fin 16) l d :=
  (congrFun (piece8_eq_chain x0 x1 x2 x3 x4) (ix3 (0 : Fin 1) l d)).trans
    (chain_apply x0 x1 x2 x3 x4 slice8 (8 : Fin 16) slice8_apply l d)

/-- The piece stored at columns 576 … 639 is head 9. -/
theorem piece9_apply (l : Fin 1024) (d : Fin 64) :
    piece9 x0 x1 x2 x3 x4 (ix3 (0 : Fin 1) l d) = headAt x0 x1 x2 x3 x4 (9 : Fin 16) l d :=
  (congrFun (piece9_eq_chain x0 x1 x2 x3 x4) (ix3 (0 : Fin 1) l d)).trans
    (chain_apply x0 x1 x2 x3 x4 slice9 (9 : Fin 16) slice9_apply l d)

/-- The piece stored at columns 640 … 703 is head 10. -/
theorem piece10_apply (l : Fin 1024) (d : Fin 64) :
    piece10 x0 x1 x2 x3 x4 (ix3 (0 : Fin 1) l d) = headAt x0 x1 x2 x3 x4 (10 : Fin 16) l d :=
  (congrFun (piece10_eq_chain x0 x1 x2 x3 x4) (ix3 (0 : Fin 1) l d)).trans
    (chain_apply x0 x1 x2 x3 x4 slice10 (10 : Fin 16) slice10_apply l d)

/-- The piece stored at columns 704 … 767 is head 11. -/
theorem piece11_apply (l : Fin 1024) (d : Fin 64) :
    piece11 x0 x1 x2 x3 x4 (ix3 (0 : Fin 1) l d) = headAt x0 x1 x2 x3 x4 (11 : Fin 16) l d :=
  (congrFun (piece11_eq_chain x0 x1 x2 x3 x4) (ix3 (0 : Fin 1) l d)).trans
    (chain_apply x0 x1 x2 x3 x4 slice11 (11 : Fin 16) slice11_apply l d)

/-- The piece stored at columns 768 … 831 is head 12. -/
theorem piece12_apply (l : Fin 1024) (d : Fin 64) :
    piece12 x0 x1 x2 x3 x4 (ix3 (0 : Fin 1) l d) = headAt x0 x1 x2 x3 x4 (12 : Fin 16) l d :=
  (congrFun (piece12_eq_chain x0 x1 x2 x3 x4) (ix3 (0 : Fin 1) l d)).trans
    (chain_apply x0 x1 x2 x3 x4 slice12 (12 : Fin 16) slice12_apply l d)

/-- The piece stored at columns 832 … 895 is head 13. -/
theorem piece13_apply (l : Fin 1024) (d : Fin 64) :
    piece13 x0 x1 x2 x3 x4 (ix3 (0 : Fin 1) l d) = headAt x0 x1 x2 x3 x4 (13 : Fin 16) l d :=
  (congrFun (piece13_eq_chain x0 x1 x2 x3 x4) (ix3 (0 : Fin 1) l d)).trans
    (chain_apply x0 x1 x2 x3 x4 slice13 (13 : Fin 16) slice13_apply l d)

/-- The piece stored at columns 896 … 959 is head 14. -/
theorem piece14_apply (l : Fin 1024) (d : Fin 64) :
    piece14 x0 x1 x2 x3 x4 (ix3 (0 : Fin 1) l d) = headAt x0 x1 x2 x3 x4 (14 : Fin 16) l d :=
  (congrFun (piece14_eq_chain x0 x1 x2 x3 x4) (ix3 (0 : Fin 1) l d)).trans
    (chain_apply x0 x1 x2 x3 x4 slice14 (14 : Fin 16) slice14_apply l d)

/-- The piece stored at columns 960 … 1023 is head 15. -/
theorem piece15_apply (l : Fin 1024) (d : Fin 64) :
    piece15 x0 x1 x2 x3 x4 (ix3 (0 : Fin 1) l d) = headAt x0 x1 x2 x3 x4 (15 : Fin 16) l d :=
  (congrFun (piece15_eq_chain x0 x1 x2 x3 x4) (ix3 (0 : Fin 1) l d)).trans
    (chain_apply x0 x1 x2 x3 x4 slice15 (15 : Fin 16) slice15_apply l d)

/-! ## The block as one function of its index -/

/-- Entry (·, l, c) of the block: head c / 64 at row l, feature c % 64. -/
def blockFn : S1x1024x1024.Idx → EReal := fun y =>
  headAt x0 x1 x2 x3 x4 ⟨(y 2).val / 64, by have h2 : (y 2).val < 1024 := (y 2).isLt; omega⟩ (y 1)
    ⟨(y 2).val % 64, Nat.mod_lt _ (by decide)⟩

/-- The band of 64 columns from column `o`, embedded in the block: (a, l, d) sits at (0, l, o + d). -/
theorem band_emb (o : ℕ) (inb : ∀ a, (![0, 0, o] : Fin 3 → ℕ) a + S1x1024x64.size a ≤ S1x1024x1024.size a) (ho : o + 64 ≤ 1024)
    (a : Fin 1) (l : Fin 1024) (d : Fin 64) :
    (Rect.unit (s := S1x1024x1024) ![0, 0, o] S1x1024x64.size inb).emb (ix3 a l d)
      = ix3 (0 : Fin 1) l (⟨o + d.val, by omega⟩ : Fin 1024) := by
  funext b
  match b with
  | ⟨0, _⟩ => apply Fin.ext; show 0 + 1 * a.val = 0; omega
  | ⟨1, _⟩ => apply Fin.ext; show 0 + 1 * l.val = l.val; omega
  | ⟨2, _⟩ => apply Fin.ext; show o + 1 * d.val = o + d.val; omega

/-- A piece that reads head `k` everywhere is the block function's band at column 64·k. -/
theorem band_of_apply (p : Vec Ideal S1x1024x64 .f32) (k : Fin 16) (o : ℕ) (ho : o = 64 * k.val)
    (inb : ∀ a, (![0, 0, o] : Fin 3 → ℕ) a + S1x1024x64.size a ≤ S1x1024x1024.size a)
    (hp : ∀ (l : Fin 1024) (d : Fin 64), p (ix3 (0 : Fin 1) l d) = headAt x0 x1 x2 x3 x4 k l d)
    (x : S1x1024x64.Idx) :
    p x = blockFn x0 x1 x2 x3 x4 ((Rect.unit (s := S1x1024x1024) ![0, 0, o] S1x1024x64.size inb).emb x) := by
  obtain ⟨a, l, d, rfl⟩ : ∃ (a : Fin 1) (l : Fin 1024) (d : Fin 64), x = ix3 a l d := ⟨x 0, x 1, x 2, eq_ix3 x⟩
  have hk : k.val < 16 := k.isLt
  have hd : d.val < 64 := d.isLt
  obtain rfl : a = 0 := Subsingleton.elim _ _
  rw [band_emb o inb (by omega) 0 l d, hp l d]
  show headAt x0 x1 x2 x3 x4 k l d
    = headAt x0 x1 x2 x3 x4 ⟨(o + d.val) / 64, _⟩ l ⟨(o + d.val) % 64, _⟩
  refine headAt_congr x0 x1 x2 x3 x4 l ?_ ?_
  · show k.val = (o + d.val) / 64; omega
  · show d.val = (o + d.val) % 64; omega

private theorem zeros3 : (![0, 0, 0] : Fin 3 → ℕ) = fun _ => 0 := by
  funext a; match a with | ⟨0, _⟩ => rfl | ⟨1, _⟩ => rfl | ⟨2, _⟩ => rfl
private theorem zeros5 : (![0, 0, 0, 0, 0] : Fin 5 → ℕ) = fun _ => 0 := by
  funext a; match a with | ⟨0, _⟩ => rfl | ⟨1, _⟩ => rfl | ⟨2, _⟩ => rfl | ⟨3, _⟩ => rfl | ⟨4, _⟩ => rfl

/-- The output block is the block function: the sixteen stored pieces are its sixteen bands, and the bands cover. -/
theorem out1_5_eq (y : S1x1024x1024.Idx) : out1_5 x0 x1 x2 x3 x4 y = blockFn x0 x1 x2 x3 x4 y := by
  unfold out1_5
  simp only [View.ld_unit_zero (S := S1x1024x1x16x64) zeros5, View.ld_unit_zero (S := S1x1024x1) zeros3,
    View.ld_unit_zero (S := S1x1x1024) zeros3]
  refine View.canon_apply_of_pieces (Val := Elt Ideal) (e := EltTy.f32) (blockFn x0 x1 x2 x3 x4) _ ?_ y (cover1_5 _ _ _ _ _ _ _ _ _ _ _ _ _ _ _ _ y)
  intro pc hpc
  rcases List.mem_cons.mp hpc with rfl | hpc
  · exact band_of_apply x0 x1 x2 x3 x4 _ (15 : Fin 16) 960 rfl inb_S1x1024x1024_S1x1024x64_0_0_960 (piece15_apply x0 x1 x2 x3 x4)
  rcases List.mem_cons.mp hpc with rfl | hpc
  · exact band_of_apply x0 x1 x2 x3 x4 _ (14 : Fin 16) 896 rfl inb_S1x1024x1024_S1x1024x64_0_0_896 (piece14_apply x0 x1 x2 x3 x4)
  rcases List.mem_cons.mp hpc with rfl | hpc
  · exact band_of_apply x0 x1 x2 x3 x4 _ (13 : Fin 16) 832 rfl inb_S1x1024x1024_S1x1024x64_0_0_832 (piece13_apply x0 x1 x2 x3 x4)
  rcases List.mem_cons.mp hpc with rfl | hpc
  · exact band_of_apply x0 x1 x2 x3 x4 _ (12 : Fin 16) 768 rfl inb_S1x1024x1024_S1x1024x64_0_0_768 (piece12_apply x0 x1 x2 x3 x4)
  rcases List.mem_cons.mp hpc with rfl | hpc
  · exact band_of_apply x0 x1 x2 x3 x4 _ (11 : Fin 16) 704 rfl inb_S1x1024x1024_S1x1024x64_0_0_704 (piece11_apply x0 x1 x2 x3 x4)
  rcases List.mem_cons.mp hpc with rfl | hpc
  · exact band_of_apply x0 x1 x2 x3 x4 _ (10 : Fin 16) 640 rfl inb_S1x1024x1024_S1x1024x64_0_0_640 (piece10_apply x0 x1 x2 x3 x4)
  rcases List.mem_cons.mp hpc with rfl | hpc
  · exact band_of_apply x0 x1 x2 x3 x4 _ (9 : Fin 16) 576 rfl inb_S1x1024x1024_S1x1024x64_0_0_576 (piece9_apply x0 x1 x2 x3 x4)
  rcases List.mem_cons.mp hpc with rfl | hpc
  · exact band_of_apply x0 x1 x2 x3 x4 _ (8 : Fin 16) 512 rfl inb_S1x1024x1024_S1x1024x64_0_0_512 (piece8_apply x0 x1 x2 x3 x4)
  rcases List.mem_cons.mp hpc with rfl | hpc
  · exact band_of_apply x0 x1 x2 x3 x4 _ (7 : Fin 16) 448 rfl inb_S1x1024x1024_S1x1024x64_0_0_448 (piece7_apply x0 x1 x2 x3 x4)
  rcases List.mem_cons.mp hpc with rfl | hpc
  · exact band_of_apply x0 x1 x2 x3 x4 _ (6 : Fin 16) 384 rfl inb_S1x1024x1024_S1x1024x64_0_0_384 (piece6_apply x0 x1 x2 x3 x4)
  rcases List.mem_cons.mp hpc with rfl | hpc
  · exact band_of_apply x0 x1 x2 x3 x4 _ (5 : Fin 16) 320 rfl inb_S1x1024x1024_S1x1024x64_0_0_320 (piece5_apply x0 x1 x2 x3 x4)
  rcases List.mem_cons.mp hpc with rfl | hpc
  · exact band_of_apply x0 x1 x2 x3 x4 _ (4 : Fin 16) 256 rfl inb_S1x1024x1024_S1x1024x64_0_0_256 (piece4_apply x0 x1 x2 x3 x4)
  rcases List.mem_cons.mp hpc with rfl | hpc
  · exact band_of_apply x0 x1 x2 x3 x4 _ (3 : Fin 16) 192 rfl inb_S1x1024x1024_S1x1024x64_0_0_192 (piece3_apply x0 x1 x2 x3 x4)
  rcases List.mem_cons.mp hpc with rfl | hpc
  · exact band_of_apply x0 x1 x2 x3 x4 _ (2 : Fin 16) 128 rfl inb_S1x1024x1024_S1x1024x64_0_0_128 (piece2_apply x0 x1 x2 x3 x4)
  rcases List.mem_cons.mp hpc with rfl | hpc
  · exact band_of_apply x0 x1 x2 x3 x4 _ (1 : Fin 16) 64 rfl inb_S1x1024x1024_S1x1024x64_0_0_64 (piece1_apply x0 x1 x2 x3 x4)
  rcases List.mem_cons.mp hpc with rfl | hpc
  · exact band_of_apply x0 x1 x2 x3 x4 _ (0 : Fin 16) 0 rfl inb_S1x1024x1024_S1x1024x64_0_0_0 (piece0_apply x0 x1 x2 x3 x4)
  nomatch hpc

end Block

/-- Entry (0, l, h·64 + d) of the output block. -/
theorem out1_5_apply (x0 x1 x2 : Vec Ideal S1x1024x1x16x64 .bf16) (x3 : Vec Ideal S1x1024x1 .f32) (x4 : Vec Ideal S1x1x1024 .f32)
    (l : Fin 1024) (h : Fin 16) (d : Fin 64) :
    out1_5 x0 x1 x2 x3 x4 (ix3 (0 : Fin 1) l (⟨h.val * 64 + d.val, by omega⟩ : Fin 1024))
      = Cert.Spec.head (fun l' d' => x0 (ix5 (0 : Fin 1) l' (0 : Fin 1) h d')) (fun l' d' => x1 (ix5 (0 : Fin 1) l' (0 : Fin 1) h d'))
          (fun l' d' => x2 (ix5 (0 : Fin 1) l' (0 : Fin 1) h d')) (fun l' => x3 (ix3 (0 : Fin 1) l' (0 : Fin 1)))
          (fun j => x4 (ix3 (0 : Fin 1) (0 : Fin 1) j)) l d := by
  have hh : h.val < 16 := h.isLt
  have hd : d.val < 64 := d.isLt
  rw [out1_5_eq]
  show headAt x0 x1 x2 x3 x4 ⟨(h.val * 64 + d.val) / 64, _⟩ l ⟨(h.val * 64 + d.val) % 64, _⟩ = headAt x0 x1 x2 x3 x4 h l d
  refine headAt_congr x0 x1 x2 x3 x4 l ?_ ?_
  · show (h.val * 64 + d.val) / 64 = h.val; omega
  · show (h.val * 64 + d.val) % 64 = d.val; omega

end Cert.KernelIdeal.Val

end
-- ==== Proof.KIVal1.lean ====
/-
  The attention region's result array after the region: grid point b writes back block b (all rows, all columns of batch b),
  the eight blocks tile the array, and block b is the block function of batch b's query / key / value blocks of the
  projection array (thirds 0, 1, 2) and of batch b's row and column masks. So entry (b, l, h·64 + d) of the final array is
  the specification's head h for batch b at row l, feature d, read off the region's entry contents.
-/
import proofs.«405502_j55061480734844_3_alg».proof.Proof.KIBlock

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The attention of every batch and head, entry by entry, from the projection viewed as [8, 1024, 3, 16, 64] and the mask as a
    column and as a row. -/
def attn1 (Q : S8x1024x3x16x64.Idx → EReal) (Mr : S8x1024x1.Idx → EReal) (Mc : S8x1x1024.Idx → EReal) : S8x1024x1024.Idx → EReal := fun i =>
  Cert.Spec.head
    (fun l' d' => Q (ix5 (i 0) l' (0 : Fin 3) (⟨(i 2).val / 64, by have h2 : (i 2).val < 1024 := (i 2).isLt; omega⟩ : Fin 16) d'))
    (fun l' d' => Q (ix5 (i 0) l' (1 : Fin 3) (⟨(i 2).val / 64, by have h2 : (i 2).val < 1024 := (i 2).isLt; omega⟩ : Fin 16) d'))
    (fun l' d' => Q (ix5 (i 0) l' (2 : Fin 3) (⟨(i 2).val / 64, by have h2 : (i 2).val < 1024 := (i 2).isLt; omega⟩ : Fin 16) d'))
    (fun l' => Mr (ix3 (i 0) l' (0 : Fin 1)))
    (fun j => Mc (ix3 (i 0) (0 : Fin 1) j))
    (i 1) (⟨(i 2).val % 64, Nat.mod_lt _ (by decide)⟩ : Fin 64)

/-! ## The block function is the array function's block

Stated over plain blocks and arrays: if the five blocks are batch `b`'s parts of the three arrays (the query, key and value
blocks the thirds 0, 1, 2 of the projection; the mask blocks the batch's column and row), the output block at (0, l, c) is
the array function at (b, l, c): column c is head c / 64, feature c % 64. -/

theorem block_eq_attn (Q : S8x1024x3x16x64.Idx → EReal) (Mr : S8x1024x1.Idx → EReal) (Mc : S8x1x1024.Idx → EReal)
    (x0 x1 x2 : Vec Ideal S1x1024x1x16x64 .bf16) (x3 : Vec Ideal S1x1024x1 .f32) (x4 : Vec Ideal S1x1x1024 .f32) (b : Fin 8)
    (e0 : ∀ (l : Fin 1024) (h : Fin 16) (d : Fin 64), x0 (ix5 (0 : Fin 1) l (0 : Fin 1) h d) = Q (ix5 b l (0 : Fin 3) h d))
    (e1 : ∀ (l : Fin 1024) (h : Fin 16) (d : Fin 64), x1 (ix5 (0 : Fin 1) l (0 : Fin 1) h d) = Q (ix5 b l (1 : Fin 3) h d))
    (e2 : ∀ (l : Fin 1024) (h : Fin 16) (d : Fin 64), x2 (ix5 (0 : Fin 1) l (0 : Fin 1) h d) = Q (ix5 b l (2 : Fin 3) h d))
    (e3 : ∀ l : Fin 1024, x3 (ix3 (0 : Fin 1) l (0 : Fin 1)) = Mr (ix3 b l (0 : Fin 1)))
    (e4 : ∀ j : Fin 1024, x4 (ix3 (0 : Fin 1) (0 : Fin 1) j) = Mc (ix3 b (0 : Fin 1) j))
    (y : S1x1024x1024.Idx) (i : S8x1024x1024.Idx)
    (h0 : (i 0).val = b.val) (h1 : (i 1).val = (y 1).val) (h2 : (i 2).val = (y 2).val) :
    out1_5 x0 x1 x2 x3 x4 y = attn1 Q Mr Mc i := by
  obtain ⟨a, l, cc, rfl⟩ : ∃ (a : Fin 1) (l : Fin 1024) (cc : Fin 1024), y = ix3 a l cc := ⟨y 0, y 1, y 2, eq_ix3 y⟩
  obtain ⟨b', l', cc', rfl⟩ : ∃ (b' : Fin 8) (l' : Fin 1024) (cc' : Fin 1024), i = ix3 b' l' cc' := ⟨i 0, i 1, i 2, eq_ix3 i⟩
  obtain rfl : b' = b := Fin.ext h0
  obtain rfl : l' = l := Fin.ext h1
  obtain rfl : cc' = cc := Fin.ext h2
  obtain rfl : a = 0 := Subsingleton.elim _ _
  have hcc : cc'.val < 1024 := cc'.isLt
  have key := out1_5_apply x0 x1 x2 x3 x4 l' (⟨cc'.val / 64, by omega⟩ : Fin 16) (⟨cc'.val % 64, Nat.mod_lt _ (by decide)⟩ : Fin 64)
  have e : (⟨cc'.val / 64 * 64 + cc'.val % 64, by omega⟩ : Fin 1024) = cc' := Fin.ext (by show cc'.val / 64 * 64 + cc'.val % 64 = cc'.val; omega)
  rw [e] at key
  refine key.trans ?_
  show _ = Cert.Spec.head
    (fun l'' d' => Q (ix5 b' l'' (0 : Fin 3) (⟨cc'.val / 64, by omega⟩ : Fin 16) d'))
    (fun l'' d' => Q (ix5 b' l'' (1 : Fin 3) (⟨cc'.val / 64, by omega⟩ : Fin 16) d'))
    (fun l'' d' => Q (ix5 b' l'' (2 : Fin 3) (⟨cc'.val / 64, by omega⟩ : Fin 16) d'))
    (fun l'' => Mr (ix3 b' l'' (0 : Fin 1)))
    (fun j => Mc (ix3 b' (0 : Fin 1) j))
    l' (⟨cc'.val % 64, Nat.mod_lt _ (by decide)⟩ : Fin 64)
  simp only [e0, e1, e2, e3, e4]

/-! ## The index maps, decided once over the eight grid points -/

/-- Point t's output block is block (t, 0, 0); its query, key and value blocks are blocks (t, 0, s, 0, 0) of the projection
    for s = 0, 1, 2; its mask blocks are blocks (t, 0, 0). -/
theorem idx_facts1 : ∀ t : Fin cfg1.N,
    (win1_5.index t (0 : Fin 3) = t.val ∧ win1_5.index t (1 : Fin 3) = 0 ∧ win1_5.index t (2 : Fin 3) = 0)
    ∧ (win1_0.index t (0 : Fin 5) = t.val ∧ win1_0.index t (1 : Fin 5) = 0 ∧ win1_0.index t (2 : Fin 5) = 0 ∧ win1_0.index t (3 : Fin 5) = 0 ∧ win1_0.index t (4 : Fin 5) = 0)
    ∧ (win1_1.index t (0 : Fin 5) = t.val ∧ win1_1.index t (1 : Fin 5) = 0 ∧ win1_1.index t (2 : Fin 5) = 1 ∧ win1_1.index t (3 : Fin 5) = 0 ∧ win1_1.index t (4 : Fin 5) = 0)
    ∧ (win1_2.index t (0 : Fin 5) = t.val ∧ win1_2.index t (1 : Fin 5) = 0 ∧ win1_2.index t (2 : Fin 5) = 2 ∧ win1_2.index t (3 : Fin 5) = 0 ∧ win1_2.index t (4 : Fin 5) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-! ## Each loaded block, read where its window says -/

/-- The query block at point t: entry (0, l, 0, h, d) is the projection's entry (t, l, 0, h, d). -/
theorem blkQ (c : Dev nD) (t : Fin cfg1.N) (y : S1x1024x1x16x64.Idx) (k : S8x1024x3x16x64.Idx)
    (h0 : (k 0).val = t.val) (h1 : (k 1).val = (y 1).val) (h2 : (k 2).val = 0) (h3 : (k 3).val = (y 3).val) (h4 : (k 4).val = (y 4).val) :
    iblk1 (F := Ideal) V c 0 t y = V c main_v5 k := by
  obtain ⟨-, ⟨f0, f1, f2, f3, f4⟩, -⟩ := idx_facts1 t
  unfold iblk1
  rw [View.read_apply]
  show V c main_v5 (((cfg1.win 0).blk t).view.emb y) = V c main_v5 k
  congr 1
  funext a
  apply Fin.ext
  have y0 : (y 0).val < 1 := (y 0).isLt
  have y2 : (y 2).val < 1 := (y 2).isLt
  match a with
  | ⟨0, _⟩ => show win1_0.index t (0 : Fin 5) * 1 + 1 * (y 0).val = (k 0).val; omega
  | ⟨1, _⟩ => show win1_0.index t (1 : Fin 5) * 1024 + 1 * (y 1).val = (k 1).val; omega
  | ⟨2, _⟩ => show win1_0.index t (2 : Fin 5) * 1 + 1 * (y 2).val = (k 2).val; omega
  | ⟨3, _⟩ => show win1_0.index t (3 : Fin 5) * 16 + 1 * (y 3).val = (k 3).val; omega
  | ⟨4, _⟩ => show win1_0.index t (4 : Fin 5) * 64 + 1 * (y 4).val = (k 4).val; omega

/-- The key block at point t: entry (0, l, 0, h, d) is the projection's entry (t, l, 1, h, d). -/
theorem blkK (c : Dev nD) (t : Fin cfg1.N) (y : S1x1024x1x16x64.Idx) (k : S8x1024x3x16x64.Idx)
    (h0 : (k 0).val = t.val) (h1 : (k 1).val = (y 1).val) (h2 : (k 2).val = 1) (h3 : (k 3).val = (y 3).val) (h4 : (k 4).val = (y 4).val) :
    iblk1 (F := Ideal) V c 1 t y = V c main_v5 k := by
  obtain ⟨-, -, ⟨f0, f1, f2, f3, f4⟩, -⟩ := idx_facts1 t
  unfold iblk1
  rw [View.read_apply]
  show V c main_v5 (((cfg1.win 1).blk t).view.emb y) = V c main_v5 k
  congr 1
  funext a
  apply Fin.ext
  have y0 : (y 0).val < 1 := (y 0).isLt
  have y2 : (y 2).val < 1 := (y 2).isLt
  match a with
  | ⟨0, _⟩ => show win1_1.index t (0 : Fin 5) * 1 + 1 * (y 0).val = (k 0).val; omega
  | ⟨1, _⟩ => show win1_1.index t (1 : Fin 5) * 1024 + 1 * (y 1).val = (k 1).val; omega
  | ⟨2, _⟩ => show win1_1.index t (2 : Fin 5) * 1 + 1 * (y 2).val = (k 2).val; omega
  | ⟨3, _⟩ => show win1_1.index t (3 : Fin 5) * 16 + 1 * (y 3).val = (k 3).val; omega
  | ⟨4, _⟩ => show win1_1.index t (4 : Fin 5) * 64 + 1 * (y 4).val = (k 4).val; omega

/-- The value block at point t: entry (0, l, 0, h, d) is the projection's entry (t, l, 2, h, d). -/
theorem blkV (c : Dev nD) (t : Fin cfg1.N) (y : S1x1024x1x16x64.Idx) (k : S8x1024x3x16x64.Idx)
    (h0 : (k 0).val = t.val) (h1 : (k 1).val = (y 1).val) (h2 : (k 2).val = 2) (h3 : (k 3).val = (y 3).val) (h4 : (k 4).val = (y 4).val) :
    iblk1 (F := Ideal) V c 2 t y = V c main_v5 k := by
  obtain ⟨-, -, -, ⟨f0, f1, f2, f3, f4⟩, -⟩ := idx_facts1 t
  unfold iblk1
  rw [View.read_apply]
  show V c main_v5 (((cfg1.win 2).blk t).view.emb y) = V c main_v5 k
  congr 1
  funext a
  apply Fin.ext
  have y0 : (y 0).val < 1 := (y 0).isLt
  have y2 : (y 2).val < 1 := (y 2).isLt
  match a with
  | ⟨0, _⟩ => show win1_2.index t (0 : Fin 5) * 1 + 1 * (y 0).val = (k 0).val; omega
  | ⟨1, _⟩ => show win1_2.index t (1 : Fin 5) * 1024 + 1 * (y 1).val = (k 1).val; omega
  | ⟨2, _⟩ => show win1_2.index t (2 : Fin 5) * 1 + 1 * (y 2).val = (k 2).val; omega
  | ⟨3, _⟩ => show win1_2.index t (3 : Fin 5) * 16 + 1 * (y 3).val = (k 3).val; omega
  | ⟨4, _⟩ => show win1_2.index t (4 : Fin 5) * 64 + 1 * (y 4).val = (k 4).val; omega

/-- The column-mask block at point t: entry (0, l, 0) is the column mask's entry (t, l, 0). -/
theorem blkMr (c : Dev nD) (t : Fin cfg1.N) (y : S1x1024x1.Idx) (k : S8x1024x1.Idx)
    (h0 : (k 0).val = t.val) (h1 : (k 1).val = (y 1).val) :
    iblk1 (F := Ideal) V c 3 t y = V c main_v7 k := by
  obtain ⟨-, -, -, -, ⟨f0, f1, f2⟩, -⟩ := idx_facts1 t
  unfold iblk1
  rw [View.read_apply]
  show V c main_v7 (((cfg1.win 3).blk t).view.emb y) = V c main_v7 k
  congr 1
  funext a
  apply Fin.ext
  have y0 : (y 0).val < 1 := (y 0).isLt
  have y2 : (y 2).val < 1 := (y 2).isLt
  have k2 : (k 2).val < 1 := (k 2).isLt
  match a with
  | ⟨0, _⟩ => show win1_3.index t (0 : Fin 3) * 1 + 1 * (y 0).val = (k 0).val; omega
  | ⟨1, _⟩ => show win1_3.index t (1 : Fin 3) * 1024 + 1 * (y 1).val = (k 1).val; omega
  | ⟨2, _⟩ => show win1_3.index t (2 : Fin 3) * 1 + 1 * (y 2).val = (k 2).val; omega

/-- The row-mask block at point t: entry (0, 0, j) is the row mask's entry (t, 0, j). -/
theorem blkMc (c : Dev nD) (t : Fin cfg1.N) (y : S1x1x1024.Idx) (k : S8x1x1024.Idx)
    (h0 : (k 0).val = t.val) (h2 : (k 2).val = (y 2).val) :
    iblk1 (F := Ideal) V c 4 t y = V c main_v8 k := by
  obtain ⟨-, -, -, -, -, ⟨f0, f1, f2⟩⟩ := idx_facts1 t
  unfold iblk1
  rw [View.read_apply]
  show V c main_v8 (((cfg1.win 4).blk t).view.emb y) = V c main_v8 k
  congr 1
  funext a
  apply Fin.ext
  have y0 : (y 0).val < 1 := (y 0).isLt
  have y1 : (y 1).val < 1 := (y 1).isLt
  have k1 : (k 1).val < 1 := (k 1).isLt
  match a with
  | ⟨0, _⟩ => show win1_4.index t (0 : Fin 3) * 1 + 1 * (y 0).val = (k 0).val; omega
  | ⟨1, _⟩ => show win1_4.index t (1 : Fin 3) * 1 + 1 * (y 1).val = (k 1).val; omega
  | ⟨2, _⟩ => show win1_4.index t (2 : Fin 3) * 1024 + 1 * (y 2).val = (k 2).val; omega

/-! ## What a point writes back, the cover, the array -/

/-- What point t writes back is block t of the array function of the region's entry contents. -/
theorem flushed1_eq (c : Dev nD) (t : Fin cfg1.N) :
    (dat1 (F := Ideal) V c).flushed 5 t
      = ((cfg1.win 5).blk t).view.read (Elt Ideal) (attn1 (V c main_v5) (V c main_v7) (V c main_v8)) := by
  show (cfg1.win 5).cut (grid1.coords t) ((dat1 (F := Ideal) V c).after 5 t) = _
  rw [after1_5]
  obtain ⟨⟨f0, f1, f2⟩, -⟩ := idx_facts1 t
  have hb : t.val < 8 := Nat.lt_of_lt_of_eq t.isLt N_1
  funext j
  show out1_5 (iblk1 (F := Ideal) V c 0 t) (iblk1 (F := Ideal) V c 1 t) (iblk1 (F := Ideal) V c 2 t) (iblk1 (F := Ideal) V c 3 t) (iblk1 (F := Ideal) V c 4 t) (win1_5.xinj (grid1.coords t) j)
    = attn1 (V c main_v5) (V c main_v7) (V c main_v8) (((cfg1.win 5).blk t).view.emb j)
  have j0 : (j 0).val < 1 := (j 0).isLt
  refine block_eq_attn (V c main_v5) (V c main_v7) (V c main_v8)
    (iblk1 (F := Ideal) V c 0 t) (iblk1 (F := Ideal) V c 1 t) (iblk1 (F := Ideal) V c 2 t) (iblk1 (F := Ideal) V c 3 t) (iblk1 (F := Ideal) V c 4 t)
    (⟨t.val, hb⟩ : Fin 8)
    (fun l h d => blkQ V c t (ix5 (0 : Fin 1) l (0 : Fin 1) h d) (ix5 (⟨t.val, hb⟩ : Fin 8) l (0 : Fin 3) h d) rfl rfl rfl rfl rfl)
    (fun l h d => blkK V c t (ix5 (0 : Fin 1) l (0 : Fin 1) h d) (ix5 (⟨t.val, hb⟩ : Fin 8) l (1 : Fin 3) h d) rfl rfl rfl rfl rfl)
    (fun l h d => blkV V c t (ix5 (0 : Fin 1) l (0 : Fin 1) h d) (ix5 (⟨t.val, hb⟩ : Fin 8) l (2 : Fin 3) h d) rfl rfl rfl rfl rfl)
    (fun l => blkMr V c t (ix3 (0 : Fin 1) l (0 : Fin 1)) (ix3 (⟨t.val, hb⟩ : Fin 8) l (0 : Fin 1)) rfl rfl)
    (fun j' => blkMc V c t (ix3 (0 : Fin 1) (0 : Fin 1) j') (ix3 (⟨t.val, hb⟩ : Fin 8) (0 : Fin 1) j') rfl rfl)
    (win1_5.xinj (grid1.coords t) j) (((cfg1.win 5).blk t).view.emb j) ?_ ?_ ?_
  · show win1_5.index t (0 : Fin 3) * 1 + 1 * (j 0).val = t.val; omega
  · show win1_5.index t (1 : Fin 3) * 1024 + 1 * (j 1).val = (j 1).val; omega
  · show win1_5.index t (2 : Fin 3) * 1024 + 1 * (j 2).val = (j 2).val; omega

/-- An index of the result array is in point t's block iff each coordinate is in the block's range on its axis. -/
theorem mem_blk1_5 (t : Fin cfg1.N) (i : S8x1024x1024.Idx) :
    i ∈ ((cfg1.win 5).blk t).view.set ↔ ∀ a : Fin 3, win1_5.index t a * S1x1024x1024.size a ≤ (i a).val ∧ (i a).val < win1_5.index t a * S1x1024x1024.size a + S1x1024x1024.size a := by
  show i ∈ ((View.whole main_v9).slice (win1_5.rect t)).set ↔ _
  rw [View.set_slice_whole, Rect.mem_set_unit]
  exact Iff.rfl

/-- Batch b's rows are covered by grid point b: the eight blocks tile the array along its first axis. -/
theorem cover1_arr (i : S8x1024x1024.Idx) :
    ∃ t : Fin cfg1.N, (cfg1.win 5).flush t = true ∧ i ∈ ((cfg1.win 5).blk t).view.set := by
  have hi0 : (i 0).val < 8 := (i 0).isLt
  have hi1 : (i 1).val < 1024 := (i 1).isLt
  have hi2 : (i 2).val < 1024 := (i 2).isLt
  have hN : cfg1.N = 8 := N_1
  obtain ⟨t, ht⟩ : ∃ t : Fin cfg1.N, t.val = (i 0).val := ⟨⟨(i 0).val, by rw [hN]; exact hi0⟩, rfl⟩
  obtain ⟨⟨f0, f1, f2⟩, -⟩ := idx_facts1 t
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 1024 ≤ (i 2).val ∧ (i 2).val < win1_5.index t (2 : Fin 3) * 1024 + 1024; omega

/-- The final result array as a whole-array function of the region's entry contents. -/
theorem final1 (c : Dev nD) :
    (dat1 (F := Ideal) V c).arrAt 5 cfg1.N = attn1 (V c main_v5) (V c main_v7) (V c main_v8) :=
  (dat1 (F := Ideal) V c).arrAt_eq_of_cover 5 (attn1 (V c main_v5) (V c main_v7) (V c main_v8))
    (fun t _ => flushed1_eq V c t) cover1_arr

end Cert.KernelIdeal.Val

end
-- ==== Proof.KIVal0.lean ====
/-
  The projection region's result array after the region: grid point (i, j) writes back block (i, j) of the [8192, 3072]
  array, the 8 × 3 blocks tile it, and block (i, j) is the product of rows i·1024 … of the flattened input with columns
  j·1024 … of the transposed weight. So entry (r, f) of the final array is Σ_k A[r, k] · B[k, f] of the region's two input
  arrays.
-/
import proofs.«405502_j55061480734844_3_alg».proof.Proof.KIBody0
import proofs.«405502_j55061480734844_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product of an [8192, 1024] array with a [1024, 3072] array, entry by entry. -/
def prod0 (A : S8192x1024.Idx → EReal) (B : S1024x3072.Idx → EReal) : S8192x3072.Idx → EReal := fun i =>
  ∑ k : Fin 1024, A (ix2 (i 0) k) * B (ix2 k (i 1))

/-! ## The body's product at an index

The contraction joins the left block's second axis with the right block's first: at output entry (p, q) and contraction
position k the left operand is read at (p, k) and the right one at (k, q). -/

theorem lhs_proj_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_proj_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_proj_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_proj_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's stored value at entry (p, q): the two casts and the narrowing are identities on exact values, and the
    product into a zero accumulator is the plain sum over the contracted axis. -/
theorem pay0_apply (x0 x1 : Vec Ideal S1024x1024 .bf16) (p q : Fin 1024) :
    k0_pay1 (F := Ideal) x0 x1 (ix2 p q) = ∑ k : Fin 1024, x0 (ix2 p k) * x1 (ix2 k q) := by
  unfold k0_pay1
  simp only [truncf_apply, shapeCast_self]
  refine (Ideal.matmul_constant_zero_apply (φ₁ := .bf16) (φ₂ := .bf16) dot_S1024x1024_S1024x1024_S1024x1024_1_0_0_1_n_n none x0 x1 (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- One entry of one grid point's block: when row `y 0` of the left block is row `i 0` of `A` and column `y 1` of the
    right block is column `i 1` of `B`, the body's value at `y` is the product's entry `i`. -/
theorem point_eq (A : S8192x1024.Idx → EReal) (B : S1024x3072.Idx → EReal)
    (x0 x1 : Vec Ideal S1024x1024 .bf16) (y : S1024x1024.Idx) (i : S8192x3072.Idx)
    (h0 : ∀ k : Fin 1024, x0 (ix2 (y 0) k) = A (ix2 (i 0) k))
    (h1 : ∀ k : Fin 1024, x1 (ix2 k (y 1)) = B (ix2 k (i 1))) :
    k0_pay1 (F := Ideal) x0 x1 y = prod0 A B i := by
  obtain ⟨p, q, rfl⟩ : ∃ (p : Fin 1024) (q : Fin 1024), y = ix2 p q := ⟨y 0, y 1, eq_ix2 y⟩
  rw [pay0_apply]
  exact Finset.sum_congr rfl fun k _ => congrArg₂ (· * ·) (h0 k) (h1 k)

/-! ## From the blocks to the array -/

theorem hz0 : (![0, 0] : Fin 2 → Nat) = fun _ => 0 := funext fun a => by fin_cases a <;> rfl

/-- The block indices at grid point `t` = 3·i + j: the left input's block is (i, 0), the right input's (0, j), the
    output's (i, j). -/
theorem idx_facts0 : ∀ t : Fin cfg0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = t.val / 3 ∧ win0_2.index t (1 : Fin 2) = t.val % 3 :=
  (by decide +kernel : ∀ t : Fin grid0.N, _)

/-- What point `t` writes back is block `t` of the product of the two input arrays. -/
theorem flushed0_eq (c : Dev nD) (t : Fin cfg0.N) :
    (dat0 (F := Ideal) V c).flushed 2 t
      = ((cfg0.win 2).blk t).view.read (Elt Ideal) (prod0 (V c main_v2) (V c main_v3)) := by
  show (cfg0.win 2).cut (grid0.coords t) ((dat0 (F := Ideal) V c).after 2 t) = _
  rw [after0_2]
  unfold out0_2
  rw [View.canon_unit_zero hz0]
  simp only [View.ld_unit_zero (S := S1024x1024) hz0]
  obtain ⟨e00, e01, e10, e11, e20, e21⟩ := idx_facts0 t
  funext j
  show k0_pay1 (F := Ideal) (iblk0 V c 0 t) (iblk0 V c 1 t) j
    = prod0 (V c main_v2) (V c main_v3) (((cfg0.win 2).blk t).view.emb j)
  refine point_eq (V c main_v2) (V c main_v3) (iblk0 V c 0 t) (iblk0 V c 1 t) j (((cfg0.win 2).blk t).view.emb j) ?_ ?_
  · intro k
    show V c main_v2 (((cfg0.win 0).blk t).view.emb (ix2 (j 0) k))
      = V c main_v2 (ix2 ((((cfg0.win 2).blk t).view.emb j) 0) k)
    refine congrArg _ ?_
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · intro k
    show V c main_v3 (((cfg0.win 1).blk t).view.emb (ix2 k (j 1)))
      = V c main_v3 (ix2 k ((((cfg0.win 2).blk t).view.emb j) 1))
    refine congrArg _ ?_
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega

/-- An entry of the array is in point `t`'s output block iff each coordinate is in the block's range on its axis. -/
theorem mem_blk0 (t : Fin cfg0.N) (i : S8192x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- The 8 × 3 output blocks tile the array: entry (r, f) lies in the block of point 3·(r / 1024) + f / 1024. -/
theorem cover0 (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  have hN : (i 0).val / 1024 * 3 + (i 1).val / 1024 < grid0.N := by rw [N_0]; omega
  obtain ⟨t, ht⟩ : ∃ t : Fin cfg0.N, t.val = (i 0).val / 1024 * 3 + (i 1).val / 1024 := ⟨⟨_, hN⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The final projection array as a whole-array function of the region's entry contents. -/
theorem final0 (c : Dev nD) :
    (dat0 (F := Ideal) V c).arrAt 2 cfg0.N = prod0 (V c main_v2) (V c main_v3) :=
  (dat0 (F := Ideal) V c).arrAt_eq_of_cover 2 (prod0 (V c main_v2) (V c main_v3))
    (fun t _ => flushed0_eq V c t) cover0

end Cert.KernelIdeal.Val

end
-- ==== Proof.KIHost.lean ====
/-
  What the host stretches of the kernel's program put in the buffers the two regions read, as functions of the launch
  contents x, mask, W: the flattened input and the transposed weight (narrowing to bf16 is the identity on the extended
  reals), hence the projection array entry by entry; its view as [8, 1024, 3, 16, 64]; and the mask as floats, laid as a
  column and as a row.
-/
import proofs.«405502_j55061480734844_3_alg».proof.Proof.KIRun
import proofs.«405502_j55061480734844_3_alg».proof.Proof.KIVal0

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The launch contents of the three arguments. -/
abbrev argX (c : Dev nD) : S8x1024x1024.Idx → EReal := m ((c : Thread nD τ).loc main_arg0)
abbrev argM (c : Dev nD) : S8x1024.Idx → BitVec 32 := m ((c : Thread nD τ).loc main_arg1)
abbrev argW (c : Dev nD) : S3072x1024.Idx → EReal := m ((c : Thread nD τ).loc main_arg2)

/-- The flattened input: row b·1024 + l is x[b, l, ·]. -/
def flatX (x : S8x1024x1024.Idx → EReal) : S8192x1024.Idx → EReal := fun i =>
  x (ix3 (⟨(i 0).val / 1024, by have h0 : (i 0).val < 8192 := (i 0).isLt; omega⟩ : Fin 8) (⟨(i 0).val % 1024, Nat.mod_lt _ (by decide)⟩ : Fin 1024) (i 1))
/-- The transposed weight. -/
def transW (W : S3072x1024.Idx → EReal) : S1024x3072.Idx → EReal := fun i => W (ix2 (i 1) (i 0))
/-- The projection as a flat [8192, 3072] array: entry (b·1024 + l, f) is the specification's qkv b l f. -/
def qkvFlat (x : S8x1024x1024.Idx → EReal) (W : S3072x1024.Idx → EReal) : S8192x3072.Idx → EReal := fun i =>
  Cert.Spec.qkv x W (⟨(i 0).val / 1024, by have h0 : (i 0).val < 8192 := (i 0).isLt; omega⟩ : Fin 8) (⟨(i 0).val % 1024, Nat.mod_lt _ (by decide)⟩ : Fin 1024) (i 1)
/-- Its view as [8, 1024, 3, 16, 64]: entry (b, l, s, h, d) is qkv b l (s·1024 + h·64 + d). -/
def qkv5 (x : S8x1024x1024.Idx → EReal) (W : S3072x1024.Idx → EReal) : S8x1024x3x16x64.Idx → EReal := fun i =>
  Cert.Spec.qkv x W (i 0) (i 1) (Cert.Spec.col (i 2) (i 3) (i 4))
/-- The mask as floats, laid as a column [8, 1024, 1] and as a row [8, 1, 1024]. -/
def maskCol (mask : S8x1024.Idx → BitVec 32) : S8x1024x1.Idx → EReal := fun i => Cert.Spec.mf mask (i 0) (i 1)
def maskRow (mask : S8x1024.Idx → BitVec 32) : S8x1x1024.Idx → EReal := fun i => Cert.Spec.mf mask (i 0) (i 2)

/-- The flattened input: the reshape reads row b·1024 + l of the flat array at (b, l); narrowing is the identity. -/
theorem V1_v2 (c : Dev nD) : V1 m c main_v2 = flatX (argX m c) := by
  show StableHlo.after hostOps0 (fun b => m (c, b)) (Proc.devRef .tc main_v2) = _
  after_results
  funext i
  have h0 : (i 0).val < 8192 := (i 0).isLt
  have h1 : (i 1).val < 1024 := (i 1).isLt
  unfold flatX
  show shapeCast S8192x1024 (m (c, Proc.devRef .tc main_arg0)) shapeCasts_S8x1024x1024_S8192x1024 i = _
  refine shapeCast_apply (s := S8x1024x1024) (t := S8192x1024) _ _ i _ ?_
  rw [Shape.rowMajor_val_three, Shape.rowMajor_val_two]
  show ((i 0).val / 1024 * 1024 + (i 0).val % 1024) * 1024 + (i 1).val = (i 0).val * 1024 + (i 1).val
  omega
/-- The transposed weight; narrowing is the identity. -/
theorem V1_v3 (c : Dev nD) : V1 m c main_v3 = transW (argW m c) := by
  show StableHlo.after hostOps0 (fun b => m (c, b)) (Proc.devRef .tc main_v3) = _
  after_results
  funext i
  unfold transW
  show transpose S1024x3072 [1, 0] (m (c, Proc.devRef .tc main_arg2)) transposes_S3072x1024_S1024x3072_1_0 i = _
  exact transpose_apply (s := S3072x1024) (t := S1024x3072) _ _ _ i (ix2 (i 1) (i 0))
    (fun b => match b with | ⟨0, _⟩ => rfl | ⟨1, _⟩ => rfl)
/-- The projection array after region 0: the product of the flattened input with the transposed weight is, entry by
    entry, the specification's sum over the 1024 input columns. -/
theorem V2_v4 (c : Dev nD) : V2 m c main_v4 = qkvFlat (argX m c) (argW m c) := by
  show W2 m c (Proc.devRef .tc (Pipeline.arrRef spec0 2)) = _
  rw [W2_arr m c 2, final0 (V1 m) c, V1_v2 m c, V1_v3 m c]
  funext i
  unfold prod0 qkvFlat Cert.Spec.qkv
  exact Finset.sum_congr rfl (fun k _ => rfl)
/-- The projection viewed as [8, 1024, 3, 16, 64]: entry (b, l, s, h, d) sits at row-major position
    (b·1024 + l)·3072 + s·1024 + h·64 + d of the flat array, that is at row b·1024 + l, column s·1024 + h·64 + d. -/
theorem V3_v5 (c : Dev nD) : V3 m c main_v5 = qkv5 (argX m c) (argW m c) := by
  show StableHlo.after hostOps1 (W2 m c) (Proc.devRef .tc main_v5) = _
  after_results
  rw [show W2 m c (Proc.devRef .tc main_v4) = qkvFlat (argX m c) (argW m c) from V2_v4 m c]
  funext i
  have h0 : (i 0).val < 8 := (i 0).isLt
  have h1 : (i 1).val < 1024 := (i 1).isLt
  have h2 : (i 2).val < 3 := (i 2).isLt
  have h3 : (i 3).val < 16 := (i 3).isLt
  have h4 : (i 4).val < 64 := (i 4).isLt
  show shapeCast S8x1024x3x16x64 (qkvFlat (argX m c) (argW m c)) shapeCasts_S8192x3072_S8x1024x3x16x64 i = _
  refine (shapeCast_apply (s := S8192x3072) (t := S8x1024x3x16x64) _ _ i
    (ix2 (⟨(i 0).val * 1024 + (i 1).val, by omega⟩ : Fin 8192) (⟨(i 2).val * 1024 + (i 3).val * 64 + (i 4).val, by omega⟩ : Fin 3072)) ?_).trans ?_
  · rw [Shape.rowMajor_val_two, Shape.rowMajor_val_five]
    show ((i 0).val * 1024 + (i 1).val) * 3072 + ((i 2).val * 1024 + (i 3).val * 64 + (i 4).val)
      = ((((i 0).val * 1024 + (i 1).val) * 3 + (i 2).val) * 16 + (i 3).val) * 64 + (i 4).val
    omega
  · unfold qkvFlat qkv5
    have e0 : (⟨((i 0).val * 1024 + (i 1).val) / 1024, by omega⟩ : Fin 8) = i 0 := Fin.ext (by show ((i 0).val * 1024 + (i 1).val) / 1024 = (i 0).val; omega)
    have e1 : (⟨((i 0).val * 1024 + (i 1).val) % 1024, Nat.mod_lt _ (by decide)⟩ : Fin 1024) = i 1 := Fin.ext (by show ((i 0).val * 1024 + (i 1).val) % 1024 = (i 1).val; omega)
    show Cert.Spec.qkv _ _ (⟨((i 0).val * 1024 + (i 1).val) / 1024, _⟩ : Fin 8) (⟨((i 0).val * 1024 + (i 1).val) % 1024, _⟩ : Fin 1024)
        (⟨(i 2).val * 1024 + (i 3).val * 64 + (i 4).val, _⟩ : Fin 3072) = _
    rw [e0, e1]
    rfl
/-- The mask as floats, broadcast along a trailing unit axis: entry (b, l, 0) is the float of mask[b, l]. -/
theorem V3_v7 (c : Dev nD) : V3 m c main_v7 = maskCol (argM m c) := by
  show StableHlo.after hostOps1 (W2 m c) (Proc.devRef .tc main_v7) = _
  after_results
  have hM : W2 m c (Proc.devRef .tc main_arg1) = argM m c := by
    rw [W2_of_ne m c main_arg1 (by decide)]
    show StableHlo.after hostOps0 (fun b => m (c, b)) (Proc.devRef .tc main_arg1) = _
    after_results
  rw [hM]
  funext i
  unfold maskCol Cert.Spec.mf
  exact broadcastInDim_apply (s := S8x1024) (t := S8x1024x1) ![0, 1] bcast_S8x1024_S8x1024x1_0_1 _ i (ix2 (i 0) (i 1))
    (fun a => match a with | ⟨0, _⟩ => rfl | ⟨1, _⟩ => rfl)
/-- … and along a middle unit axis: entry (b, 0, j) is the float of mask[b, j]. -/
theorem V3_v8 (c : Dev nD) : V3 m c main_v8 = maskRow (argM m c) := by
  show StableHlo.after hostOps1 (W2 m c) (Proc.devRef .tc main_v8) = _
  after_results
  have hM : W2 m c (Proc.devRef .tc main_arg1) = argM m c := by
    rw [W2_of_ne m c main_arg1 (by decide)]
    show StableHlo.after hostOps0 (fun b => m (c, b)) (Proc.devRef .tc main_arg1) = _
    after_results
  rw [hM]
  funext i
  unfold maskRow Cert.Spec.mf
  exact broadcastInDim_apply (s := S8x1024) (t := S8x1x1024) ![0, 2] bcast_S8x1024_S8x1x1024_0_2 _ i (ix2 (i 0) (i 2))
    (fun a => match a with | ⟨0, _⟩ => rfl | ⟨1, _⟩ => rfl)

end Cert.KernelIdeal.Val

end
-- ==== Proof.KIBridge.lean ====
/-
  The kernel's result is the specification: the attention region's final array is the attention (attn1) of the projection
  viewed as [8, 1024, 3, 16, 64] and of the mask column and row; the host stretches and the projection region make those
  the specification's qkv and float mask of the launch contents; and the attention of those, entry by entry, is Spec.G.
-/
import proofs.«405502_j55061480734844_3_alg».proof.Proof.KIVal1
import proofs.«405502_j55061480734844_3_alg».proof.Proof.KIHost

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The attention of the specification's projection and float mask is the specification's result. -/
theorem attn1_spec (x : S8x1024x1024.Idx → EReal) (mask : S8x1024.Idx → BitVec 32) (W : S3072x1024.Idx → EReal) :
    attn1 (qkv5 x W) (maskCol mask) (maskRow mask) = Cert.Spec.G x mask W := by
  funext i
  rfl

/-- The result array after the kernel's run, as the specification's function of the launch contents. -/
theorem kernel_result (c : Dev nD) :
    (dat1 (F := Ideal) (V3 m) c).arrAt 5 cfg1.N = Cert.Spec.G (argX m c) (argM m c) (argW m c) := by
  rw [final1 (V3 m) c, V3_v5 m c, V3_v7 m c, V3_v8 m c]
  exact attn1_spec _ _ _

end Cert.KernelIdeal.Val

end
-- ==== Proof.RefG.lean ====
/-
  The reference's result is the specification: read one operation at a time, entry (b, l, h·64 + d) of its result is the
  specification's head h for batch b at row l, feature d — its projection is the same sum over the 1024 input features, its
  reshape–transpose–slice picks the same 64 columns per third and head, its masked scores, row maximum, exponential,
  row sum plus ε, quotient and final product are the specification's, operation for operation.
-/
import proofs.«405502_j55061480734844_3_alg».proof.Proof.RefRead
import proofs.«405502_j55061480734844_3_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.ReferenceIdeal.RefG

open Cert.ReferenceIdeal Cert.ReferenceIdeal.Gen Cert.ReferenceIdeal.ReadP
open Idealize.ShloMosaic Idealize.ShloMosaic.ValueIdx

section Stages

variable (x0 : (⟨S8x1024x1024, .f32⟩ : BufTy).Contents (Elt Ideal)) (x1 : (⟨S8x1024, .i32⟩ : BufTy).Contents (Elt Ideal))
  (x2 : (⟨S3072x1024, .f32⟩ : BufTy).Contents (Elt Ideal))

/-! ## The projection and its three thirds -/

/-- The projection's entry (b, l, f) is the specification's sum over the 1024 input features. -/
theorem qkv_stage (b : Fin 8) (l : Fin 1024) (f : Fin 3072) :
    val_main_v0 (F := Ideal) x0 x2 (ix3 b l f) = Cert.Spec.qkv x0 x2 b l f := by
  rw [val_main_v0_apply]
  unfold Cert.Spec.qkv
  refine Finset.sum_congr rfl fun k _ => ?_
  have e1 : lidx_main_v0 (ix3 b l f) k = ix3 b l k :=
    funext fun a => Fin.ext (by match a with | ⟨0, _⟩ => rfl | ⟨1, _⟩ => rfl | ⟨2, _⟩ => rfl)
  have e2 : ridx_main_v0 (ix3 b l f) k = ix2 f k :=
    funext fun a => Fin.ext (by match a with | ⟨0, _⟩ => rfl | ⟨1, _⟩ => rfl)
  rw [e1, e2]

/-- Splitting the 3072 columns as [3, 16, 64]: entry (b, l, s, h, d) is column s·1024 + h·64 + d. -/
theorem split_idx (b : Fin 8) (l : Fin 1024) (s : Fin 3) (h : Fin 16) (d : Fin 64) :
    idx_main_v1 (ix5 b l s h d) = ix3 b l (Cert.Spec.col s h d) := by
  have hb := b.isLt; have hl := l.isLt; have hs := s.isLt; have hh := h.isLt; have hd := d.isLt
  refine funext fun a => Fin.ext ?_
  match a with
  | ⟨0, _⟩ =>
    show ((((b.val * 1024 + l.val) * 3 + s.val) * 16 + h.val) * 64 + d.val) / 3145728 = b.val
    omega
  | ⟨1, _⟩ =>
    show ((((b.val * 1024 + l.val) * 3 + s.val) * 16 + h.val) * 64 + d.val) / 3072 % 1024 = l.val
    omega
  | ⟨2, _⟩ =>
    show ((((b.val * 1024 + l.val) * 3 + s.val) * 16 + h.val) * 64 + d.val) % 3072 = s.val * 1024 + h.val * 64 + d.val
    omega

/-- The transposition (2, 0, 3, 1, 4) read backwards. -/
theorem perm_idx (s : Fin 3) (b : Fin 8) (h : Fin 16) (l : Fin 1024) (d : Fin 64) :
    idx_main_v2 (ix5 s b h l d) = ix5 b l s h d :=
  funext fun a => Fin.ext (by
    match a with | ⟨0, _⟩ => rfl | ⟨1, _⟩ => rfl | ⟨2, _⟩ => rfl | ⟨3, _⟩ => rfl | ⟨4, _⟩ => rfl)

/-- Dropping the leading unit axis: (b, h, l, d) of the rank-4 array is (0, b, h, l, d) of the rank-5 slice. -/
theorem unit_idx (b : Fin 8) (h : Fin 16) (l : Fin 1024) (d : Fin 64) :
    idx_main_v4 (ix4 b h l d) = ix5 (0 : Fin 1) b h l d := by
  have hb := b.isLt; have hl := l.isLt; have hh := h.isLt; have hd := d.isLt
  refine funext fun a => Fin.ext ?_
  match a with
  | ⟨0, _⟩ => rfl
  | ⟨1, _⟩ =>
    show (((b.val * 16 + h.val) * 1024 + l.val) * 64 + d.val) / 1048576 % 8 = b.val
    omega
  | ⟨2, _⟩ =>
    show (((b.val * 16 + h.val) * 1024 + l.val) * 64 + d.val) / 65536 % 16 = h.val
    omega
  | ⟨3, _⟩ =>
    show (((b.val * 16 + h.val) * 1024 + l.val) * 64 + d.val) / 64 % 1024 = l.val
    omega
  | ⟨4, _⟩ =>
    show (((b.val * 16 + h.val) * 1024 + l.val) * 64 + d.val) % 64 = d.val
    omega

/-- The three slices along the leading axis of size 3. -/
theorem slice0_idx (b : Fin 8) (h : Fin 16) (l : Fin 1024) (d : Fin 64) :
    idx_main_v3 (ix5 (0 : Fin 1) b h l d) = ix5 (0 : Fin 3) b h l d :=
  funext fun a => Fin.ext (by
    match a with | ⟨0, _⟩ => rfl | ⟨1, _⟩ => rfl | ⟨2, _⟩ => rfl | ⟨3, _⟩ => rfl | ⟨4, _⟩ => rfl)
theorem slice1_idx (b : Fin 8) (h : Fin 16) (l : Fin 1024) (d : Fin 64) :
    idx_main_v5 (ix5 (0 : Fin 1) b h l d) = ix5 (1 : Fin 3) b h l d :=
  funext fun a => Fin.ext (by
    match a with | ⟨0, _⟩ => rfl | ⟨1, _⟩ => rfl | ⟨2, _⟩ => rfl | ⟨3, _⟩ => rfl | ⟨4, _⟩ => rfl)
theorem slice2_idx (b : Fin 8) (h : Fin 16) (l : Fin 1024) (d : Fin 64) :
    idx_main_v7 (ix5 (0 : Fin 1) b h l d) = ix5 (2 : Fin 3) b h l d :=
  funext fun a => Fin.ext (by
    match a with | ⟨0, _⟩ => rfl | ⟨1, _⟩ => rfl | ⟨2, _⟩ => rfl | ⟨3, _⟩ => rfl | ⟨4, _⟩ => rfl)

/-- The queries: entry (b, h, l, d) is the projection's column h·64 + d of the first third. -/
theorem q_stage (b : Fin 8) (h : Fin 16) (l : Fin 1024) (d : Fin 64) :
    val_main_v4 (F := Ideal) x0 x2 (ix4 b h l d) = Cert.Spec.qkv x0 x2 b l (Cert.Spec.col 0 h d) := by
  rw [val_main_v4_apply, unit_idx, val_main_v3_apply, slice0_idx, val_main_v2_apply, perm_idx, val_main_v1_apply,
    split_idx, qkv_stage]

/-- The keys: the second third. -/
theorem k_stage (b : Fin 8) (h : Fin 16) (l : Fin 1024) (d : Fin 64) :
    val_main_v6 (F := Ideal) x0 x2 (ix4 b h l d) = Cert.Spec.qkv x0 x2 b l (Cert.Spec.col 1 h d) := by
  rw [val_main_v6_apply, show idx_main_v6 (ix4 b h l d) = idx_main_v4 (ix4 b h l d) from rfl, unit_idx,
    val_main_v5_apply, slice1_idx, val_main_v2_apply, perm_idx, val_main_v1_apply, split_idx, qkv_stage]

/-- The values: the last third. -/
theorem v_stage (b : Fin 8) (h : Fin 16) (l : Fin 1024) (d : Fin 64) :
    val_main_v8 (F := Ideal) x0 x2 (ix4 b h l d) = Cert.Spec.qkv x0 x2 b l (Cert.Spec.col 2 h d) := by
  rw [val_main_v8_apply, show idx_main_v8 (ix4 b h l d) = idx_main_v4 (ix4 b h l d) from rfl, unit_idx,
    val_main_v7_apply, slice2_idx, val_main_v2_apply, perm_idx, val_main_v1_apply, split_idx, qkv_stage]

/-! ## The chain of one head, stage by stage -/

/-- The queries, keys and values of batch `b`, head `h`, as the specification's chain takes them. -/
abbrev Qf (b : Fin 8) (h : Fin 16) : Fin 1024 → Fin 64 → EReal := fun l d => Cert.Spec.qkv x0 x2 b l (Cert.Spec.col 0 h d)
abbrev Kf (b : Fin 8) (h : Fin 16) : Fin 1024 → Fin 64 → EReal := fun l d => Cert.Spec.qkv x0 x2 b l (Cert.Spec.col 1 h d)
abbrev Vf (b : Fin 8) (h : Fin 16) : Fin 1024 → Fin 64 → EReal := fun l d => Cert.Spec.qkv x0 x2 b l (Cert.Spec.col 2 h d)

/-- The mask bit at (b, h, l, j): the product of the float mask's entries l and j of batch b, compared with zero; the
    same bit for every head. -/
theorem neg_stage (b : Fin 8) (h : Fin 16) (l j : Fin 1024) :
    val_main_call0_v1 (F := Ideal) x1 (ix4 b h l j)
      = Ideal.cmp .oeq (Cert.Spec.mf x1 b l * Cert.Spec.mf x1 b j) (Ideal.ofBits .f32 0x00000000#32) := by
  have e0 : idx_main_call0_v1 (ix4 b h l j) = ix4 b (0 : Fin 1) l j :=
    funext fun a => Fin.ext (by match a with | ⟨0, _⟩ => rfl | ⟨1, _⟩ => rfl | ⟨2, _⟩ => rfl | ⟨3, _⟩ => rfl)
  have er : idx_main_v10 (idx_main_v12 (ix4 b (0 : Fin 1) l j)) = ix2 b l :=
    funext fun a => Fin.ext (by match a with | ⟨0, _⟩ => rfl | ⟨1, _⟩ => rfl)
  have ec : idx_main_v11 (idx_main_v13 (ix4 b (0 : Fin 1) l j)) = ix2 b j :=
    funext fun a => Fin.ext (by match a with | ⟨0, _⟩ => rfl | ⟨1, _⟩ => rfl)
  rw [val_main_call0_v1_apply, e0, val_main_v19_apply, val_main_v14_apply, val_main_v12_apply, val_main_v10_apply, er,
    val_main_v13_apply, val_main_v11_apply, ec, val_main_v18_apply, val_main_cst_0_apply]
  rfl

/-- The masked, scaled score. -/
theorem score_stage (b : Fin 8) (h : Fin 16) (l j : Fin 1024) :
    val_main_v20 (F := Ideal) x0 x1 x2 (ix4 b h l j)
      = Cert.Spec.score (Qf x0 x2 b h) (Kf x0 x2 b h) (Cert.Spec.mf x1 b) (Cert.Spec.mf x1 b) l j := by
  have hsum : (∑ k : Fin 64, val_main_v4 (F := Ideal) x0 x2 (lidx_main_v15 (ix4 b h l j) k)
        * val_main_v6 (F := Ideal) x0 x2 (ridx_main_v15 (ix4 b h l j) k))
      = ∑ d : Fin 64, Qf x0 x2 b h l d * Kf x0 x2 b h j d := by
    refine Finset.sum_congr rfl fun k _ => ?_
    have el : lidx_main_v15 (ix4 b h l j) k = ix4 b h l k :=
      funext fun a => Fin.ext (by match a with | ⟨0, _⟩ => rfl | ⟨1, _⟩ => rfl | ⟨2, _⟩ => rfl | ⟨3, _⟩ => rfl)
    have er : ridx_main_v15 (ix4 b h l j) k = ix4 b h j k :=
      funext fun a => Fin.ext (by match a with | ⟨0, _⟩ => rfl | ⟨1, _⟩ => rfl | ⟨2, _⟩ => rfl | ⟨3, _⟩ => rfl)
    rw [el, er, q_stage, k_stage]
  rw [val_main_v20_apply, neg_stage, val_main_call0_v2_apply, val_main_call0_v0_apply, val_main_cst_1_apply,
    val_main_v17_apply, val_main_v15_apply, hsum, val_main_v16_apply, val_main_cst_apply]
  rfl

/-- The row's largest score: the fold of the maximum from −∞ over the keys. -/
theorem max_stage (b : Fin 8) (h : Fin 16) (l : Fin 1024) :
    val_main_v21 (F := Ideal) x0 x1 x2 (ix3 b h l)
      = Cert.Spec.rowMax (Qf x0 x2 b h) (Kf x0 x2 b h) (Cert.Spec.mf x1 b) (Cert.Spec.mf x1 b) l := by
  have hs : ∀ j : Fin 1024, val_main_v20 (F := Ideal) x0 x1 x2 (ix4 b h l j)
      = Cert.Spec.score (Qf x0 x2 b h) (Kf x0 x2 b h) (Cert.Spec.mf x1 b) (Cert.Spec.mf x1 b) l j :=
    fun j => score_stage x0 x1 x2 b h l j
  unfold val_main_v21
  generalize val_main_v20 (F := Ideal) x0 x1 x2 = y at hs ⊢
  have hR : S8x16x1024x1024.Reduces [3] S8x16x1024 := by decide
  refine (Host.reduce_eq_fold_single (FloatOps.maximumf (F := Ideal) (φ := .f32)) y _ _ hR h_S_ (ix3 b h l)).trans ?_
  unfold Cert.Spec.rowMax
  show (Finset.univ : Finset (Fin 1024)).fold max (Ideal.ofBits .f32 0xFF800000#32) (y ∘ hR.lift (ix3 b h l)) = _
  refine Finset.fold_congr fun j _ => ?_
  show y (hR.lift (ix3 b h l) j) = _
  rw [show hR.lift (ix3 b h l) j = ix4 b h l j from
    funext fun a => Fin.ext (by match a with | ⟨0, _⟩ => rfl | ⟨1, _⟩ => rfl | ⟨2, _⟩ => rfl | ⟨3, _⟩ => rfl)]
  exact hs j

/-- The exponential of the score less the row's largest. -/
theorem ex_stage (b : Fin 8) (h : Fin 16) (l j : Fin 1024) :
    val_main_v25 (F := Ideal) x0 x1 x2 (ix4 b h l j)
      = Cert.Spec.ex (Qf x0 x2 b h) (Kf x0 x2 b h) (Cert.Spec.mf x1 b) (Cert.Spec.mf x1 b) l j := by
  have e : idx_main_v22 (idx_main_v23 (ix4 b h l j)) = ix3 b h l :=
    funext fun a => Fin.ext (by match a with | ⟨0, _⟩ => rfl | ⟨1, _⟩ => rfl | ⟨2, _⟩ => rfl)
  rw [val_main_v25_apply, val_main_v24_apply, score_stage, val_main_v23_apply, val_main_v22_apply, e, max_stage]
  rfl

/-- The row's partition sum plus ε (the sum's initial value is the zero word). -/
theorem den_stage (b : Fin 8) (h : Fin 16) (l : Fin 1024) :
    val_main_v29 (F := Ideal) x0 x1 x2 (ix4 b h l (0 : Fin 1))
      = Cert.Spec.den (Qf x0 x2 b h) (Kf x0 x2 b h) (Cert.Spec.mf x1 b) (Cert.Spec.mf x1 b) l := by
  have e : idx_main_v27 (ix4 b h l (0 : Fin 1)) = ix3 b h l :=
    funext fun a => Fin.ext (by match a with | ⟨0, _⟩ => rfl | ⟨1, _⟩ => rfl | ⟨2, _⟩ => rfl)
  have hsum : (∑ k : Fin 1024, val_main_v25 (F := Ideal) x0 x1 x2 (idx_main_v26 (ix3 b h l) k))
      = ∑ j : Fin 1024, Cert.Spec.ex (Qf x0 x2 b h) (Kf x0 x2 b h) (Cert.Spec.mf x1 b) (Cert.Spec.mf x1 b) l j := by
    refine Finset.sum_congr rfl fun k _ => ?_
    rw [show idx_main_v26 (ix3 b h l) k = ix4 b h l k from
      funext fun a => Fin.ext (by match a with | ⟨0, _⟩ => rfl | ⟨1, _⟩ => rfl | ⟨2, _⟩ => rfl | ⟨3, _⟩ => rfl), ex_stage]
  rw [val_main_v29_apply, val_main_v27_apply, e, val_main_v26_apply, hsum, val_main_v28_apply, val_main_cst_4_apply,
    val_main_cst_3_apply]
  unfold Cert.Spec.den
  show (Ideal.ofBits .f32 0x00000000#32 + _) + _ = _
  rw [Ideal.ofBits_zero_f32, zero_add]
  rfl

/-- The weight: the exponential over the row's denominator. -/
theorem w_stage (b : Fin 8) (h : Fin 16) (l j : Fin 1024) :
    val_main_v31 (F := Ideal) x0 x1 x2 (ix4 b h l j)
      = Ideal.div (Cert.Spec.ex (Qf x0 x2 b h) (Kf x0 x2 b h) (Cert.Spec.mf x1 b) (Cert.Spec.mf x1 b) l j)
          (Cert.Spec.den (Qf x0 x2 b h) (Kf x0 x2 b h) (Cert.Spec.mf x1 b) (Cert.Spec.mf x1 b) l) := by
  have e : idx_main_v30 (ix4 b h l j) = ix4 b h l (0 : Fin 1) :=
    funext fun a => Fin.ext (by match a with | ⟨0, _⟩ => rfl | ⟨1, _⟩ => rfl | ⟨2, _⟩ => rfl | ⟨3, _⟩ => rfl)
  rw [val_main_v31_apply, ex_stage, val_main_v30_apply, e, den_stage]
  rfl

/-- The head's output: the weights of row l against the values' column d. -/
theorem out_stage (b : Fin 8) (h : Fin 16) (l : Fin 1024) (d : Fin 64) :
    val_main_v32 (F := Ideal) x0 x1 x2 (ix4 b h l d)
      = Cert.Spec.head (Qf x0 x2 b h) (Kf x0 x2 b h) (Vf x0 x2 b h) (Cert.Spec.mf x1 b) (Cert.Spec.mf x1 b) l d := by
  rw [val_main_v32_apply]
  unfold Cert.Spec.head
  refine Finset.sum_congr rfl fun k _ => ?_
  rw [show lidx_main_v32 (ix4 b h l d) k = ix4 b h l k from
      funext fun a => Fin.ext (by match a with | ⟨0, _⟩ => rfl | ⟨1, _⟩ => rfl | ⟨2, _⟩ => rfl | ⟨3, _⟩ => rfl),
    show ridx_main_v32 (ix4 b h l d) k = ix4 b h k d from
      funext fun a => Fin.ext (by match a with | ⟨0, _⟩ => rfl | ⟨1, _⟩ => rfl | ⟨2, _⟩ => rfl | ⟨3, _⟩ => rfl),
    w_stage, v_stage]

/-! ## The result -/

/-- Entry (b, l, c) of the result is entry (b, c / 64, l, c % 64) of the heads' outputs: the transposition (0, 2, 1, 3)
    and the merge of the last two axes, [16, 64] → [1024], read backwards. -/
theorem merge_idx (i : S8x1024x1024.Idx) (hh : (i 2).val / 64 < 16) (hd : (i 2).val % 64 < 64) :
    idx_main_v33 (idx_main_v34 i)
      = ix4 (⟨(i 0).val, (i 0).isLt⟩ : Fin 8) (⟨(i 2).val / 64, hh⟩ : Fin 16) (⟨(i 1).val, (i 1).isLt⟩ : Fin 1024)
          (⟨(i 2).val % 64, hd⟩ : Fin 64) := by
  have h0 : (i 0).val < 8 := (i 0).isLt
  have h1 : (i 1).val < 1024 := (i 1).isLt
  have h2 : (i 2).val < 1024 := (i 2).isLt
  refine funext fun a => Fin.ext ?_
  match a with
  | ⟨0, _⟩ =>
    show (((i 0).val * 1024 + (i 1).val) * 1024 + (i 2).val) / 1048576 = (i 0).val
    omega
  | ⟨1, _⟩ =>
    show (((i 0).val * 1024 + (i 1).val) * 1024 + (i 2).val) / 64 % 16 = (i 2).val / 64
    omega
  | ⟨2, _⟩ =>
    show (((i 0).val * 1024 + (i 1).val) * 1024 + (i 2).val) / 1024 % 1024 = (i 1).val
    omega
  | ⟨3, _⟩ =>
    show (((i 0).val * 1024 + (i 1).val) * 1024 + (i 2).val) % 64 = (i 2).val % 64
    omega

end Stages

/-- The reference's final stage is the specification's function of the three argument arrays. -/
theorem ref_eq_G (x0 : (⟨S8x1024x1024, .f32⟩ : BufTy).Contents (Elt Ideal)) (x1 : (⟨S8x1024, .i32⟩ : BufTy).Contents (Elt Ideal))
    (x2 : (⟨S3072x1024, .f32⟩ : BufTy).Contents (Elt Ideal)) :
    val_main_v34 (F := Ideal) x0 x1 x2 = Cert.Spec.G x0 x1 x2 := by
  funext i
  have h2 : (i 2).val < 1024 := (i 2).isLt
  rw [val_main_v34_apply, val_main_v33_apply, merge_idx i (by omega) (Nat.mod_lt _ (by decide)), out_stage]
  rfl

end Cert.ReferenceIdeal.RefG

end
-- ==== Proof.lean ====
/-
  The certificate. The kernel's program is two pipelined regions around host stretches: a bf16 projection
  qkv = x · Wᵀ written in 8 × 3 blocks, and a masked softmax attention over the 8 batches, sixteen heads per batch, that
  reads the one projection array through three windows (queries, keys, values). The reference computes the same with
  whole-array operations. On the extended reals both are, entry by entry, the one function Cert.Spec.G of (x, mask, W):
  the same sums, the same mask test, the same fill, row maximum, exponential, partition sum plus ε, quotient and final
  sum, in the same order with the same literal words — so the equality uses no law of arithmetic beyond 0 + x = x (a
  sum's zero initial value, a product's zero accumulator) and does not use the inputs' finiteness.
  The three frames: each kernel program's run (every weakly fair execution terminates, nothing faults, every unscoped
  buffer ends at the last boundary's contents, hence the arguments as launched), at the word level and on the extended
  reals; the reference's from its run. The idealization rewrote nothing, so `preserves` is trivial.
-/
import proofs.«405502_j55061480734844_3_alg».proof.Defs
import proofs.«405502_j55061480734844_3_alg».proof.Proof.Gen.Kernel
import proofs.«405502_j55061480734844_3_alg».proof.Proof.Gen.KernelIdeal
import proofs.«405502_j55061480734844_3_alg».proof.Proof.Gen.ReferenceIdeal
import proofs.«405502_j55061480734844_3_alg».proof.Proof.Gen.Pre_finite_inputs
import proofs.«405502_j55061480734844_3_alg».proof.Proof.KRun
import proofs.«405502_j55061480734844_3_alg».proof.Proof.KIRun
import proofs.«405502_j55061480734844_3_alg».proof.Proof.KIBridge
import proofs.«405502_j55061480734844_3_alg».proof.Proof.RefG
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both idealized programs end with the result array at the specification's function of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (Cert.KernelIdeal.Val.argX m c) (Cert.KernelIdeal.Val.argM m c) (Cert.KernelIdeal.Val.argW m c), ?_, ?_⟩
  · exact (θ_run Cert.KernelIdeal.defs _ _).mono
      (fun r h c => ⟨(h c).1.trans (Cert.KernelIdeal.Val.kernel_result m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v34_eq, Cert.ReferenceIdeal.RefG.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
